-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S378x512 : Shape := ⟨2, ![378, 512]⟩
abbrev S1x256 : Shape := ⟨2, ![1, 256]⟩
abbrev S2304x256 : Shape := ⟨2, ![2304, 256]⟩
abbrev S1x128 : Shape := ⟨2, ![1, 128]⟩
abbrev S4x128x128 : Shape := ⟨3, ![4, 128, 128]⟩
abbrev S128x128 : Shape := ⟨2, ![128, 128]⟩
abbrev S1024x3x14x14x14 : Shape := ⟨5, ![1024, 3, 14, 14, 14]⟩
abbrev S_ : Shape := ⟨0, ![]⟩

class Facts : Prop where
  bitsLt_bf16_f32 : FTy.bits .bf16 < FTy.bits .f32
  bcast_S_S378x512 : S_.BroadcastsInDim S378x512 (![] : Fin 0 → Fin S378x512.rank)
  reducesTo_S378x512_S_d0_1 : S378x512.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S2304x256 : S_.BroadcastsInDim S2304x256 (![] : Fin 0 → Fin S2304x256.rank)
  reducesTo_S2304x256_S_d0_1 : S2304x256.ReducesTo [0, 1] S_
  bcast_S_S1x128 : S_.BroadcastsInDim S1x128 (![] : Fin 0 → Fin S1x128.rank)
  reducesTo_S1x128_S_d0_1 : S1x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S128x128 : S_.BroadcastsInDim S128x128 (![] : Fin 0 → Fin S128x128.rank)
  reducesTo_S128x128_S_d0_1 : S128x128.ReducesTo [0, 1] S_
  bcast_S_S1024x3x14x14x14 : S_.BroadcastsInDim S1024x3x14x14x14 (![] : Fin 0 → Fin S1024x3x14x14x14.rank)
  reducesTo_S1024x3x14x14x14_S_d0_1_2_3_4 : S1024x3x14x14x14.ReducesTo [0, 1, 2, 3, 4] S_

variable [Facts]

def fn_part3 {F : FTy → Type} [FloatOps F] (main_arg10 : FVec F S1024x3x14x14x14 .f32) (main_v47 : IVec S_ 1) (main_v51 : IVec S_ 1) : IVec S_ 1 :=
  let main_v52 : IVec S_ 1 := andi main_v47 main_v51
  let main_v53 : FVec F S1024x3x14x14x14 .f32 := Host.absf main_arg10
  let main_cst_18 : FVec F S_ .f32 := constant S_ .f32 0x7F800000#32
  let main_v54 : FVec F S1024x3x14x14x14 .f32 := broadcastInDim S1024x3x14x14x14 ![] bcast_S_S1024x3x14x14x14 main_cst_18
  let main_v55 : IVec S1024x3x14x14x14 1 := cmpf .olt main_v53 main_v54
  let main_c_19 : IVec S_ 1 := constantI S_ 1 1#1
  let main_v56 : IVec S_ 1 := (fun x v => Host.reduce IntOp.andi x v reducesTo_S1024x3x14x14x14_S_d0_1_2_3_4 h_S_) main_v55 main_c_19
  let main_v57 : IVec S_ 1 := andi main_v52 main_v56
  main_v57

def fn_part2 {F : FTy → Type} [FloatOps F] (main_arg7 : FVec F S1x128 .f32) (main_arg8 : FVec F S128x128 .bf16) (main_arg9 : FVec F S1x128 .f32) (main_arg10 : FVec F S1024x3x14x14x14 .f32) (main_v31 : IVec S_ 1) (main_v34 : IVec S1x128 1) : IVec S_ 1 :=
  let main_c_11 : IVec S_ 1 := constantI S_ 1 1#1
  let main_v35 : IVec S_ 1 := (fun x v => Host.reduce IntOp.andi x v reducesTo_S1x128_S_d0_1 h_S_) main_v34 main_c_11
  let main_v36 : IVec S_ 1 := andi main_v31 main_v35
  let main_v37 : FVec F S1x128 .f32 := Host.absf main_arg7
  let main_cst_12 : FVec F S_ .f32 := constant S_ .f32 0x7F800000#32
  let main_v38 : FVec F S1x128 .f32 := broadcastInDim S1x128 ![] bcast_S_S1x128 main_cst_12
  let main_v39 : IVec S1x128 1 := cmpf .olt main_v37 main_v38
  let main_c_13 : IVec S_ 1 := constantI S_ 1 1#1
  let main_v40 : IVec S_ 1 := (fun x v => Host.reduce IntOp.andi x v reducesTo_S1x128_S_d0_1 h_S_) main_v39 main_c_13
  let main_v41 : IVec S_ 1 := andi main_v36 main_v40
  let main_v42 : FVec F S128x128 .f32 := (extf .f32 · bitsLt_bf16_f32) main_arg8
  let main_v43 : FVec F S128x128 .f32 := Host.absf main_v42
  let main_cst_14 : FVec F S_ .f32 := constant S_ .f32 0x7F800000#32
  let main_v44 : FVec F S128x128 .f32 := broadcastInDim S128x128 ![] bcast_S_S128x128 main_cst_14
  let main_v45 : IVec S128x128 1 := cmpf .olt main_v43 main_v44
  let main_c_15 : IVec S_ 1 := constantI S_ 1 1#1
  let main_v46 : IVec S_ 1 := (fun x v => Host.reduce IntOp.andi x v reducesTo_S128x128_S_d0_1 h_S_) main_v45 main_c_15
  let main_v47 : IVec S_ 1 := andi main_v41 main_v46
  let main_v48 : FVec F S1x128 .f32 := Host.absf main_arg9
  let main_cst_16 : FVec F S_ .f32 := constant S_ .f32 0x7F800000#32
  let main_v49 : FVec F S1x128 .f32 := broadcastInDim S1x128 ![] bcast_S_S1x128 main_cst_16
  let main_v50 : IVec S1x128 1 := cmpf .olt main_v48 main_v49
  let main_c_17 : IVec S_ 1 := constantI S_ 1 1#1
  let main_v51 : IVec S_ 1 := (fun x v => Host.reduce IntOp.andi x v reducesTo_S1x128_S_d0_1 h_S_) main_v50 main_c_17
  fn_part3 (F := F) main_arg10 main_v47 main_v51

def fn_part1 {F : FTy → Type} [FloatOps F] (main_arg4 : FVec F S4x128x128 .bf16) (main_arg5 : FVec F S1x128 .f32) (main_arg6 : FVec F S1x128 .f32) (main_arg7 : FVec F S1x128 .f32) (main_arg8 : FVec F S128x128 .bf16) (main_arg9 : FVec F S1x128 .f32) (main_arg10 : FVec F S1024x3x14x14x14 .f32) (main_v15 : IVec S_ 1) (main_v16 : FVec F S1x128 .f32) (main_cst_4 : FVec F S_ .f32) : IVec S_ 1 :=
  let main_v17 : FVec F S1x128 .f32 := broadcastInDim S1x128 ![] bcast_S_S1x128 main_cst_4
  let main_v18 : IVec S1x128 1 := cmpf .olt main_v16 main_v17
  let main_c_5 : IVec S_ 1 := constantI S_ 1 1#1
  let main_v19 : IVec S_ 1 := (fun x v => Host.reduce IntOp.andi x v reducesTo_S1x128_S_d0_1 h_S_) main_v18 main_c_5
  let main_v20 : IVec S_ 1 := andi main_v15 main_v19
  let main_v21 : FVec F S4x128x128 .f32 := (extf .f32 · bitsLt_bf16_f32) main_arg4
  let main_v22 : FVec F S4x128x128 .f32 := Host.absf main_v21
  let main_cst_6 : FVec F S_ .f32 := constant S_ .f32 0x7F800000#32
  let main_v23 : FVec F S4x128x128 .f32 := broadcastInDim S4x128x128 ![] bcast_S_S4x128x128 main_cst_6
  let main_v24 : IVec S4x128x128 1 := cmpf .olt main_v22 main_v23
  let main_c_7 : IVec S_ 1 := constantI S_ 1 1#1
  let main_v25 : IVec S_ 1 := (fun x v => Host.reduce IntOp.andi x v reducesTo_S4x128x128_S_d0_1_2 h_S_) main_v24 main_c_7
  let main_v26 : IVec S_ 1 := andi main_v20 main_v25
  let main_v27 : FVec F S1x128 .f32 := Host.absf main_arg5
  let main_cst_8 : FVec F S_ .f32 := constant S_ .f32 0x7F800000#32
  let main_v28 : FVec F S1x128 .f32 := broadcastInDim S1x128 ![] bcast_S_S1x128 main_cst_8
  let main_v29 : IVec S1x128 1 := cmpf .olt main_v27 main_v28
  let main_c_9 : IVec S_ 1 := constantI S_ 1 1#1
  let main_v30 : IVec S_ 1 := (fun x v => Host.reduce IntOp.andi x v reducesTo_S1x128_S_d0_1 h_S_) main_v29 main_c_9
  let main_v31 : IVec S_ 1 := andi main_v26 main_v30
  let main_v32 : FVec F S1x128 .f32 := Host.absf main_arg6
  let main_cst_10 : FVec F S_ .f32 := constant S_ .f32 0x7F800000#32
  let main_v33 : FVec F S1x128 .f32 := broadcastInDim S1x128 ![] bcast_S_S1x128 main_cst_10
  let main_v34 : IVec S1x128 1 := cmpf .olt main_v32 main_v33
  fn_part2 (F := F) main_arg7 main_arg8 main_arg9 main_arg10 main_v31 main_v34

def fn {F : FTy → Type} [FloatOps F] (main_arg0 : FVec F S378x512 .bf16) (main_arg1 : FVec F S1x256 .f32) (main_arg2 : FVec F S2304x256 .bf16) (main_arg3 : FVec F S1x128 .f32) (main_arg4 : FVec F S4x128x128 .bf16) (main_arg5 : FVec F S1x128 .f32) (main_arg6 : FVec F S1x128 .f32) (main_arg7 : FVec F S1x128 .f32) (main_arg8 : FVec F S128x128 .bf16) (main_arg9 : FVec F S1x128 .f32) (main_arg10 : FVec F S1024x3x14x14x14 .f32) : IVec S_ 1 :=
  let main_v0 : FVec F S378x512 .f32 := (extf .f32 · bitsLt_bf16_f32) main_arg0
  let main_v1 : FVec F S378x512 .f32 := Host.absf main_v0
  let main_cst : FVec F S_ .f32 := constant S_ .f32 0x7F800000#32
  let main_v2 : FVec F S378x512 .f32 := broadcastInDim S378x512 ![] bcast_S_S378x512 main_cst
  let main_v3 : IVec S378x512 1 := cmpf .olt main_v1 main_v2
  let main_c : IVec S_ 1 := constantI S_ 1 1#1
  let main_v4 : IVec S_ 1 := (fun x v => Host.reduce IntOp.andi x v reducesTo_S378x512_S_d0_1 h_S_) main_v3 main_c
  let main_v5 : FVec F S1x256 .f32 := Host.absf main_arg1
  let main_cst_0 : FVec F S_ .f32 := constant S_ .f32 0x7F800000#32
  let main_v6 : FVec F S1x256 .f32 := broadcastInDim S1x256 ![] bcast_S_S1x256 main_cst_0
  let main_v7 : IVec S1x256 1 := cmpf .olt main_v5 main_v6
  let main_c_1 : IVec S_ 1 := constantI S_ 1 1#1
  let main_v8 : IVec S_ 1 := (fun x v => Host.reduce IntOp.andi x v reducesTo_S1x256_S_d0_1 h_S_) main_v7 main_c_1
  let main_v9 : IVec S_ 1 := andi main_v4 main_v8
  let main_v10 : FVec F S2304x256 .f32 := (extf .f32 · bitsLt_bf16_f32) main_arg2
  let main_v11 : FVec F S2304x256 .f32 := Host.absf main_v10
  let main_cst_2 : FVec F S_ .f32 := constant S_ .f32 0x7F800000#32
  let main_v12 : FVec F S2304x256 .f32 := broadcastInDim S2304x256 ![] bcast_S_S2304x256 main_cst_2
  let main_v13 : IVec S2304x256 1 := cmpf .olt main_v11 main_v12
  let main_c_3 : IVec S_ 1 := constantI S_ 1 1#1
  let main_v14 : IVec S_ 1 := (fun x v => Host.reduce IntOp.andi x v reducesTo_S2304x256_S_d0_1 h_S_) main_v13 main_c_3
  let main_v15 : IVec S_ 1 := andi main_v9 main_v14
  let main_v16 : FVec F S1x128 .f32 := Host.absf main_arg3
  let main_cst_4 : FVec F S_ .f32 := constant S_ .f32 0x7F800000#32
  fn_part1 (F := F) main_arg4 main_arg5 main_arg6 main_arg7 main_arg8 main_arg9 main_arg10 main_v15 main_v16 main_cst_4
-- ==== Kernel.lean ====
abbrev S378x512 : Shape := ⟨2, ![378, 512]⟩
abbrev S1x256 : Shape := ⟨2, ![1, 256]⟩
abbrev S2304x256 : Shape := ⟨2, ![2304, 256]⟩
abbrev S1x128 : Shape := ⟨2, ![1, 128]⟩
abbrev S4x128x128 : Shape := ⟨3, ![4, 128, 128]⟩
abbrev S128x128 : Shape := ⟨2, ![128, 128]⟩
abbrev S1024x3x14x14x14 : Shape := ⟨5, ![1024, 3, 14, 14, 14]⟩
abbrev S14x14x1024x14x3 : Shape := ⟨5, ![14, 14, 1024, 14, 3]⟩
abbrev S14x14x1024x42 : Shape := ⟨4, ![14, 14, 1024, 42]⟩
abbrev S3x126x512 : Shape := ⟨3, ![3, 126, 512]⟩
abbrev S_ : Shape := ⟨0, ![]⟩
abbrev S3x128x512 : Shape := ⟨3, ![3, 128, 512]⟩
abbrev S2x128x512 : Shape := ⟨3, ![2, 128, 512]⟩
abbrev S256x512 : Shape := ⟨2, ![256, 512]⟩
abbrev S1x128x512 : Shape := ⟨3, ![1, 128, 512]⟩
abbrev S128x512 : Shape := ⟨2, ![128, 512]⟩
abbrev S512x128 : Shape := ⟨2, ![512, 128]⟩
abbrev S1024x128 : Shape := ⟨2, ![1024, 128]⟩
abbrev S14x14x16x42 : Shape := ⟨4, ![14, 14, 16, 42]⟩
abbrev S16x128 : Shape := ⟨2, ![16, 128]⟩
abbrev S14x12x16x2 : Shape := ⟨4, ![14, 12, 16, 2]⟩
abbrev S14x12x16x42 : Shape := ⟨4, ![14, 12, 16, 42]⟩
abbrev S14x12x16x128 : Shape := ⟨4, ![14, 12, 16, 128]⟩
abbrev S12x12x16x128 : Shape := ⟨4, ![12, 12, 16, 128]⟩
abbrev S12x12x16x256 : Shape := ⟨4, ![12, 12, 16, 256]⟩
abbrev S2304x128 : Shape := ⟨2, ![2304, 128]⟩
abbrev S2304x512 : Shape := ⟨2, ![2304, 512]⟩
abbrev S6x2x12x16x256 : Shape := ⟨5, ![6, 2, 12, 16, 256]⟩
abbrev S6x1x12x16x256 : Shape := ⟨5, ![6, 1, 12, 16, 256]⟩
abbrev S6x12x16x256 : Shape := ⟨4, ![6, 12, 16, 256]⟩
abbrev S6x6x2x16x256 : Shape := ⟨5, ![6, 6, 2, 16, 256]⟩
abbrev S6x6x1x16x256 : Shape := ⟨5, ![6, 6, 1, 16, 256]⟩
abbrev S6x6x16x256 : Shape := ⟨4, ![6, 6, 16, 256]⟩
abbrev S1x1x1x256 : Shape := ⟨4, ![1, 1, 1, 256]⟩
abbrev S4x4x16x256 : Shape := ⟨4, ![4, 4, 16, 256]⟩
abbrev S4x4x16x2304 : Shape := ⟨4, ![4, 4, 16, 2304]⟩
abbrev S256x2304 : Shape := ⟨2, ![256, 2304]⟩
abbrev S256x256 : Shape := ⟨2, ![256, 256]⟩
abbrev S256x128 : Shape := ⟨2, ![256, 128]⟩
abbrev S2x2x4x16x128 : Shape := ⟨5, ![2, 2, 4, 16, 128]⟩
abbrev S2x1x4x16x128 : Shape := ⟨5, ![2, 1, 4, 16, 128]⟩
abbrev S2x4x16x128 : Shape := ⟨4, ![2, 4, 16, 128]⟩
abbrev S2x2x2x16x128 : Shape := ⟨5, ![2, 2, 2, 16, 128]⟩
abbrev S2x2x1x16x128 : Shape := ⟨5, ![2, 2, 1, 16, 128]⟩
abbrev S2x2x16x128 : Shape := ⟨4, ![2, 2, 16, 128]⟩
abbrev S1x1x1x128 : Shape := ⟨4, ![1, 1, 1, 128]⟩
abbrev S1x1x16x128 : Shape := ⟨4, ![1, 1, 16, 128]⟩
abbrev S16x512 : Shape := ⟨2, ![16, 512]⟩
abbrev S1024x10 : Shape := ⟨2, ![1024, 10]⟩

abbrev nBuf : Space → Nat
  | .hbm => 24
  | .vmem => 15
  | .smem => 0
  | _ => 0

abbrev bufTy : (tb : Table) → Fin (tcTables nBuf tb) → BufTy
  | .hbm, ⟨0, _⟩ => ⟨S378x512, .bf16⟩
  | .hbm, ⟨1, _⟩ => ⟨S1x256, .f32⟩
  | .hbm, ⟨2, _⟩ => ⟨S2304x256, .bf16⟩
  | .hbm, ⟨3, _⟩ => ⟨S1x128, .f32⟩
  | .hbm, ⟨4, _⟩ => ⟨S4x128x128, .bf16⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S128x128, .bf16⟩
  | .hbm, ⟨9, _⟩ => ⟨S1x128, .f32⟩
  | .hbm, ⟨10, _⟩ => ⟨S1024x3x14x14x14, .f32⟩
  | .hbm, ⟨11, _⟩ => ⟨S14x14x1024x14x3, .f32⟩
  | .hbm, ⟨12, _⟩ => ⟨S14x14x1024x42, .f32⟩
  | .hbm, ⟨13, _⟩ => ⟨S3x126x512, .bf16⟩
  | .hbm, ⟨14, _⟩ => ⟨S_, .i32⟩
  | .hbm, ⟨15, _⟩ => ⟨S_, .bf16⟩
  | .hbm, ⟨16, _⟩ => ⟨S3x128x512, .bf16⟩
  | .hbm, ⟨17, _⟩ => ⟨S2x128x512, .bf16⟩
  | .hbm, ⟨18, _⟩ => ⟨S256x512, .bf16⟩
  | .hbm, ⟨19, _⟩ => ⟨S1x128x512, .bf16⟩
  | .hbm, ⟨20, _⟩ => ⟨S128x512, .bf16⟩
  | .hbm, ⟨21, _⟩ => ⟨S512x128, .bf16⟩
  | .hbm, ⟨22, _⟩ => ⟨S1024x128, .f32⟩
  | .hbm, ⟨23, _⟩ => ⟨S1024x10, .f32⟩
  | .local _ .vmem, ⟨0, _⟩ => ⟨S14x14x16x42, .f32⟩
  | .local _ .vmem, ⟨1, _⟩ => ⟨S14x14x16x42, .f32⟩
  | .local _ .vmem, ⟨2, _⟩ => ⟨S256x512, .bf16⟩
  | .local _ .vmem, ⟨3, _⟩ => ⟨S128x512, .bf16⟩
  | .local _ .vmem, ⟨4, _⟩ => ⟨S1x256, .f32⟩
  | .local _ .vmem, ⟨5, _⟩ => ⟨S2304x256, .bf16⟩
  | .local _ .vmem, ⟨6, _⟩ => ⟨S1x128, .f32⟩
  | .local _ .vmem, ⟨7, _⟩ => ⟨S512x128, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x128, .bf16⟩
  | .local _ .vmem, ⟨12, _⟩ => ⟨S1x128, .f32⟩
  | .local _ .vmem, ⟨13, _⟩ => ⟨S16x128, .f32⟩
  | .local _ .vmem, ⟨14, _⟩ => ⟨S16x128, .f32⟩
  | _, _ => ⟨S378x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S14x14x16x42 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2304x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S1024x3x14x14x14_S14x14x1024x14x3_2_3_0_4_1 : S1024x3x14x14x14.Transposes [2, 3, 0, 4, 1] S14x14x1024x14x3
  shapeCasts_S14x14x1024x14x3_S14x14x1024x42 : S14x14x1024x14x3.ShapeCasts S14x14x1024x42
  shapeCasts_S378x512_S3x126x512 : S378x512.ShapeCasts S3x126x512
  pads_S3x126x512_S3x128x512_000_020_000 : S3x126x512.Pads (![0, 0, 0] : Fin 3 → Nat) ![0, 2, 0] ![0, 0, 0] S3x128x512
  h_S_ : 0 < S_.numel
  slices_S3x128x512_S2x128x512_0_0_0 : S3x128x512.Slices ![0, 0, 0] S2x128x512
  shapeCasts_S2x128x512_S256x512 : S2x128x512.ShapeCasts S256x512
  slices_S3x128x512_S1x128x512_2_0_0 : S3x128x512.Slices ![2, 0, 0] S1x128x512
  shapeCasts_S1x128x512_S128x512 : S1x128x512.ShapeCasts S128x512
  shapeCasts_S4x128x128_S512x128 : S4x128x128.ShapeCasts S512x128
  inb_S14x14x16x42_S14x14x16x42_0_0_0_0 : ∀ a, (![0, 0, 0, 0] : Fin 4 → Nat) a + S14x14x16x42.size a ≤ S14x14x16x42.size a
  h_S14x14x16x42 : 0 < S14x14x16x42.numel
  shapeCasts_S14x14x16x42_S14x14x16x42 : S14x14x16x42.ShapeCasts S14x14x16x42
  bitsLt_bf16_f32 : FTy.bits .bf16 < FTy.bits .f32
  slices_S14x14x16x42_o0_0_0_0_S14x12x16x42 : S14x14x16x42.Slices ![0, 0, 0, 0] S14x12x16x42
  slices_S14x14x16x42_o0_1_0_0_S14x12x16x42 : S14x14x16x42.Slices ![0, 1, 0, 0] S14x12x16x42
  slices_S14x14x16x42_o0_2_0_0_S14x12x16x42 : S14x14x16x42.Slices ![0, 2, 0, 0] S14x12x16x42
  concatenates_S14x12x16x42_S14x12x16x42_S14x12x16x42_S14x12x16x2_S14x12x16x128_d3 : Shape.Concatenates [S14x12x16x42, S14x12x16x42, S14x12x16x42, S14x12x16x2] S14x12x16x128 3
  slices_S14x12x16x128_o0_0_0_0_S12x12x16x128 : S14x12x16x128.Slices ![0, 0, 0, 0] S12x12x16x128
  slices_S14x12x16x128_o1_0_0_0_S12x12x16x128 : S14x12x16x128.Slices ![1, 0, 0, 0] S12x12x16x128
  concatenates_S12x12x16x128_S12x12x16x128_S12x12x16x256_d3 : Shape.Concatenates [S12x12x16x128, S12x12x16x128] S12x12x16x256 3
  shapeCasts_S12x12x16x256_S2304x256 : S12x12x16x256.ShapeCasts S2304x256
  slices_S14x12x16x128_o2_0_0_0_S12x12x16x128 : S14x12x16x128.Slices ![2, 0, 0, 0] S12x12x16x128
  shapeCasts_S12x12x16x128_S2304x128 : S12x12x16x128.ShapeCasts S2304x128
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  slices_S2304x512_o0_0_S2304x256 : S2304x512.Slices ![0, 0] S2304x256
  slices_S2304x512_o0_256_S2304x256 : S2304x512.Slices ![0, 256] S2304x256
  shapeCasts_S2304x256_S6x2x12x16x256 : S2304x256.ShapeCasts S6x2x12x16x256
  slices_S6x2x12x16x256_o0_0_0_0_0_S6x1x12x16x256 : S6x2x12x16x256.Slices ![0, 0, 0, 0, 0] S6x1x12x16x256
  shapeCasts_S6x1x12x16x256_S6x12x16x256 : S6x1x12x16x256.ShapeCasts S6x12x16x256
  slices_S6x2x12x16x256_o0_1_0_0_0_S6x1x12x16x256 : S6x2x12x16x256.Slices ![0, 1, 0, 0, 0] S6x1x12x16x256
  shapeCasts_S6x12x16x256_S6x6x2x16x256 : S6x12x16x256.ShapeCasts S6x6x2x16x256
  slices_S6x6x2x16x256_o0_0_0_0_0_S6x6x1x16x256 : S6x6x2x16x256.Slices ![0, 0, 0, 0, 0] S6x6x1x16x256
  shapeCasts_S6x6x1x16x256_S6x6x16x256 : S6x6x1x16x256.ShapeCasts S6x6x16x256
  slices_S6x6x2x16x256_o0_0_1_0_0_S6x6x1x16x256 : S6x6x2x16x256.Slices ![0, 0, 1, 0, 0] S6x6x1x16x256
  inb_S1x256_S1x256_0_0 : ∀ a, (![0, 0] : Fin 2 → Nat) a + S1x256.size a ≤ S1x256.size a
  h_S1x256 : 0 < S1x256.numel
  shapeCasts_S1x256_S1x1x1x256 : S1x256.ShapeCasts S1x1x1x256
  broadcasts_S1x1x1x256_S6x6x16x256 : S1x1x1x256.Broadcasts S6x6x16x256
  slices_S6x6x16x256_o0_0_0_0_S4x4x16x256 : S6x6x16x256.Slices ![0, 0, 0, 0] S4x4x16x256
  slices_S6x6x16x256_o0_1_0_0_S4x4x16x256 : S6x6x16x256.Slices ![0, 1, 0, 0] S4x4x16x256
  slices_S6x6x16x256_o0_2_0_0_S4x4x16x256 : S6x6x16x256.Slices ![0, 2, 0, 0] S4x4x16x256
  slices_S6x6x16x256_o1_0_0_0_S4x4x16x256 : S6x6x16x256.Slices ![1, 0, 0, 0] S4x4x16x256
  slices_S6x6x16x256_o1_1_0_0_S4x4x16x256 : S6x6x16x256.Slices ![1, 1, 0, 0] S4x4x16x256
  slices_S6x6x16x256_o1_2_0_0_S4x4x16x256 : S6x6x16x256.Slices ![1, 2, 0, 0] S4x4x16x256
  slices_S6x6x16x256_o2_0_0_0_S4x4x16x256 : S6x6x16x256.Slices ![2, 0, 0, 0] S4x4x16x256
  slices_S6x6x16x256_o2_1_0_0_S4x4x16x256 : S6x6x16x256.Slices ![2, 1, 0, 0] S4x4x16x256
  slices_S6x6x16x256_o2_2_0_0_S4x4x16x256 : S6x6x16x256.Slices ![2, 2, 0, 0] S4x4x16x256
  concatenates_S4x4x16x256_S4x4x16x256_S4x4x16x256_S4x4x16x256_S4x4x16x256_S4x4x16x256_S4x4x16x256_S4x4x16x256_S4x4x16x256_S4x4x16x2304_d3 : Shape.Concatenates [S4x4x16x256, S4x4x16x256, S4x4x16x256, S4x4x16x256, S4x4x16x256, S4x4x16x256, S4x4x16x256, S4x4x16x256, S4x4x16x256] S4x4x16x2304 3
  shapeCasts_S4x4x16x2304_S256x2304 : S4x4x16x2304.ShapeCasts S256x2304
  inb_S2304x256_S2304x256_0_0 : ∀ a, (![0, 0] : Fin 2 → Nat) a + S2304x256.size a ≤ S2304x256.size a
  h_S2304x256 : 0 < S2304x256.numel
  slices_S256x256_o0_0_S256x128 : S256x256.Slices ![0, 0] S256x128
  slices_S256x256_o0_128_S256x128 : S256x256.Slices ![0, 128] S256x128
  shapeCasts_S256x128_S2x2x4x16x128 : S256x128.ShapeCasts S2x2x4x16x128
  slices_S2x2x4x16x128_o0_0_0_0_0_S2x1x4x16x128 : S2x2x4x16x128.Slices ![0, 0, 0, 0, 0] S2x1x4x16x128
  shapeCasts_S2x1x4x16x128_S2x4x16x128 : S2x1x4x16x128.ShapeCasts S2x4x16x128
  slices_S2x2x4x16x128_o0_1_0_0_0_S2x1x4x16x128 : S2x2x4x16x128.Slices ![0, 1, 0, 0, 0] S2x1x4x16x128
  shapeCasts_S2x4x16x128_S2x2x2x16x128 : S2x4x16x128.ShapeCasts S2x2x2x16x128
  slices_S2x2x2x16x128_o0_0_0_0_0_S2x2x1x16x128 : S2x2x2x16x128.Slices ![0, 0, 0, 0, 0] S2x2x1x16x128
  shapeCasts_S2x2x1x16x128_S2x2x16x128 : S2x2x1x16x128.ShapeCasts S2x2x16x128
  slices_S2x2x2x16x128_o0_0_1_0_0_S2x2x1x16x128 : S2x2x2x16x128.Slices ![0, 0, 1, 0, 0] S2x2x1x16x128
  inb_S1x128_S1x128_0_0 : ∀ a, (![0, 0] : Fin 2 → Nat) a + S1x128.size a ≤ S1x128.size a
  h_S1x128 : 0 < S1x128.numel
  shapeCasts_S1x128_S1x1x1x128 : S1x128.ShapeCasts S1x1x1x128
  broadcasts_S1x1x1x128_S2x2x16x128 : S1x1x1x128.Broadcasts S2x2x16x128
  slices_S2x2x16x128_o0_0_0_0_S1x1x16x128 : S2x2x16x128.Slices ![0, 0, 0, 0] S1x1x16x128
  shapeCasts_S1x1x16x128_S16x128 : S1x1x16x128.ShapeCasts S16x128
  slices_S2x2x16x128_o0_1_0_0_S1x1x16x128 : S2x2x16x128.Slices ![0, 1, 0, 0] S1x1x16x128
  slices_S2x2x16x128_o1_0_0_0_S1x1x16x128 : S2x2x16x128.Slices ![1, 0, 0, 0] S1x1x16x128
  slices_S2x2x16x128_o1_1_0_0_S1x1x16x128 : S2x2x16x128.Slices ![1, 1, 0, 0] S1x1x16x128
  concatenates_S16x128_S16x128_S16x128_S16x128_S16x512_d1 : Shape.Concatenates [S16x128, S16x128, S16x128, S16x128] S16x512 1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S16x128 : S1x128.Broadcasts S16x128
  inb_S128x128_S128x128_0_0 : ∀ a, (![0, 0] : Fin 2 → Nat) a + S128x128.size a ≤ S128x128.size a
  h_S128x128 : 0 < S128x128.numel
  inb_S16x128_S16x128_0_0 : ∀ a, (![0, 0] : Fin 2 → Nat) a + S16x128.size a ≤ S16x128.size a
  h_S16x128 : 0 < S16x128.numel
  slices_S1024x128_S1024x10_0_0 : S1024x128.Slices ![0, 0] S1024x10
  dot_S2304x256_S256x512_S2304x512_1_0_0_1_n_n_wf : DotDims.WF S2304x256 S256x512 S2304x512 [1] [0] [0] [1] [] []
  dot_S2304x128_S128x512_S2304x512_1_0_0_1_n_n_wf : DotDims.WF S2304x128 S128x512 S2304x512 [1] [0] [0] [1] [] []
  dot_S256x2304_S2304x256_S256x256_1_0_0_1_n_n_wf : DotDims.WF S256x2304 S2304x256 S256x256 [1] [0] [0] [1] [] []
  dot_S16x512_S512x128_S16x128_1_0_0_1_n_n_wf : DotDims.WF S16x512 S512x128 S16x128 [1] [0] [0] [1] [] []
  dot_S16x128_S128x128_S16x128_1_0_0_1_n_n_wf : DotDims.WF S16x128 S128x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S14x14x16x42.size a ≤ S14x14x1024x42.size a
  hwx0_0 : ∀ i : grid0.Coords, EltTy.bits .f32 = 32 ∨ (Rect.block (s := S14x14x1024x42) S14x14x16x42.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2304x256.size a ≤ S2304x256.size a
  hwx0_4 : ∀ i : grid0.Coords, EltTy.bits .bf16 = 32 ∨ (Rect.block (s := S2304x256) S2304x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .bf16 = 32 ∨ (Rect.block (s := S512x128) S512x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .bf16 = 32 ∨ (Rect.block (s := S128x128) S128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S16x128.size a ≤ S1024x128.size a
  hwx0_12 : ∀ i : grid0.Coords, EltTy.bits .f32 = 32 ∨ (Rect.block (s := S1024x128) S16x128.size (cc0_transform_12 i) (hinb0_12 i)).WholeWords (EltTy.packing .f32)

variable [Facts₀]

def dot_S2304x256_S256x512_S2304x512_1_0_0_1_n_n : DotDims S2304x256 S256x512 S2304x512 where
  lhsContracting := [1]
  rhsContracting := [0]
  lhsNonContracting := [0]
  rhsNonContracting := [1]
  lhsBatch := []
  rhsBatch := []
  wf := dot_S2304x256_S256x512_S2304x512_1_0_0_1_n_n_wf
def dot_S2304x128_S128x512_S2304x512_1_0_0_1_n_n : DotDims S2304x128 S128x512 S2304x512 where
  lhsContracting := [1]
  rhsContracting := [0]
  lhsNonContracting := [0]
  rhsNonContracting := [1]
  lhsBatch := []
  rhsBatch := []
  wf := dot_S2304x128_S128x512_S2304x512_1_0_0_1_n_n_wf
def dot_S256x2304_S2304x256_S256x256_1_0_0_1_n_n : DotDims S256x2304 S2304x256 S256x256 where
  lhsContracting := [1]
  rhsContracting := [0]
  lhsNonContracting := [0]
  rhsNonContracting := [1]
  lhsBatch := []
  rhsBatch := []
  wf := dot_S256x2304_S2304x256_S256x256_1_0_0_1_n_n_wf
def dot_S16x512_S512x128_S16x128_1_0_0_1_n_n : DotDims S16x512 S512x128 S16x128 where
  lhsContracting := [1]
  rhsContracting := [0]
  lhsNonContracting := [0]
  rhsNonContracting := [1]
  lhsBatch := []
  rhsBatch := []
  wf := dot_S16x512_S512x128_S16x128_1_0_0_1_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf

abbrev win0_0 : Pipeline.Window sig grid0 :=
  Pipeline.Window.ofSpec (Memref.whole main_v1) S14x14x16x42.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S2304x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S16x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S378x512 : Shape := ⟨2, ![378, 512]⟩
abbrev S1x256 : Shape := ⟨2, ![1, 256]⟩
abbrev S2304x256 : Shape := ⟨2, ![2304, 256]⟩
abbrev S1x128 : Shape := ⟨2, ![1, 128]⟩
abbrev S4x128x128 : Shape := ⟨3, ![4, 128, 128]⟩
abbrev S128x128 : Shape := ⟨2, ![128, 128]⟩
abbrev S1024x3x14x14x14 : Shape := ⟨5, ![1024, 3, 14, 14, 14]⟩
abbrev S1024x14x14x14x3 : Shape := ⟨5, ![1024, 14, 14, 14, 3]⟩
abbrev S1024x14x14x42 : Shape := ⟨4, ![1024, 14, 14, 42]⟩
abbrev S1024x1x128 : Shape := ⟨3, ![1024, 1, 128]⟩
abbrev S1x14x14x42 : Shape := ⟨4, ![1, 14, 14, 42]⟩
abbrev S1x1x128 : Shape := ⟨3, ![1, 1, 128]⟩
abbrev S1x1x12x42 : Shape := ⟨4, ![1, 1, 12, 42]⟩
abbrev S12x42 : Shape := ⟨2, ![12, 42]⟩
abbrev S12x126 : Shape := ⟨2, ![12, 126]⟩
abbrev S12x378 : Shape := ⟨2, ![12, 378]⟩
abbrev S144x378 : Shape := ⟨2, ![144, 378]⟩
abbrev S144x512 : Shape := ⟨2, ![144, 512]⟩
abbrev S144x256 : Shape := ⟨2, ![144, 256]⟩
abbrev S12x256 : Shape := ⟨2, ![12, 256]⟩
abbrev S36x256 : Shape := ⟨2, ![36, 256]⟩
abbrev S4x256 : Shape := ⟨2, ![4, 256]⟩
abbrev S4x2304 : Shape := ⟨2, ![4, 2304]⟩
abbrev S16x2304 : Shape := ⟨2, ![16, 2304]⟩
abbrev S16x256 : Shape := ⟨2, ![16, 256]⟩
abbrev S16x128 : Shape := ⟨2, ![16, 128]⟩
abbrev S4x128 : Shape := ⟨2, ![4, 128]⟩
abbrev S1x128x128 : Shape := ⟨3, ![1, 128, 128]⟩
abbrev S1024x128 : Shape := ⟨2, ![1024, 128]⟩
abbrev S1024x10 : Shape := ⟨2, ![1024, 10]⟩

abbrev nBuf : Space → Nat
  | .hbm => 16
  | .vmem => 14
  | .smem => 0
  | _ => 0

abbrev bufTy : (tb : Table) → Fin (tcTables nBuf tb) → BufTy
  | .hbm, ⟨0, _⟩ => ⟨S378x512, .bf16⟩
  | .hbm, ⟨1, _⟩ => ⟨S1x256, .f32⟩
  | .hbm, ⟨2, _⟩ => ⟨S2304x256, .bf16⟩
  | .hbm, ⟨3, _⟩ => ⟨S1x128, .f32⟩
  | .hbm, ⟨4, _⟩ => ⟨S4x128x128, .bf16⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S128x128, .bf16⟩
  | .hbm, ⟨9, _⟩ => ⟨S1x128, .f32⟩
  | .hbm, ⟨10, _⟩ => ⟨S1024x3x14x14x14, .f32⟩
  | .hbm, ⟨11, _⟩ => ⟨S1024x14x14x14x3, .f32⟩
  | .hbm, ⟨12, _⟩ => ⟨S1024x14x14x42, .f32⟩
  | .hbm, ⟨13, _⟩ => ⟨S1024x1x128, .f32⟩
  | .hbm, ⟨14, _⟩ => ⟨S1024x128, .f32⟩
  | .hbm, ⟨15, _⟩ => ⟨S1024x10, .f32⟩
  | .local _ .vmem, ⟨0, _⟩ => ⟨S1x14x14x42, .f32⟩
  | .local _ .vmem, ⟨1, _⟩ => ⟨S1x14x14x42, .f32⟩
  | .local _ .vmem, ⟨2, _⟩ => ⟨S378x512, .bf16⟩
  | .local _ .vmem, ⟨3, _⟩ => ⟨S1x256, .f32⟩
  | .local _ .vmem, ⟨4, _⟩ => ⟨S2304x256, .bf16⟩
  | .local _ .vmem, ⟨5, _⟩ => ⟨S1x128, .f32⟩
  | .local _ .vmem, ⟨6, _⟩ => ⟨S4x128x128, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S1x1x128, .f32⟩
  | .local _ .vmem, ⟨13, _⟩ => ⟨S1x1x128, .f32⟩
  | _, _ => ⟨S378x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![1024], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x14x14x42 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S378x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S1024x3x14x14x14_S1024x14x14x14x3_0_2_3_4_1 : S1024x3x14x14x14.Transposes [0, 2, 3, 4, 1] S1024x14x14x14x3
  shapeCasts_S1024x14x14x14x3_S1024x14x14x42 : S1024x14x14x14x3.ShapeCasts S1024x14x14x42
  inb_S1x14x14x42_S1x1x12x42_0_0_0_0 : ∀ a, (![0, 0, 0, 0] : Fin 4 → Nat) a + S1x1x12x42.size a ≤ S1x14x14x42.size a
  h_S1x1x12x42 : 0 < S1x1x12x42.numel
  shapeCasts_S1x1x12x42_S12x42 : S1x1x12x42.ShapeCasts S12x42
  inb_S1x14x14x42_S1x1x12x42_0_0_1_0 : ∀ a, (![0, 0, 1, 0] : Fin 4 → Nat) a + S1x1x12x42.size a ≤ S1x14x14x42.size a
  inb_S1x14x14x42_S1x1x12x42_0_0_2_0 : ∀ a, (![0, 0, 2, 0] : Fin 4 → Nat) a + S1x1x12x42.size a ≤ S1x14x14x42.size a
  concatenates_S12x42_S12x42_S12x42_S12x126_d1 : Shape.Concatenates [S12x42, S12x42, S12x42] S12x126 1
  inb_S1x14x14x42_S1x1x12x42_0_1_0_0 : ∀ a, (![0, 1, 0, 0] : Fin 4 → Nat) a + S1x1x12x42.size a ≤ S1x14x14x42.size a
  inb_S1x14x14x42_S1x1x12x42_0_1_1_0 : ∀ a, (![0, 1, 1, 0] : Fin 4 → Nat) a + S1x1x12x42.size a ≤ S1x14x14x42.size a
  inb_S1x14x14x42_S1x1x12x42_0_1_2_0 : ∀ a, (![0, 1, 2, 0] : Fin 4 → Nat) a + S1x1x12x42.size a ≤ S1x14x14x42.size a
  inb_S1x14x14x42_S1x1x12x42_0_2_0_0 : ∀ a, (![0, 2, 0, 0] : Fin 4 → Nat) a + S1x1x12x42.size a ≤ S1x14x14x42.size a
  inb_S1x14x14x42_S1x1x12x42_0_2_1_0 : ∀ a, (![0, 2, 1, 0] : Fin 4 → Nat) a + S1x1x12x42.size a ≤ S1x14x14x42.size a
  inb_S1x14x14x42_S1x1x12x42_0_2_2_0 : ∀ a, (![0, 2, 2, 0] : Fin 4 → Nat) a + S1x1x12x42.size a ≤ S1x14x14x42.size a
  inb_S1x14x14x42_S1x1x12x42_0_3_0_0 : ∀ a, (![0, 3, 0, 0] : Fin 4 → Nat) a + S1x1x12x42.size a ≤ S1x14x14x42.size a
  inb_S1x14x14x42_S1x1x12x42_0_3_1_0 : ∀ a, (![0, 3, 1, 0] : Fin 4 → Nat) a + S1x1x12x42.size a ≤ S1x14x14x42.size a
  inb_S1x14x14x42_S1x1x12x42_0_3_2_0 : ∀ a, (![0, 3, 2, 0] : Fin 4 → Nat) a + S1x1x12x42.size a ≤ S1x14x14x42.size a
  inb_S1x14x14x42_S1x1x12x42_0_4_0_0 : ∀ a, (![0, 4, 0, 0] : Fin 4 → Nat) a + S1x1x12x42.size a ≤ S1x14x14x42.size a
  inb_S1x14x14x42_S1x1x12x42_0_4_1_0 : ∀ a, (![0, 4, 1, 0] : Fin 4 → Nat) a + S1x1x12x42.size a ≤ S1x14x14x42.size a
  inb_S1x14x14x42_S1x1x12x42_0_4_2_0 : ∀ a, (![0, 4, 2, 0] : Fin 4 → Nat) a + S1x1x12x42.size a ≤ S1x14x14x42.size a
  inb_S1x14x14x42_S1x1x12x42_0_5_0_0 : ∀ a, (![0, 5, 0, 0] : Fin 4 → Nat) a + S1x1x12x42.size a ≤ S1x14x14x42.size a
  inb_S1x14x14x42_S1x1x12x42_0_5_1_0 : ∀ a, (![0, 5, 1, 0] : Fin 4 → Nat) a + S1x1x12x42.size a ≤ S1x14x14x42.size a
  inb_S1x14x14x42_S1x1x12x42_0_5_2_0 : ∀ a, (![0, 5, 2, 0] : Fin 4 → Nat) a + S1x1x12x42.size a ≤ S1x14x14x42.size a
  inb_S1x14x14x42_S1x1x12x42_0_6_0_0 : ∀ a, (![0, 6, 0, 0] : Fin 4 → Nat) a + S1x1x12x42.size a ≤ S1x14x14x42.size a
  inb_S1x14x14x42_S1x1x12x42_0_6_1_0 : ∀ a, (![0, 6, 1, 0] : Fin 4 → Nat) a + S1x1x12x42.size a ≤ S1x14x14x42.size a
  inb_S1x14x14x42_S1x1x12x42_0_6_2_0 : ∀ a, (![0, 6, 2, 0] : Fin 4 → Nat) a + S1x1x12x42.size a ≤ S1x14x14x42.size a
  inb_S1x14x14x42_S1x1x12x42_0_7_0_0 : ∀ a, (![0, 7, 0, 0] : Fin 4 → Nat) a + S1x1x12x42.size a ≤ S1x14x14x42.size a
  inb_S1x14x14x42_S1x1x12x42_0_7_1_0 : ∀ a, (![0, 7, 1, 0] : Fin 4 → Nat) a + S1x1x12x42.size a ≤ S1x14x14x42.size a
  inb_S1x14x14x42_S1x1x12x42_0_7_2_0 : ∀ a, (![0, 7, 2, 0] : Fin 4 → Nat) a + S1x1x12x42.size a ≤ S1x14x14x42.size a
  inb_S1x14x14x42_S1x1x12x42_0_8_0_0 : ∀ a, (![0, 8, 0, 0] : Fin 4 → Nat) a + S1x1x12x42.size a ≤ S1x14x14x42.size a
  inb_S1x14x14x42_S1x1x12x42_0_8_1_0 : ∀ a, (![0, 8, 1, 0] : Fin 4 → Nat) a + S1x1x12x42.size a ≤ S1x14x14x42.size a
  inb_S1x14x14x42_S1x1x12x42_0_8_2_0 : ∀ a, (![0, 8, 2, 0] : Fin 4 → Nat) a + S1x1x12x42.size a ≤ S1x14x14x42.size a
  inb_S1x14x14x42_S1x1x12x42_0_9_0_0 : ∀ a, (![0, 9, 0, 0] : Fin 4 → Nat) a + S1x1x12x42.size a ≤ S1x14x14x42.size a
  inb_S1x14x14x42_S1x1x12x42_0_9_1_0 : ∀ a, (![0, 9, 1, 0] : Fin 4 → Nat) a + S1x1x12x42.size a ≤ S1x14x14x42.size a
  inb_S1x14x14x42_S1x1x12x42_0_9_2_0 : ∀ a, (![0, 9, 2, 0] : Fin 4 → Nat) a + S1x1x12x42.size a ≤ S1x14x14x42.size a
  inb_S1x14x14x42_S1x1x12x42_0_10_0_0 : ∀ a, (![0, 10, 0, 0] : Fin 4 → Nat) a + S1x1x12x42.size a ≤ S1x14x14x42.size a
  inb_S1x14x14x42_S1x1x12x42_0_10_1_0 : ∀ a, (![0, 10, 1, 0] : Fin 4 → Nat) a + S1x1x12x42.size a ≤ S1x14x14x42.size a
  inb_S1x14x14x42_S1x1x12x42_0_10_2_0 : ∀ a, (![0, 10, 2, 0] : Fin 4 → Nat) a + S1x1x12x42.size a ≤ S1x14x14x42.size a
  inb_S1x14x14x42_S1x1x12x42_0_11_0_0 : ∀ a, (![0, 11, 0, 0] : Fin 4 → Nat) a + S1x1x12x42.size a ≤ S1x14x14x42.size a
  inb_S1x14x14x42_S1x1x12x42_0_11_1_0 : ∀ a, (![0, 11, 1, 0] : Fin 4 → Nat) a + S1x1x12x42.size a ≤ S1x14x14x42.size a
  inb_S1x14x14x42_S1x1x12x42_0_11_2_0 : ∀ a, (![0, 11, 2, 0] : Fin 4 → Nat) a + S1x1x12x42.size a ≤ S1x14x14x42.size a
  inb_S1x14x14x42_S1x1x12x42_0_12_0_0 : ∀ a, (![0, 12, 0, 0] : Fin 4 → Nat) a + S1x1x12x42.size a ≤ S1x14x14x42.size a
  inb_S1x14x14x42_S1x1x12x42_0_12_1_0 : ∀ a, (![0, 12, 1, 0] : Fin 4 → Nat) a + S1x1x12x42.size a ≤ S1x14x14x42.size a
  inb_S1x14x14x42_S1x1x12x42_0_12_2_0 : ∀ a, (![0, 12, 2, 0] : Fin 4 → Nat) a + S1x1x12x42.size a ≤ S1x14x14x42.size a
  inb_S1x14x14x42_S1x1x12x42_0_13_0_0 : ∀ a, (![0, 13, 0, 0] : Fin 4 → Nat) a + S1x1x12x42.size a ≤ S1x14x14x42.size a
  inb_S1x14x14x42_S1x1x12x42_0_13_1_0 : ∀ a, (![0, 13, 1, 0] : Fin 4 → Nat) a + S1x1x12x42.size a ≤ S1x14x14x42.size a
  inb_S1x14x14x42_S1x1x12x42_0_13_2_0 : ∀ a, (![0, 13, 2, 0] : Fin 4 → Nat) a + S1x1x12x42.size a ≤ S1x14x14x42.size a
  concatenates_S12x126_S12x126_S12x126_S12x378_d1 : Shape.Concatenates [S12x126, S12x126, S12x126] S12x378 1
  concatenates_S12x378_S12x378_S12x378_S12x378_S12x378_S12x378_S12x378_S12x378_S12x378_S12x378_S12x378_S12x378_S144x378_d0 : Shape.Concatenates [S12x378, S12x378, S12x378, S12x378, S12x378, S12x378, S12x378, S12x378, S12x378, S12x378, S12x378, S12x378] S144x378 0
  inb_S1x256_S1x256_0_0 : ∀ a, (![0, 0] : Fin 2 → Nat) a + S1x256.size a ≤ S1x256.size a
  h_S1x256 : 0 < S1x256.numel
  bitsLt_bf16_f32 : FTy.bits .bf16 < FTy.bits .f32
  inb_S378x512_S378x512_0_0 : ∀ a, (![0, 0] : Fin 2 → Nat) a + S378x512.size a ≤ S378x512.size a
  h_S378x512 : 0 < S378x512.numel
  slices_S144x512_o0_0_S144x256 : S144x512.Slices ![0, 0] S144x256
  slices_S144x512_o0_256_S144x256 : S144x512.Slices ![0, 256] S144x256
  slices_S144x256_o0_0_S12x256 : S144x256.Slices ![0, 0] S12x256
  slices_S144x256_o12_0_S12x256 : S144x256.Slices ![12, 0] S12x256
  slices_S12x256_o0_0_S1x256 : S12x256.Slices ![0, 0] S1x256
  slices_S12x256_o1_0_S1x256 : S12x256.Slices ![1, 0] S1x256
  slices_S12x256_o2_0_S1x256 : S12x256.Slices ![2, 0] S1x256
  slices_S12x256_o3_0_S1x256 : S12x256.Slices ![3, 0] S1x256
  slices_S12x256_o4_0_S1x256 : S12x256.Slices ![4, 0] S1x256
  slices_S12x256_o5_0_S1x256 : S12x256.Slices ![5, 0] S1x256
  slices_S12x256_o6_0_S1x256 : S12x256.Slices ![6, 0] S1x256
  slices_S12x256_o7_0_S1x256 : S12x256.Slices ![7, 0] S1x256
  slices_S12x256_o8_0_S1x256 : S12x256.Slices ![8, 0] S1x256
  slices_S12x256_o9_0_S1x256 : S12x256.Slices ![9, 0] S1x256
  slices_S12x256_o10_0_S1x256 : S12x256.Slices ![10, 0] S1x256
  slices_S12x256_o11_0_S1x256 : S12x256.Slices ![11, 0] S1x256
  slices_S144x256_o24_0_S12x256 : S144x256.Slices ![24, 0] S12x256
  slices_S144x256_o36_0_S12x256 : S144x256.Slices ![36, 0] S12x256
  slices_S144x256_o48_0_S12x256 : S144x256.Slices ![48, 0] S12x256
  slices_S144x256_o60_0_S12x256 : S144x256.Slices ![60, 0] S12x256
  slices_S144x256_o72_0_S12x256 : S144x256.Slices ![72, 0] S12x256
  slices_S144x256_o84_0_S12x256 : S144x256.Slices ![84, 0] S12x256
  slices_S144x256_o96_0_S12x256 : S144x256.Slices ![96, 0] S12x256
  slices_S144x256_o108_0_S12x256 : S144x256.Slices ![108, 0] S12x256
  slices_S144x256_o120_0_S12x256 : S144x256.Slices ![120, 0] S12x256
  slices_S144x256_o132_0_S12x256 : S144x256.Slices ![132, 0] S12x256
  concatenates_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S36x256_d0 : Shape.Concatenates (S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: []) S36x256 0
  broadcasts_S1x256_S36x256 : S1x256.Broadcasts S36x256
  slices_S36x256_o0_0_S4x256 : S36x256.Slices ![0, 0] S4x256
  slices_S36x256_o1_0_S4x256 : S36x256.Slices ![1, 0] S4x256
  slices_S36x256_o2_0_S4x256 : S36x256.Slices ![2, 0] S4x256
  slices_S36x256_o6_0_S4x256 : S36x256.Slices ![6, 0] S4x256
  slices_S36x256_o7_0_S4x256 : S36x256.Slices ![7, 0] S4x256
  slices_S36x256_o8_0_S4x256 : S36x256.Slices ![8, 0] S4x256
  slices_S36x256_o12_0_S4x256 : S36x256.Slices ![12, 0] S4x256
  slices_S36x256_o13_0_S4x256 : S36x256.Slices ![13, 0] S4x256
  slices_S36x256_o14_0_S4x256 : S36x256.Slices ![14, 0] S4x256
  concatenates_S4x256_S4x256_S4x256_S4x256_S4x256_S4x256_S4x256_S4x256_S4x256_S4x2304_d1 : Shape.Concatenates [S4x256, S4x256, S4x256, S4x256, S4x256, S4x256, S4x256, S4x256, S4x256] S4x2304 1
  slices_S36x256_o18_0_S4x256 : S36x256.Slices ![18, 0] S4x256
  slices_S36x256_o19_0_S4x256 : S36x256.Slices ![19, 0] S4x256
  slices_S36x256_o20_0_S4x256 : S36x256.Slices ![20, 0] S4x256
  slices_S36x256_o24_0_S4x256 : S36x256.Slices ![24, 0] S4x256
  slices_S36x256_o25_0_S4x256 : S36x256.Slices ![25, 0] S4x256
  slices_S36x256_o26_0_S4x256 : S36x256.Slices ![26, 0] S4x256
  slices_S36x256_o30_0_S4x256 : S36x256.Slices ![30, 0] S4x256
  slices_S36x256_o31_0_S4x256 : S36x256.Slices ![31, 0] S4x256
  slices_S36x256_o32_0_S4x256 : S36x256.Slices ![32, 0] S4x256
  concatenates_S4x2304_S4x2304_S4x2304_S4x2304_S16x2304_d0 : Shape.Concatenates [S4x2304, S4x2304, S4x2304, S4x2304] S16x2304 0
  inb_S1x128_S1x128_0_0 : ∀ a, (![0, 0] : Fin 2 → Nat) a + S1x128.size a ≤ S1x128.size a
  h_S1x128 : 0 < S1x128.numel
  inb_S2304x256_S2304x256_0_0 : ∀ a, (![0, 0] : Fin 2 → Nat) a + S2304x256.size a ≤ S2304x256.size a
  h_S2304x256 : 0 < S2304x256.numel
  slices_S16x256_o0_0_S16x128 : S16x256.Slices ![0, 0] S16x128
  slices_S16x256_o0_128_S16x128 : S16x256.Slices ![0, 128] S16x128
  slices_S16x128_o0_0_S4x128 : S16x128.Slices ![0, 0] S4x128
  slices_S16x128_o4_0_S4x128 : S16x128.Slices ![4, 0] S4x128
  slices_S4x128_o0_0_S1x128 : S4x128.Slices ![0, 0] S1x128
  slices_S4x128_o1_0_S1x128 : S4x128.Slices ![1, 0] S1x128
  slices_S4x128_o2_0_S1x128 : S4x128.Slices ![2, 0] S1x128
  slices_S4x128_o3_0_S1x128 : S4x128.Slices ![3, 0] S1x128
  slices_S16x128_o8_0_S4x128 : S16x128.Slices ![8, 0] S4x128
  slices_S16x128_o12_0_S4x128 : S16x128.Slices ![12, 0] S4x128
  concatenates_S1x128_S1x128_S1x128_S1x128_S4x128_d0 : Shape.Concatenates [S1x128, S1x128, S1x128, S1x128] S4x128 0
  broadcasts_S1x128_S4x128 : S1x128.Broadcasts S4x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x128x128_S1x128x128_1_0_0 : ∀ a, (![1, 0, 0] : Fin 3 → Nat) a + S1x128x128.size a ≤ S4x128x128.size a
  inb_S4x128x128_S1x128x128_2_0_0 : ∀ a, (![2, 0, 0] : Fin 3 → Nat) a + S1x128x128.size a ≤ S4x128x128.size a
  inb_S4x128x128_S1x128x128_3_0_0 : ∀ a, (![3, 0, 0] : Fin 3 → Nat) a + S1x128x128.size a ≤ S4x128x128.size a
  inb_S128x128_S128x128_0_0 : ∀ a, (![0, 0] : Fin 2 → Nat) a + S128x128.size a ≤ S128x128.size a
  h_S128x128 : 0 < S128x128.numel
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S1024x1x128_S1024x128 : S1024x1x128.ShapeCasts S1024x128
  slices_S1024x128_S1024x10_0_0 : S1024x128.Slices ![0, 0] S1024x10
  dot_S144x378_S378x512_S144x512_1_0_0_1_n_n_wf : DotDims.WF S144x378 S378x512 S144x512 [1] [0] [0] [1] [] []
  dot_S16x2304_S2304x256_S16x256_1_0_0_1_n_n_wf : DotDims.WF S16x2304 S2304x256 S16x256 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x14x14x42.size a ≤ S1024x14x14x42.size a
  hwx0_0 : ∀ i : grid0.Coords, EltTy.bits .f32 = 32 ∨ (Rect.block (s := S1024x14x14x42) S1x14x14x42.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S378x512.size a ≤ S378x512.size a
  hwx0_1 : ∀ i : grid0.Coords, EltTy.bits .bf16 = 32 ∨ (Rect.block (s := S378x512) S378x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2304x256.size a ≤ S2304x256.size a
  hwx0_3 : ∀ i : grid0.Coords, EltTy.bits .bf16 = 32 ∨ (Rect.block (s := S2304x256) S2304x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x128x128.size a ≤ S4x128x128.size a
  hwx0_5 : ∀ i : grid0.Coords, EltTy.bits .bf16 = 32 ∨ (Rect.block (s := S4x128x128) S4x128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x128.size a ≤ S1024x1x128.size a
  hwx0_11 : ∀ i : grid0.Coords, EltTy.bits .f32 = 32 ∨ (Rect.block (s := S1024x1x128) S1x1x128.size (cc0_transform_11 i) (hinb0_11 i)).WholeWords (EltTy.packing .f32)

variable [Facts₀]

def dot_S144x378_S378x512_S144x512_1_0_0_1_n_n : DotDims S144x378 S378x512 S144x512 where
  lhsContracting := [1]
  rhsContracting := [0]
  lhsNonContracting := [0]
  rhsNonContracting := [1]
  lhsBatch := []
  rhsBatch := []
  wf := dot_S144x378_S378x512_S144x512_1_0_0_1_n_n_wf
def dot_S16x2304_S2304x256_S16x256_1_0_0_1_n_n : DotDims S16x2304 S2304x256 S16x256 where
  lhsContracting := [1]
  rhsContracting := [0]
  lhsNonContracting := [0]
  rhsNonContracting := [1]
  lhsBatch := []
  rhsBatch := []
  wf := dot_S16x2304_S2304x256_S16x256_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_v1) S1x14x14x42.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S378x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2304x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S4x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S1x1x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.Spec.lean ====
import Idealize.ShloMosaic.PureOps.Ideal
import Idealize.ShloMosaic.Lib.ValueIdx

/-!
# The network both programs compute, one image at a time, on the extended reals

A 3-d convolution with a 3×3×3 window is a matrix product once the window's depth and height taps and the
(width, channel) lanes are folded into the contraction: for one image, row `r = od·12 + oh` of the left operand
holds, at column `k = kd·126 + kh·42 + l`, the input at depth `od + kd`, height `oh + kh`, lane `l`. The weight's
columns are ordered [even output width | odd output width], so pooling over width is the maximum of a column and
the column half the width on; pooling over depth and height is a maximum over the four rows
`(2·dp + a)·12 + 2·hp + e`. A bias and the leaky rectifier follow. The second convolution repeats this on the
pooled rows; two dense layers with a rectifier and an affine map between them end the network.
-/

noncomputable section

open scoped BigOperators

namespace Cert.Net

open Idealize.ShloMosaic

/-- The leaky rectifier as both programs spell it: the ordered comparison `0 ≤ v` selects `v`, else the slope
    times `v`; the slope is the same single-precision word on both sides, so its value is never needed. -/
def lrelu (v : EReal) : EReal :=
  Scalar.select (FloatOps.cmpf (F := Ideal) (φ := .f32) .oge v (Scalar.ofBits (F := Ideal) .f32 0x00000000#32)) v
    ((Scalar.ofBits (F := Ideal) .f32 0x3C23D70A#32 : EReal) * v)

/-- The first convolution's left operand for one image `X d h l`. -/
def lhs1 (X : Fin 14 → Fin 14 → Fin 42 → EReal) (r : Fin 144) (k : Fin 378) : EReal :=
  X ⟨r.val / 12 + k.val / 126, by have := r.isLt; have := k.isLt; omega⟩
    ⟨r.val % 12 + k.val % 126 / 42, by have := r.isLt; have := k.isLt; omega⟩
    ⟨k.val % 42, by omega⟩

/-- The first convolution: 144 output positions by 512 columns. -/
def c1 (X : Fin 14 → Fin 14 → Fin 42 → EReal) (W : Fin 378 → Fin 512 → EReal) (r : Fin 144) (n : Fin 512) : EReal :=
  ∑ k : Fin 378, lhs1 X r k * W k n

/-- Pooling over width: a column against the column 256 on. -/
def m1 (C : Fin 144 → Fin 512 → EReal) (r : Fin 144) (j : Fin 256) : EReal :=
  max (C r ⟨j.val, by omega⟩) (C r ⟨j.val + 256, by omega⟩)

/-- Pooling over depth, then height: pooled row `p = dp·6 + hp`. -/
def q1 (M : Fin 144 → Fin 256 → EReal) (p : Fin 36) (j : Fin 256) : EReal :=
  max (max (M ⟨2 * (p.val / 6) * 12 + 2 * (p.val % 6), by have := p.isLt; omega⟩ j)
           (M ⟨(2 * (p.val / 6) + 1) * 12 + 2 * (p.val % 6), by have := p.isLt; omega⟩ j))
      (max (M ⟨2 * (p.val / 6) * 12 + 2 * (p.val % 6) + 1, by have := p.isLt; omega⟩ j)
           (M ⟨(2 * (p.val / 6) + 1) * 12 + 2 * (p.val % 6) + 1, by have := p.isLt; omega⟩ j))

/-- A bias row added, then the rectifier. -/
def act {R H : ℕ} (Q : Fin R → Fin H → EReal) (b : Fin H → EReal) (p : Fin R) (j : Fin H) : EReal :=
  lrelu (Q p j + b j)

/-- The second convolution's left operand: row `r = od·4 + oh`, column `k = (kd·3 + kh)·256 + j` holds the pooled
    row `(od + kd)·6 + kh + oh` at lane `j`. -/
def lhs2 (P : Fin 36 → Fin 256 → EReal) (r : Fin 16) (k : Fin 2304) : EReal :=
  P ⟨(r.val / 4 + k.val / 768) * 6 + k.val % 768 / 256 + r.val % 4, by have := r.isLt; have := k.isLt; omega⟩
    ⟨k.val % 256, by omega⟩

/-- The second convolution: 16 output positions by 256 columns. -/
def c2 (P : Fin 36 → Fin 256 → EReal) (W : Fin 2304 → Fin 256 → EReal) (r : Fin 16) (n : Fin 256) : EReal :=
  ∑ k : Fin 2304, lhs2 P r k * W k n

/-- Pooling over width: a column against the column 128 on. -/
def m2 (C : Fin 16 → Fin 256 → EReal) (r : Fin 16) (j : Fin 128) : EReal :=
  max (C r ⟨j.val, by omega⟩) (C r ⟨j.val + 128, by omega⟩)

/-- Pooling over depth, then height: pooled row `p = dp·2 + hp`. -/
def q2 (M : Fin 16 → Fin 128 → EReal) (p : Fin 4) (j : Fin 128) : EReal :=
  max (max (M ⟨2 * (p.val / 2) * 4 + 2 * (p.val % 2), by have := p.isLt; omega⟩ j)
           (M ⟨(2 * (p.val / 2) + 1) * 4 + 2 * (p.val % 2), by have := p.isLt; omega⟩ j))
      (max (M ⟨2 * (p.val / 2) * 4 + 2 * (p.val % 2) + 1, by have := p.isLt; omega⟩ j)
           (M ⟨(2 * (p.val / 2) + 1) * 4 + 2 * (p.val % 2) + 1, by have := p.isLt; omega⟩ j))

/-- The first dense layer, the bias first and the four pooled rows' products added one after the other. -/
def fc1 (P : Fin 4 → Fin 128 → EReal) (b : Fin 128 → EReal) (W : Fin 4 → Fin 128 → Fin 128 → EReal) (n : Fin 128) : EReal :=
  (((b n + ∑ j : Fin 128, P 0 j * W 0 j n) + ∑ j : Fin 128, P 1 j * W 1 j n) + ∑ j : Fin 128, P 2 j * W 2 j n)
    + ∑ j : Fin 128, P 3 j * W 3 j n

/-- The rectifier, then the folded normalisation's scale and shift. -/
def bn (H s t : Fin 128 → EReal) (n : Fin 128) : EReal := lrelu (H n) * s n + t n

/-- The second dense layer. -/
def fc2 (H : Fin 128 → EReal) (W : Fin 128 → Fin 128 → EReal) (b : Fin 128 → EReal) (n : Fin 128) : EReal :=
  ∑ k : Fin 128, H k * W k n + b n

/-- The first stage: convolution, the three poolings, bias and rectifier — 36 pooled rows of 256 lanes. -/
def stage1 (X : Fin 14 → Fin 14 → Fin 42 → EReal) (W1 : Fin 378 → Fin 512 → EReal) (b1 : Fin 256 → EReal) :
    Fin 36 → Fin 256 → EReal := act (q1 (m1 (c1 X W1))) b1

/-- The second stage, on the first stage's pooled rows: 4 pooled rows of 128 lanes. -/
def stage2 (P : Fin 36 → Fin 256 → EReal) (W2 : Fin 2304 → Fin 256 → EReal) (b2 : Fin 128 → EReal) :
    Fin 4 → Fin 128 → EReal := act (q2 (m2 (c2 P W2))) b2

/-- The dense head on the second stage's pooled rows. -/
def head (P : Fin 4 → Fin 128 → EReal) (bf1 : Fin 128 → EReal) (Wf1 : Fin 4 → Fin 128 → Fin 128 → EReal)
    (s t : Fin 128 → EReal) (Wf2 : Fin 128 → Fin 128 → EReal) (bf2 : Fin 128 → EReal) : Fin 128 → EReal :=
  fc2 (bn (fc1 P bf1 Wf1) s t) Wf2 bf2

/-- The whole network on one image: 128 padded logits. -/
def net (X : Fin 14 → Fin 14 → Fin 42 → EReal) (W1 : Fin 378 → Fin 512 → EReal) (b1 : Fin 256 → EReal)
    (W2 : Fin 2304 → Fin 256 → EReal) (b2 : Fin 128 → EReal) (Wf1 : Fin 4 → Fin 128 → Fin 128 → EReal)
    (bf1 s t : Fin 128 → EReal) (Wf2 : Fin 128 → Fin 128 → EReal) (bf2 : Fin 128 → EReal) : Fin 128 → EReal :=
  head (stage2 (stage1 X W1 b1) W2 b2) bf1 Wf1 s t Wf2 bf2

/-! ## Arrays as functions of their coordinates -/

/-- A two-axis array as a function of its two coordinates. -/
abbrev mat {A B : ℕ} (w : (⟨2, ![A, B]⟩ : Shape).Idx → EReal) : Fin A → Fin B → EReal :=
  fun a b => w (ValueIdx.ix2 a b)

/-- A one-row array as a function of its lane. -/
abbrev row {B : ℕ} (w : (⟨2, ![1, B]⟩ : Shape).Idx → EReal) : Fin B → EReal :=
  fun b => w (ValueIdx.ix2 0 b)

/-- A three-axis array as a function of its three coordinates. -/
abbrev ten3 {A B C : ℕ} (w : (⟨3, ![A, B, C]⟩ : Shape).Idx → EReal) : Fin A → Fin B → Fin C → EReal :=
  fun a b c => w (ValueIdx.ix3 a b c)

/-- The one image of a [1, 14, 14, 42] block: depth, height, lane. -/
abbrev imgR (x : (⟨4, ![1, 14, 14, 42]⟩ : Shape).Idx → EReal) : Fin 14 → Fin 14 → Fin 42 → EReal :=
  fun d h l => x (ValueIdx.ix4 0 d h l)

/-- Image `b` of a [14, 14, 16, 42] block, whose third axis is the image. -/
abbrev imgK (x : (⟨4, ![14, 14, 16, 42]⟩ : Shape).Idx → EReal) (b : Fin 16) : Fin 14 → Fin 14 → Fin 42 → EReal :=
  fun d h l => x (ValueIdx.ix4 d h b l)

/-! ## The whole batch -/

/-- The padded logits of image `B` of the batch: the network on the image's lane-folded view (lane `l` is width
    `l / 3`, channel `l % 3`) with the eleven arguments read as functions of their coordinates. -/
def logits (x : (⟨5, ![1024, 3, 14, 14, 14]⟩ : Shape).Idx → EReal) (w1 : (⟨2, ![378, 512]⟩ : Shape).Idx → EReal)
    (b1 : (⟨2, ![1, 256]⟩ : Shape).Idx → EReal) (w2 : (⟨2, ![2304, 256]⟩ : Shape).Idx → EReal)
    (b2 : (⟨2, ![1, 128]⟩ : Shape).Idx → EReal) (wf1 : (⟨3, ![4, 128, 128]⟩ : Shape).Idx → EReal)
    (bf1 s t : (⟨2, ![1, 128]⟩ : Shape).Idx → EReal) (wf2 : (⟨2, ![128, 128]⟩ : Shape).Idx → EReal)
    (bf2 : (⟨2, ![1, 128]⟩ : Shape).Idx → EReal) (B : Fin 1024) (n : Fin 128) : EReal :=
  net (fun d h l => x (ValueIdx.ix5 B ⟨l.val % 3, by omega⟩ d h ⟨l.val / 3, by omega⟩))
    (mat w1) (row b1) (mat w2) (row b2) (ten3 wf1) (row bf1) (row s) (row t) (mat wf2) (row bf2) n

/-- The result array: the first ten logits of every image. -/
def result (x : (⟨5, ![1024, 3, 14, 14, 14]⟩ : Shape).Idx → EReal) (w1 : (⟨2, ![378, 512]⟩ : Shape).Idx → EReal)
    (b1 : (⟨2, ![1, 256]⟩ : Shape).Idx → EReal) (w2 : (⟨2, ![2304, 256]⟩ : Shape).Idx → EReal)
    (b2 : (⟨2, ![1, 128]⟩ : Shape).Idx → EReal) (wf1 : (⟨3, ![4, 128, 128]⟩ : Shape).Idx → EReal)
    (bf1 s t : (⟨2, ![1, 128]⟩ : Shape).Idx → EReal) (wf2 : (⟨2, ![128, 128]⟩ : Shape).Idx → EReal)
    (bf2 : (⟨2, ![1, 128]⟩ : Shape).Idx → EReal) : (⟨2, ![1024, 10]⟩ : Shape).Idx → EReal :=
  fun i => logits x w1 b1 w2 b2 wf1 bf1 s t wf2 bf2 ⟨(i 0).val, (i 0).isLt⟩
    ⟨(i 1).val, lt_of_lt_of_le (i 1).isLt (by decide)⟩

end Cert.Net

end
-- ==== Proof.KerHost.lean ====
import proofs.«166258_g2000504528272344_pallasbulk_1029_2_alg».proof.Proof.Gen.KernelIdeal.Frame
import proofs.«166258_g2000504528272344_pallasbulk_1029_2_alg».proof.Proof.Spec
import Idealize.ShloMosaic.Lib.Pipeline.Value
import Idealize.ShloMosaic.Lib.KernelVsHost
import Idealize.ShloMosaic.Lib.StableHlo.Run
import Idealize.ShloMosaic.PureOps.Ideal.Laws

/-!
# The arrays the sixteen-image program makes before its region, read at an entry

The image array is transposed so that depth and height lead and the image is the third axis, with width and channel
folded into 42 lanes: entry `(d, h, B, l)` is the input at image `B`, channel `l % 3`, depth `d`, height `h`, width
`l / 3`. The first weight is regrouped per depth tap into three blocks of 126 rows, each padded with two zero rows;
taps 0 and 1 are laid one under the other (256 rows), tap 2 is the third block (128 rows). The first dense weight's
four blocks are laid one under the other.
-/

noncomputable section

namespace Cert.KerSide

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The image argument on core `c`: image, channel, depth, height, width. -/
abbrev aX (c : Dev nD) : S1024x3x14x14x14.Idx → EReal := m ((c : Thread nD τ).loc main_arg10)

/-- The first convolution's weight argument: 378 rows (depth tap, height tap, lane) by 512 columns. -/
abbrev aW1 (c : Dev nD) : S378x512.Idx → EReal := m ((c : Thread nD τ).loc main_arg0)

/-- The first dense weight argument: four blocks of 128 by 128. -/
abbrev aWf1 (c : Dev nD) : S4x128x128.Idx → EReal := m ((c : Thread nD τ).loc main_arg4)

/-- The transposed, lane-folded image array as the region finds it. -/
theorem V_v1_eq (c : Dev nD) :
    (V m c main_v1 : S14x14x1024x42.Idx → EReal)
      = shapeCast S14x14x1024x42
          (transpose S14x14x1024x14x3 [2, 3, 0, 4, 1] (aX m c)
            transposes_S1024x3x14x14x14_S14x14x1024x14x3_2_3_0_4_1)
          shapeCasts_S14x14x1024x14x3_S14x14x1024x42 := by
  dsimp only [V, V0]
  simp only [hostOps0, hostOps0_1, hostOps0_2, List.flatten_cons, List.flatten_nil, List.append_nil, List.cons_append,
    List.nil_append]
  after_results
  rfl

/-- Its entry `(d, h, B, l)` is the input at image `B`, channel `l % 3`, depth `d`, height `h`, width `l / 3`. -/
theorem V_v1_apply (c : Dev nD) (d h : Fin 14) (B : Fin 1024) (l : Fin 42) :
    (V m c main_v1 : S14x14x1024x42.Idx → EReal) (ix4 d h B l)
      = (aX m c)
          (ix5 B ⟨l.val % 3, by omega⟩ d h ⟨l.val / 3, by omega⟩) := by
  rw [V_v1_eq]
  refine (shapeCast_apply _ _ (ix4 d h B l)
    (ix5 d h B (⟨l.val / 3, by omega⟩ : Fin 14) (⟨l.val % 3, by omega⟩ : Fin 3)) ?_).trans ?_
  · rw [Shape.rowMajor_val_five, Shape.rowMajor_val_four]
    show (((d.val * 14 + h.val) * 1024 + B.val) * 14 + l.val / 3) * 3 + l.val % 3
      = ((d.val * 14 + h.val) * 1024 + B.val) * 42 + l.val
    omega
  · refine transpose_apply _ _ _ _ (ix5 B ⟨l.val % 3, by omega⟩ d h ⟨l.val / 3, by omega⟩) fun b => ?_
    match b with
    | ⟨0, _⟩ => rfl
    | ⟨1, _⟩ => rfl
    | ⟨2, _⟩ => rfl
    | ⟨3, _⟩ => rfl
    | ⟨4, _⟩ => rfl

/-- The regrouped first weight, padded from 126 to 128 rows per depth tap with the converted integer zero. -/
def w1pad (c : Dev nD) : S3x128x512.Idx → EReal :=
  pad S3x128x512 ![0, 0, 0] ![0, 2, 0] ![0, 0, 0]
    (shapeCast S3x126x512 (aW1 m c) shapeCasts_S378x512_S3x126x512)
    (sitofp (F := Ideal) FTy.bf16 (constantI S_ 32 0#32)) pads_S3x126x512_S3x128x512_000_020_000 h_S_

/-- Depth taps 0 and 1 of it, one under the other. -/
theorem V_v5_eq (c : Dev nD) :
    (V m c main_v5 : S256x512.Idx → EReal)
      = shapeCast S256x512 (extractStridedSlice S2x128x512 ![0, 0, 0] (w1pad m c) slices_S3x128x512_S2x128x512_0_0_0)
          shapeCasts_S2x128x512_S256x512 := by
  dsimp only [V, V0]
  simp only [hostOps0, hostOps0_1, hostOps0_2, List.flatten_cons, List.flatten_nil, List.append_nil, List.cons_append,
    List.nil_append]
  after_results
  rfl

/-- Depth tap 2 of it. -/
theorem V_v7_eq (c : Dev nD) :
    (V m c main_v7 : S128x512.Idx → EReal)
      = shapeCast S128x512 (extractStridedSlice S1x128x512 ![2, 0, 0] (w1pad m c) slices_S3x128x512_S1x128x512_2_0_0)
          shapeCasts_S1x128x512_S128x512 := by
  dsimp only [V, V0]
  simp only [hostOps0, hostOps0_1, hostOps0_2, List.flatten_cons, List.flatten_nil, List.append_nil, List.cons_append,
    List.nil_append]
  after_results
  rfl

/-- The first dense weight's four blocks one under the other. -/
theorem V_v8_eq (c : Dev nD) :
    (V m c main_v8 : S512x128.Idx → EReal)
      = shapeCast S512x128 (aWf1 m c) shapeCasts_S4x128x128_S512x128 := by
  dsimp only [V, V0]
  simp only [hostOps0, hostOps0_1, hostOps0_2, List.flatten_cons, List.flatten_nil, List.append_nil, List.cons_append,
    List.nil_append]
  after_results
  rfl

/-- The padded weight at depth tap `kd`, row `q`: the weight's row `kd·126 + q` where `q < 126`, zero on the two
    padding rows. -/
theorem w1pad_apply (c : Dev nD) (kd : Fin 3) (q : Fin 128) (n : Fin 512) :
    w1pad m c (ix3 kd q n)
      = if h : q.val < 126 then
          (aW1 m c)
            (ix2 ⟨kd.val * 126 + q.val, by have := kd.isLt; omega⟩ n)
        else (0 : EReal) := by
  unfold w1pad
  by_cases h : q.val < 126
  · rw [dif_pos h]
    refine (pad_apply_of_inside _ _ _ _ _ _ _ (ix3 kd q n) (ix3 kd (⟨q.val, h⟩ : Fin 126) n) fun a => ?_).trans ?_
    · match a with
      | ⟨0, _⟩ => show kd.val = 0 + kd.val * (0 + 1); omega
      | ⟨1, _⟩ => show q.val = 0 + q.val * (0 + 1); omega
      | ⟨2, _⟩ => show n.val = 0 + n.val * (0 + 1); omega
    · refine shapeCast_apply _ _ _ _ ?_
      rw [Shape.rowMajor_val_two, Shape.rowMajor_val_three]
      show (kd.val * 126 + q.val) * 512 + n.val = (kd.val * 126 + q.val) * 512 + n.val
      rfl
  · rw [dif_neg h]
    refine (pad_apply_of_not_inside _ _ _ _ _ _ _ (ix3 kd q n) (1 : Fin 3) ?_).trans ?_
    · show ¬(0 ≤ q.val ∧ (q.val - 0) % (0 + 1) = 0 ∧ (q.val - 0) / (0 + 1) < 126)
      omega
    · show ((((0#32 : BitVec 32).toInt : ℝ)) : EReal) = 0
      simp

/-- Rows `kd·128 + q` of the two-tap block. -/
theorem V_v5_apply (c : Dev nD) (kd : Fin 2) (q : Fin 128) (n : Fin 512) :
    (V m c main_v5 : S256x512.Idx → EReal) (ix2 ⟨kd.val * 128 + q.val, by have := kd.isLt; have := q.isLt; omega⟩ n)
      = if h : q.val < 126 then
          (aW1 m c)
            (ix2 ⟨kd.val * 126 + q.val, by have := kd.isLt; omega⟩ n)
        else (0 : EReal) := by
  rw [V_v5_eq]
  refine (shapeCast_apply _ _ _ (ix3 kd q n) ?_).trans ?_
  · rw [Shape.rowMajor_val_three, Shape.rowMajor_val_two]
    show (kd.val * 128 + q.val) * 512 + n.val = (kd.val * 128 + q.val) * 512 + n.val
    rfl
  · refine (extractStridedSlice_apply _ _ _ (ix3 kd q n) (ix3 (⟨kd.val, by have := kd.isLt; omega⟩ : Fin 3) q n) fun a => ?_).trans ?_
    · match a with
      | ⟨0, _⟩ => show kd.val = 0 + kd.val; omega
      | ⟨1, _⟩ => show q.val = 0 + q.val; omega
      | ⟨2, _⟩ => show n.val = 0 + n.val; omega
    · exact w1pad_apply m c ⟨kd.val, by have := kd.isLt; omega⟩ q n

/-- Rows of the third-tap block. -/
theorem V_v7_apply (c : Dev nD) (q : Fin 128) (n : Fin 512) :
    (V m c main_v7 : S128x512.Idx → EReal) (ix2 q n)
      = if h : q.val < 126 then
          (aW1 m c) (ix2 ⟨252 + q.val, by omega⟩ n)
        else (0 : EReal) := by
  rw [V_v7_eq]
  refine (shapeCast_apply _ _ _ (ix3 (0 : Fin 1) q n) ?_).trans ?_
  · rw [Shape.rowMajor_val_three, Shape.rowMajor_val_two]
    show ((0 : Fin 1).val * 128 + q.val) * 512 + n.val = q.val * 512 + n.val
    simp
  · refine (extractStridedSlice_apply _ _ _ (ix3 (0 : Fin 1) q n) (ix3 (2 : Fin 3) q n) fun a => ?_).trans ?_
    · match a with
      | ⟨0, _⟩ => rfl
      | ⟨1, _⟩ => show q.val = 0 + q.val; omega
      | ⟨2, _⟩ => show n.val = 0 + n.val; omega
    · refine (w1pad_apply m c 2 q n).trans ?_
      by_cases h : q.val < 126
      · rw [dif_pos h, dif_pos h]
        exact congrArg _ (congrArg (fun r => ix2 r n) (Fin.ext (by show 2 * 126 + q.val = 252 + q.val; omega)))
      · rw [dif_neg h, dif_neg h]

/-- Row `r·128 + l` of the flattened dense weight is block `r`'s row `l`. -/
theorem V_v8_apply (c : Dev nD) (r : Fin 4) (l n : Fin 128) :
    (V m c main_v8 : S512x128.Idx → EReal) (ix2 ⟨r.val * 128 + l.val, by have := r.isLt; have := l.isLt; omega⟩ n)
      = (aWf1 m c) (ix3 r l n) := by
  rw [V_v8_eq]
  refine shapeCast_apply _ _ _ (ix3 r l n) ?_
  rw [Shape.rowMajor_val_three, Shape.rowMajor_val_two]
  show (r.val * 128 + l.val) * 128 + n.val = (r.val * 128 + l.val) * 128 + n.val
  rfl

end Cert.KerSide

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.KerE.lean ====
import proofs.«166258_g2000504528272344_pallasbulk_1029_2_alg».proof.Proof.Gen.KernelIdeal.Frame
import proofs.«166258_g2000504528272344_pallasbulk_1029_2_alg».proof.Proof.Spec
import proofs.«166258_g2000504528272344_pallasbulk_1029_2_alg».proof.Proof.LibPlainDot
import Idealize.ShloMosaic.Lib.Pipeline.Value
import Idealize.ShloMosaic.Lib.ValueLayout

/-!
# The sixteen-image program's first convolution and pooling, read at an entry

Here the image is the third axis of the block, and the contraction is cut in two: the depth taps 0 and 1, each padded
from 126 to 128 lanes with zeros, against the first 256 rows of the regrouped weight, and depth tap 2 against the last
128. The padded lanes meet weight rows that are zero, so the two products add up to the one contraction over 378.
-/

noncomputable section

open scoped BigOperators

namespace Cert.KerSide

open Idealize.ShloMosaic Idealize.ShloMosaic.ValueIdx Cert.KernelIdeal Cert.KernelIdeal.Gen

namespace Conv1

/-! ## The padded left operand, entry by entry -/

/-- The three height-shifted slices of the block joined along the lanes, with a two-lane tail. -/
def V7 (x : FVec Ideal S14x14x16x42 .bf16) (z : FVec Ideal S14x12x16x2 .bf16) : FVec Ideal S14x12x16x128 .bf16 :=
  concatenate S14x12x16x128 3
    [⟨S14x12x16x42, extractStridedSlice S14x12x16x42 ![0, 0, 0, 0] x slices_S14x14x16x42_o0_0_0_0_S14x12x16x42⟩,
     ⟨S14x12x16x42, extractStridedSlice S14x12x16x42 ![0, 1, 0, 0] x slices_S14x14x16x42_o0_1_0_0_S14x12x16x42⟩,
     ⟨S14x12x16x42, extractStridedSlice S14x12x16x42 ![0, 2, 0, 0] x slices_S14x14x16x42_o0_2_0_0_S14x12x16x42⟩,
     ⟨S14x12x16x2, z⟩]
    concatenates_S14x12x16x42_S14x12x16x42_S14x12x16x42_S14x12x16x2_S14x12x16x128_d3

theorem V7_apply (x : FVec Ideal S14x14x16x42 .bf16) (z : FVec Ideal S14x12x16x2 .bf16)
    (d : Fin 14) (oh : Fin 12) (b : Fin 16) (q : Fin 128) (hq : q.val < 126) :
    V7 x z (ix4 d oh b q)
      = x (ix4 d ⟨oh.val + q.val / 42, by have := oh.isLt; omega⟩ b ⟨q.val % 42, by omega⟩) := by
  unfold V7
  have hcases : q.val < 42 ∨ (42 ≤ q.val ∧ q.val < 84) ∨ (84 ≤ q.val) := by omega
  rcases hcases with h0 | h1 | h2
  · refine (concatenate_apply_piece (3 : Fin 4) _ _ (ix4 d oh b q) 0 ?_ S14x12x16x42 (extractStridedSlice S14x12x16x42 ![0, 0, 0, 0] x slices_S14x14x16x42_o0_0_0_0_S14x12x16x42) ?_ rfl 0 ?_
      (ix4 d oh b ⟨q.val, h0⟩) ?_ ?_).trans ?_
    · show (0 : ℕ) < 4; omega
    · rfl
    · rfl
    · intro a ha
      match a with
      | ⟨0, _⟩ => rfl
      | ⟨1, _⟩ => rfl
      | ⟨2, _⟩ => rfl
      | ⟨3, _⟩ => exact absurd rfl ha
    · show 0 + q.val = q.val; omega
    · refine (extractStridedSlice_apply _ x _ _ (ix4 d ⟨oh.val + q.val / 42, by have := oh.isLt; omega⟩ b ⟨q.val % 42, by omega⟩) ?_)
      intro a
      match a with
      | ⟨0, _⟩ => show d.val = 0 + d.val; omega
      | ⟨1, _⟩ => show oh.val + q.val / 42 = 0 + oh.val; omega
      | ⟨2, _⟩ => show b.val = 0 + b.val; omega
      | ⟨3, _⟩ => show q.val % 42 = 0 + q.val; omega
  · refine (concatenate_apply_piece (3 : Fin 4) _ _ (ix4 d oh b q) 1 ?_ S14x12x16x42 (extractStridedSlice S14x12x16x42 ![0, 1, 0, 0] x slices_S14x14x16x42_o0_1_0_0_S14x12x16x42) ?_ rfl 42 ?_
      (ix4 d oh b ⟨q.val - 42, by omega⟩) ?_ ?_).trans ?_
    · show (1 : ℕ) < 4; omega
    · rfl
    · rfl
    · intro a ha
      match a with
      | ⟨0, _⟩ => rfl
      | ⟨1, _⟩ => rfl
      | ⟨2, _⟩ => rfl
      | ⟨3, _⟩ => exact absurd rfl ha
    · show 42 + (q.val - 42) = q.val; omega
    · refine (extractStridedSlice_apply _ x _ _ (ix4 d ⟨oh.val + q.val / 42, by have := oh.isLt; omega⟩ b ⟨q.val % 42, by omega⟩) ?_)
      intro a
      match a with
      | ⟨0, _⟩ => show d.val = 0 + d.val; omega
      | ⟨1, _⟩ => show oh.val + q.val / 42 = 1 + oh.val; omega
      | ⟨2, _⟩ => show b.val = 0 + b.val; omega
      | ⟨3, _⟩ => show q.val % 42 = 0 + (q.val - 42); omega
  · refine (concatenate_apply_piece (3 : Fin 4) _ _ (ix4 d oh b q) 2 ?_ S14x12x16x42 (extractStridedSlice S14x12x16x42 ![0, 2, 0, 0] x slices_S14x14x16x42_o0_2_0_0_S14x12x16x42) ?_ rfl 84 ?_
      (ix4 d oh b ⟨q.val - 84, by omega⟩) ?_ ?_).trans ?_
    · show (2 : ℕ) < 4; omega
    · rfl
    · rfl
    · intro a ha
      match a with
      | ⟨0, _⟩ => rfl
      | ⟨1, _⟩ => rfl
      | ⟨2, _⟩ => rfl
      | ⟨3, _⟩ => exact absurd rfl ha
    · show 84 + (q.val - 84) = q.val; omega
    · refine (extractStridedSlice_apply _ x _ _ (ix4 d ⟨oh.val + q.val / 42, by have := oh.isLt; omega⟩ b ⟨q.val % 42, by omega⟩) ?_)
      intro a
      match a with
      | ⟨0, _⟩ => show d.val = 0 + d.val; omega
      | ⟨1, _⟩ => show oh.val + q.val / 42 = 2 + oh.val; omega
      | ⟨2, _⟩ => show b.val = 0 + b.val; omega
      | ⟨3, _⟩ => show q.val % 42 = 0 + (q.val - 84); omega

/-- Depth slices 0 and 1 of the padded rows joined along the lanes, as a matrix of 2304 rows. -/
def V11 (y : FVec Ideal S14x12x16x128 .bf16) : FVec Ideal S2304x256 .bf16 :=
  shapeCast S2304x256
    (concatenate S12x12x16x256 3
      [⟨S12x12x16x128, extractStridedSlice S12x12x16x128 ![0, 0, 0, 0] y slices_S14x12x16x128_o0_0_0_0_S12x12x16x128⟩,
       ⟨S12x12x16x128, extractStridedSlice S12x12x16x128 ![1, 0, 0, 0] y slices_S14x12x16x128_o1_0_0_0_S12x12x16x128⟩]
      concatenates_S12x12x16x128_S12x12x16x128_S12x12x16x256_d3)
    shapeCasts_S12x12x16x256_S2304x256

/-- Depth slice 2 of the padded rows, as a matrix of 2304 rows. -/
def V13 (y : FVec Ideal S14x12x16x128 .bf16) : FVec Ideal S2304x128 .bf16 :=
  shapeCast S2304x128
    (extractStridedSlice S12x12x16x128 ![2, 0, 0, 0] y slices_S14x12x16x128_o2_0_0_0_S12x12x16x128)
    shapeCasts_S12x12x16x128_S2304x128

theorem V11_apply (y : FVec Ideal S14x12x16x128 .bf16) (od oh : Fin 12) (b : Fin 16) (kd : Fin 2) (q : Fin 128) :
    V11 y (ix2 (⟨(od.val * 12 + oh.val) * 16 + b.val, by have := od.isLt; have := oh.isLt; have := b.isLt; omega⟩ : Fin 2304)
              (⟨kd.val * 128 + q.val, by have := kd.isLt; have := q.isLt; omega⟩ : Fin 256))
      = y (ix4 (⟨od.val + kd.val, by have := od.isLt; have := kd.isLt; omega⟩ : Fin 14) oh b q) := by
  unfold V11
  refine (shapeCast_apply _ _ _ (ix4 od oh b (⟨kd.val * 128 + q.val, by have := kd.isLt; have := q.isLt; omega⟩ : Fin 256)) ?_).trans ?_
  · rw [Shape.rowMajor_val_four, Shape.rowMajor_val_two]
    rfl
  · have hkd : kd.val = 0 ∨ kd.val = 1 := by have := kd.isLt; omega
    rcases hkd with h0 | h1
    · refine (concatenate_pair_apply_left (t := S12x12x16x256) (s₁ := S12x12x16x128) (s₂ := S12x12x16x128) (3 : Fin 4) _ _ _ _ rfl (ix4 od oh b q) ?_).trans ?_
      · intro a
        match a with
        | ⟨0, _⟩ => rfl
        | ⟨1, _⟩ => rfl
        | ⟨2, _⟩ => rfl
        | ⟨3, _⟩ => show q.val = kd.val * 128 + q.val; omega
      · refine extractStridedSlice_apply _ y _ _ _ ?_
        intro a
        match a with
        | ⟨0, _⟩ => show od.val + kd.val = 0 + od.val; omega
        | ⟨1, _⟩ => show oh.val = 0 + oh.val; omega
        | ⟨2, _⟩ => show b.val = 0 + b.val; omega
        | ⟨3, _⟩ => show q.val = 0 + q.val; omega
    · refine (concatenate_pair_apply_right (t := S12x12x16x256) (s₁ := S12x12x16x128) (s₂ := S12x12x16x128) (3 : Fin 4) _ _ _ _ rfl rfl (ix4 od oh b q) ?_ ?_).trans ?_
      · intro a ha
        match a with
        | ⟨0, _⟩ => rfl
        | ⟨1, _⟩ => rfl
        | ⟨2, _⟩ => rfl
        | ⟨3, _⟩ => exact absurd rfl ha
      · show q.val + 128 = kd.val * 128 + q.val; omega
      · refine extractStridedSlice_apply _ y _ _ _ ?_
        intro a
        match a with
        | ⟨0, _⟩ => show od.val + kd.val = 1 + od.val; omega
        | ⟨1, _⟩ => show oh.val = 0 + oh.val; omega
        | ⟨2, _⟩ => show b.val = 0 + b.val; omega
        | ⟨3, _⟩ => show q.val = 0 + q.val; omega

theorem V13_apply (y : FVec Ideal S14x12x16x128 .bf16) (od oh : Fin 12) (b : Fin 16) (q : Fin 128) :
    V13 y (ix2 (⟨(od.val * 12 + oh.val) * 16 + b.val, by have := od.isLt; have := oh.isLt; have := b.isLt; omega⟩ : Fin 2304) q)
      = y (ix4 (⟨od.val + 2, by have := od.isLt; omega⟩ : Fin 14) oh b q) := by
  unfold V13
  refine (shapeCast_apply _ _ _ (ix4 od oh b q) ?_).trans ?_
  · rw [Shape.rowMajor_val_four, Shape.rowMajor_val_two]
    rfl
  · refine extractStridedSlice_apply _ y _ _ _ ?_
    intro a
    match a with
    | ⟨0, _⟩ => show od.val + 2 = 2 + od.val; omega
    | ⟨1, _⟩ => show oh.val = 0 + oh.val; omega
    | ⟨2, _⟩ => show b.val = 0 + b.val; omega
    | ⟨3, _⟩ => show q.val = 0 + q.val; omega

/-! ## The contraction over 378 from the two padded contractions -/

/-- A sum over `a * b` terms, taken block by block. -/
theorem sum_blocks {M : Type} [AddCommMonoid M] (a b : ℕ) (f : Fin (a * b) → M) :
    ∑ k, f k = ∑ i : Fin a, ∑ j : Fin b, f (finProdFinEquiv (i, j)) := by
  rw [← Equiv.sum_comp finProdFinEquiv f, Fintype.sum_prod_type]

/-- A sum of 128 terms whose last two vanish is the sum of the first 126. -/
theorem sum_drop2 {M : Type} [AddCommMonoid M] (f : Fin 128 → M) (h : ∀ q : Fin 128, 126 ≤ q.val → f q = 0) :
    ∑ q, f q = ∑ q : Fin 126, f ⟨q.val, by omega⟩ := by
  refine (Fin.sum_univ_add (a := 126) (b := 2) f).trans ?_
  have h2 : ∑ i : Fin 2, f (Fin.natAdd 126 i) = 0 :=
    Finset.sum_eq_zero fun i _ => h _ (by show 126 ≤ 126 + i.val; omega)
  rw [h2, add_zero]
  rfl

/-- An image read at coordinates given by their values. -/
theorem img_congr (X : Fin 14 → Fin 14 → Fin 42 → EReal) {a a' : Fin 14} {b b' : Fin 14} {c c' : Fin 42}
    (ha : a.val = a'.val) (hb : b.val = b'.val) (hc : c.val = c'.val) : X a b c = X a' b' c' := by
  rw [Fin.ext ha, Fin.ext hb, Fin.ext hc]

/-- One depth tap's 128 padded products are the 126 products of the convolution's block `kd`. -/
theorem tap_sum (X : Fin 14 → Fin 14 → Fin 42 → EReal) (W1 : Fin 378 → Fin 512 → EReal) (n : Fin 512)
    (od oh : Fin 12) (r : Fin 144) (hr : r.val = od.val * 12 + oh.val) (kd : Fin 3)
    (l w : Fin 128 → EReal)
    (hl : ∀ (q : Fin 128) (hq : q.val < 126),
      l q = X ⟨od.val + kd.val, by have := od.isLt; have := kd.isLt; omega⟩
              ⟨oh.val + q.val / 42, by have := oh.isLt; omega⟩ ⟨q.val % 42, by omega⟩)
    (hw : ∀ q : Fin 128, w q = if h : q.val < 126 then W1 ⟨kd.val * 126 + q.val, by have := kd.isLt; omega⟩ n else 0) :
    ∑ q, l q * w q
      = ∑ q : Fin 126, Net.lhs1 X r (finProdFinEquiv (kd, q)) * W1 (finProdFinEquiv (kd, q)) n := by
  rw [sum_drop2 (fun q => l q * w q) (fun q hq => by
    show l q * w q = 0
    rw [hw q, dif_neg (by omega), mul_zero])]
  refine Finset.sum_congr rfl fun q _ => ?_
  show l ⟨q.val, _⟩ * w ⟨q.val, _⟩ = _
  rw [hl ⟨q.val, by have := q.isLt; omega⟩ q.isLt, hw ⟨q.val, by have := q.isLt; omega⟩, dif_pos q.isLt]
  have hq := q.isLt
  have hkd := kd.isLt
  have hoh := oh.isLt
  refine congrArg₂ (· * ·) ?_ ?_
  · unfold Net.lhs1
    refine img_congr X ?_ ?_ ?_
    · show od.val + kd.val = r.val / 12 + (q.val + 126 * kd.val) / 126
      omega
    · show oh.val + q.val / 42 = r.val % 12 + (q.val + 126 * kd.val) % 126 / 42
      omega
    · show q.val % 42 = (q.val + 126 * kd.val) % 42
      omega
  · refine congrFun (congrArg W1 (Fin.ext ?_)) n
    show kd.val * 126 + q.val = q.val + 126 * kd.val
    omega

/-- The two padded products add up to the one contraction over 378. -/
theorem conv_law (X : Fin 14 → Fin 14 → Fin 42 → EReal) (W1 : Fin 378 → Fin 512 → EReal) (n : Fin 512)
    (od oh : Fin 12) (r : Fin 144) (hr : r.val = od.val * 12 + oh.val)
    (la wa : Fin 256 → EReal) (lb wb : Fin 128 → EReal)
    (hla : ∀ (kd : Fin 2) (q : Fin 128) (hq : q.val < 126),
      la ⟨kd.val * 128 + q.val, by have := kd.isLt; have := q.isLt; omega⟩
        = X ⟨od.val + kd.val, by have := od.isLt; have := kd.isLt; omega⟩
            ⟨oh.val + q.val / 42, by have := oh.isLt; omega⟩ ⟨q.val % 42, by omega⟩)
    (hlb : ∀ (q : Fin 128) (hq : q.val < 126),
      lb q = X ⟨od.val + 2, by have := od.isLt; omega⟩ ⟨oh.val + q.val / 42, by have := oh.isLt; omega⟩ ⟨q.val % 42, by omega⟩)
    (hwa : ∀ (kd : Fin 2) (q : Fin 128),
      wa ⟨kd.val * 128 + q.val, by have := kd.isLt; have := q.isLt; omega⟩
        = if h : q.val < 126 then W1 ⟨kd.val * 126 + q.val, by have := kd.isLt; omega⟩ n else 0)
    (hwb : ∀ q : Fin 128, wb q = if h : q.val < 126 then W1 ⟨252 + q.val, by omega⟩ n else 0) :
    ∑ k, la k * wa k + ∑ q, lb q * wb q = Net.c1 X W1 r n := by
  unfold Net.c1
  have hR : ∑ k : Fin 378, Net.lhs1 X r k * W1 k n
      = ∑ i : Fin 3, ∑ j : Fin 126, Net.lhs1 X r (finProdFinEquiv (i, j)) * W1 (finProdFinEquiv (i, j)) n :=
    sum_blocks 3 126 (fun k : Fin 378 => Net.lhs1 X r k * W1 k n)
  have hL : ∑ k : Fin 256, la k * wa k
      = ∑ i : Fin 2, ∑ j : Fin 128, la (finProdFinEquiv (i, j)) * wa (finProdFinEquiv (i, j)) :=
    sum_blocks 2 128 (fun k : Fin 256 => la k * wa k)
  have e : ∀ (kd : Fin 2) (q : Fin 128), (finProdFinEquiv (kd, q) : Fin 256)
      = ⟨kd.val * 128 + q.val, by have := kd.isLt; have := q.isLt; omega⟩ := fun kd q =>
    Fin.ext (by show q.val + 128 * kd.val = kd.val * 128 + q.val; omega)
  have hA : ∀ kd : Fin 2, ∑ q : Fin 128, la (finProdFinEquiv (kd, q)) * wa (finProdFinEquiv (kd, q))
      = ∑ q : Fin 126, Net.lhs1 X r (finProdFinEquiv ((⟨kd.val, by have := kd.isLt; omega⟩ : Fin 3), q))
          * W1 (finProdFinEquiv ((⟨kd.val, by have := kd.isLt; omega⟩ : Fin 3), q)) n := fun kd =>
    tap_sum X W1 n od oh r hr ⟨kd.val, by have := kd.isLt; omega⟩ _ _
      (fun q hq => by rw [e kd q]; exact hla kd q hq) (fun q => by rw [e kd q]; exact hwa kd q)
  have hB : ∑ q : Fin 128, lb q * wb q
      = ∑ q : Fin 126, Net.lhs1 X r (finProdFinEquiv ((2 : Fin 3), q)) * W1 (finProdFinEquiv ((2 : Fin 3), q)) n :=
    tap_sum X W1 n od oh r hr 2 lb wb hlb hwb
  rw [hR, hL, Fin.sum_univ_two, Fin.sum_univ_three, hA 0, hA 1, hB]
  rfl

/-! ## The three poolings and the bias, entry by entry -/

/-- Pooling over width: the maximum of the two halves of the 512 columns. -/
def Wd (r : FVec Ideal S2304x512 .f32) : FVec Ideal S2304x256 .f32 :=
  maximumf (extractStridedSlice S2304x256 ![0, 0] r slices_S2304x512_o0_0_S2304x256)
    (extractStridedSlice S2304x256 ![0, 256] r slices_S2304x512_o0_256_S2304x256)

theorem Wd_apply (r : FVec Ideal S2304x512 .f32) (row : Fin 2304) (j : Fin 256) :
    Wd r (ix2 row j)
      = max (r (ix2 row (⟨j.val, by have := j.isLt; omega⟩ : Fin 512)))
            (r (ix2 row (⟨j.val + 256, by have := j.isLt; omega⟩ : Fin 512))) := by
  unfold Wd
  refine congrArg₂ max (extractStridedSlice_apply _ r _ _ _ ?_) (extractStridedSlice_apply _ r _ _ _ ?_)
  · intro a
    match a with
    | ⟨0, _⟩ => show row.val = 0 + row.val; omega
    | ⟨1, _⟩ => show j.val = 0 + j.val; omega
  · intro a
    match a with
    | ⟨0, _⟩ => show row.val = 0 + row.val; omega
    | ⟨1, _⟩ => show j.val + 256 = 256 + j.val; omega

/-- Pooling over depth: rows regrouped as (pooled depth, depth parity, height, image), the two parities' maximum. -/
def Dp (m : FVec Ideal S2304x256 .f32) : FVec Ideal S6x12x16x256 .f32 :=
  maximumf
    (shapeCast S6x12x16x256
      (extractStridedSlice S6x1x12x16x256 ![0, 0, 0, 0, 0]
        (shapeCast S6x2x12x16x256 m shapeCasts_S2304x256_S6x2x12x16x256)
        slices_S6x2x12x16x256_o0_0_0_0_0_S6x1x12x16x256)
      shapeCasts_S6x1x12x16x256_S6x12x16x256)
    (shapeCast S6x12x16x256
      (extractStridedSlice S6x1x12x16x256 ![0, 1, 0, 0, 0]
        (shapeCast S6x2x12x16x256 m shapeCasts_S2304x256_S6x2x12x16x256)
        slices_S6x2x12x16x256_o0_1_0_0_0_S6x1x12x16x256)
      shapeCasts_S6x1x12x16x256_S6x12x16x256)

/-- One parity of the depth pooling's regrouping, read at an entry. -/
theorem Dp_half (m : FVec Ideal S2304x256 .f32) (a : Fin 2)
    (hs : S6x2x12x16x256.Slices ![0, a.val, 0, 0, 0] S6x1x12x16x256)
    (dp : Fin 6) (h : Fin 12) (b : Fin 16) (j : Fin 256) :
    shapeCast S6x12x16x256
      (extractStridedSlice S6x1x12x16x256 ![0, a.val, 0, 0, 0]
        (shapeCast S6x2x12x16x256 m shapeCasts_S2304x256_S6x2x12x16x256) hs)
      shapeCasts_S6x1x12x16x256_S6x12x16x256 (ix4 dp h b j)
      = m (ix2 (⟨((2 * dp.val + a.val) * 12 + h.val) * 16 + b.val,
            by have := dp.isLt; have := a.isLt; have := h.isLt; have := b.isLt; omega⟩ : Fin 2304) j) := by
  have hdp := dp.isLt; have ha := a.isLt; have hh := h.isLt; have hb := b.isLt; have hj := j.isLt
  refine (shapeCast_apply _ _ _ (ix5 dp (0 : Fin 1) h b j) ?_).trans ?_
  · rw [Shape.rowMajor_val_five, Shape.rowMajor_val_four]
    show (((dp.val * 1 + 0) * 12 + h.val) * 16 + b.val) * 256 + j.val = ((dp.val * 12 + h.val) * 16 + b.val) * 256 + j.val
    omega
  refine (extractStridedSlice_apply _ _ _ _ (ix5 dp a h b j) ?_).trans ?_
  · intro ax
    match ax with
    | ⟨0, _⟩ => show dp.val = 0 + dp.val; omega
    | ⟨1, _⟩ => show a.val = a.val + 0; omega
    | ⟨2, _⟩ => show h.val = 0 + h.val; omega
    | ⟨3, _⟩ => show b.val = 0 + b.val; omega
    | ⟨4, _⟩ => show j.val = 0 + j.val; omega
  refine shapeCast_apply _ _ _ _ ?_
  rw [Shape.rowMajor_val_two, Shape.rowMajor_val_five]
  show (((2 * dp.val + a.val) * 12 + h.val) * 16 + b.val) * 256 + j.val
    = ((((dp.val * 2 + a.val) * 12 + h.val) * 16 + b.val) * 256 + j.val)
  omega

theorem Dp_apply (m : FVec Ideal S2304x256 .f32) (dp : Fin 6) (h : Fin 12) (b : Fin 16) (j : Fin 256) :
    Dp m (ix4 dp h b j)
      = max (m (ix2 (⟨((2 * dp.val + 0) * 12 + h.val) * 16 + b.val,
                by have := dp.isLt; have := h.isLt; have := b.isLt; omega⟩ : Fin 2304) j))
            (m (ix2 (⟨((2 * dp.val + 1) * 12 + h.val) * 16 + b.val,
                by have := dp.isLt; have := h.isLt; have := b.isLt; omega⟩ : Fin 2304) j)) := by
  unfold Dp
  exact congrArg₂ max (Dp_half m 0 slices_S6x2x12x16x256_o0_0_0_0_0_S6x1x12x16x256 dp h b j)
    (Dp_half m 1 slices_S6x2x12x16x256_o0_1_0_0_0_S6x1x12x16x256 dp h b j)

/-- Pooling over height: heights regrouped as (pooled height, parity), the two parities' maximum. -/
def Hp (n : FVec Ideal S6x12x16x256 .f32) : FVec Ideal S6x6x16x256 .f32 :=
  maximumf
    (shapeCast S6x6x16x256
      (extractStridedSlice S6x6x1x16x256 ![0, 0, 0, 0, 0]
        (shapeCast S6x6x2x16x256 n shapeCasts_S6x12x16x256_S6x6x2x16x256)
        slices_S6x6x2x16x256_o0_0_0_0_0_S6x6x1x16x256)
      shapeCasts_S6x6x1x16x256_S6x6x16x256)
    (shapeCast S6x6x16x256
      (extractStridedSlice S6x6x1x16x256 ![0, 0, 1, 0, 0]
        (shapeCast S6x6x2x16x256 n shapeCasts_S6x12x16x256_S6x6x2x16x256)
        slices_S6x6x2x16x256_o0_0_1_0_0_S6x6x1x16x256)
      shapeCasts_S6x6x1x16x256_S6x6x16x256)

/-- One parity of the height pooling's regrouping, read at an entry. -/
theorem Hp_half (n : FVec Ideal S6x12x16x256 .f32) (e : Fin 2)
    (hs : S6x6x2x16x256.Slices ![0, 0, e.val, 0, 0] S6x6x1x16x256)
    (dp hp : Fin 6) (b : Fin 16) (j : Fin 256) :
    shapeCast S6x6x16x256
      (extractStridedSlice S6x6x1x16x256 ![0, 0, e.val, 0, 0]
        (shapeCast S6x6x2x16x256 n shapeCasts_S6x12x16x256_S6x6x2x16x256) hs)
      shapeCasts_S6x6x1x16x256_S6x6x16x256 (ix4 dp hp b j)
      = n (ix4 dp (⟨2 * hp.val + e.val, by have := hp.isLt; have := e.isLt; omega⟩ : Fin 12) b j) := by
  have hdp := dp.isLt; have he := e.isLt; have hh := hp.isLt; have hb := b.isLt; have hj := j.isLt
  refine (shapeCast_apply _ _ _ (ix5 dp hp (0 : Fin 1) b j) ?_).trans ?_
  · rw [Shape.rowMajor_val_five, Shape.rowMajor_val_four]
    show (((dp.val * 6 + hp.val) * 1 + 0) * 16 + b.val) * 256 + j.val = ((dp.val * 6 + hp.val) * 16 + b.val) * 256 + j.val
    omega
  refine (extractStridedSlice_apply _ _ _ _ (ix5 dp hp e b j) ?_).trans ?_
  · intro ax
    match ax with
    | ⟨0, _⟩ => show dp.val = 0 + dp.val; omega
    | ⟨1, _⟩ => show hp.val = 0 + hp.val; omega
    | ⟨2, _⟩ => show e.val = e.val + 0; omega
    | ⟨3, _⟩ => show b.val = 0 + b.val; omega
    | ⟨4, _⟩ => show j.val = 0 + j.val; omega
  refine shapeCast_apply _ _ _ _ ?_
  rw [Shape.rowMajor_val_four, Shape.rowMajor_val_five]
  show ((dp.val * 12 + (2 * hp.val + e.val)) * 16 + b.val) * 256 + j.val
    = ((((dp.val * 6 + hp.val) * 2 + e.val) * 16 + b.val) * 256 + j.val)
  omega

theorem Hp_apply (n : FVec Ideal S6x12x16x256 .f32) (dp hp : Fin 6) (b : Fin 16) (j : Fin 256) :
    Hp n (ix4 dp hp b j)
      = max (n (ix4 dp (⟨2 * hp.val + 0, by have := hp.isLt; omega⟩ : Fin 12) b j))
            (n (ix4 dp (⟨2 * hp.val + 1, by have := hp.isLt; omega⟩ : Fin 12) b j)) := by
  unfold Hp
  exact congrArg₂ max (Hp_half n 0 slices_S6x6x2x16x256_o0_0_0_0_0_S6x6x1x16x256 dp hp b j)
    (Hp_half n 1 slices_S6x6x2x16x256_o0_0_1_0_0_S6x6x1x16x256 dp hp b j)

/-- The bias row repeated over every pooled position and image. -/
def Bs (bias : Vec Ideal S1x256 .f32) : FVec Ideal S6x6x16x256 .f32 :=
  broadcastTo S6x6x16x256 (shapeCast S1x1x1x256 bias shapeCasts_S1x256_S1x1x1x256) broadcasts_S1x1x1x256_S6x6x16x256

theorem Bs_apply (bias : Vec Ideal S1x256 .f32) (dp hp : Fin 6) (b : Fin 16) (j : Fin 256) :
    Bs bias (ix4 dp hp b j) = bias (ix2 0 j) := by
  unfold Bs
  refine (broadcastTo_apply _ _ _ (ix4 (0 : Fin 1) (0 : Fin 1) (0 : Fin 1) j) ?_).trans ?_
  · intro ax
    match ax with
    | ⟨0, _⟩ => rfl
    | ⟨1, _⟩ => rfl
    | ⟨2, _⟩ => rfl
    | ⟨3, _⟩ => rfl
  refine shapeCast_apply _ _ _ _ ?_
  rw [Shape.rowMajor_val_two, Shape.rowMajor_val_four]
  show 0 * 256 + j.val = ((0 * 1 + 0) * 1 + 0) * 256 + j.val
  omega

/-! ## The two products, and the whole value in these terms -/

/-- The two matrix products into zero accumulators, added: the padded rows of depth taps 0 and 1 against the first
    weight block, those of depth tap 2 against the second. -/
def R20 (x : FVec Ideal S14x14x16x42 .bf16) (wa : FVec Ideal S256x512 .bf16) (wb : FVec Ideal S128x512 .bf16) :
    FVec Ideal S2304x512 .f32 :=
  addf
    (matmul dot_S2304x256_S256x512_S2304x512_1_0_0_1_n_n none
      (V11 (V7 x (broadcast S14x12x16x2 (Scalar.ofBits (F := Ideal) .bf16 0x0000#16)))) wa
      (constant (F := Ideal) S2304x512 .f32 0x00000000#32))
    (matmul dot_S2304x128_S128x512_S2304x512_1_0_0_1_n_n none
      (V13 (V7 x (broadcast S14x12x16x2 (Scalar.ofBits (F := Ideal) .bf16 0x0000#16)))) wb
      (constant (F := Ideal) S2304x512 .f32 0x00000000#32))

/-- Row `(od·12 + oh)·16 + b` of the added products is row `od·12 + oh` of image `b`'s convolution. -/
theorem R20_apply (x : FVec Ideal S14x14x16x42 .bf16) (w1a : FVec Ideal S256x512 .bf16) (w1b : FVec Ideal S128x512 .bf16)
    (W1 : Fin 378 → Fin 512 → EReal)
    (ha : ∀ (kd : Fin 2) (q : Fin 128) (n : Fin 512),
      w1a (ix2 ⟨kd.val * 128 + q.val, by have := kd.isLt; have := q.isLt; omega⟩ n)
        = if h : q.val < 126 then W1 ⟨kd.val * 126 + q.val, by have := kd.isLt; omega⟩ n else 0)
    (hb : ∀ (q : Fin 128) (n : Fin 512),
      w1b (ix2 q n) = if h : q.val < 126 then W1 ⟨252 + q.val, by omega⟩ n else 0)
    (od oh : Fin 12) (b : Fin 16) (n : Fin 512) (r : Fin 144) (hr : r.val = od.val * 12 + oh.val) :
    R20 x w1a w1b (ix2 (⟨(od.val * 12 + oh.val) * 16 + b.val,
        by have := od.isLt; have := oh.isLt; have := b.isLt; omega⟩ : Fin 2304) n)
      = Net.c1 (Net.imgK x b) W1 r n := by
  unfold R20
  refine (congrArg₂ (· + ·) (Cert.PlainDot.matmul_zero_apply _ rfl none _ _ _)
    (Cert.PlainDot.matmul_zero_apply _ rfl none _ _ _)).trans ?_
  exact conv_law (Net.imgK x b) W1 n od oh r hr
    (fun k => V11 (V7 x (broadcast S14x12x16x2 (Scalar.ofBits (F := Ideal) .bf16 0x0000#16)))
      (ix2 (⟨(od.val * 12 + oh.val) * 16 + b.val,
        by have := od.isLt; have := oh.isLt; have := b.isLt; omega⟩ : Fin 2304) k))
    (fun k => w1a (ix2 k n))
    (fun q => V13 (V7 x (broadcast S14x12x16x2 (Scalar.ofBits (F := Ideal) .bf16 0x0000#16)))
      (ix2 (⟨(od.val * 12 + oh.val) * 16 + b.val,
        by have := od.isLt; have := oh.isLt; have := b.isLt; omega⟩ : Fin 2304) q))
    (fun q => w1b (ix2 q n))
    (fun kd q hq => (V11_apply _ od oh b kd q).trans (V7_apply x _ _ oh b q hq))
    (fun q hq => (V13_apply _ od oh b q).trans (V7_apply x _ _ oh b q hq))
    (fun kd q => ha kd q n)
    (fun q => hb q n)

/-- The value as the poolings of the added products plus the repeated bias row. -/
theorem pay2_unfold (x0 : Vec Ideal S14x14x16x42 .f32) (w1a : Vec Ideal S256x512 .bf16) (w1b : Vec Ideal S128x512 .bf16)
    (b1 : Vec Ideal S1x256 .f32) :
    k0_pay2 x0 w1a w1b b1
      = addf (Hp (Dp (Wd (R20 (truncf .bf16 x0 bitsLt_bf16_f32) w1a w1b)))) (Bs b1) := by
  have h : k0_pay2 x0 w1a w1b b1
      = addf (Hp (Dp (Wd (R20
          (truncf .bf16 (shapeCast S14x14x16x42 x0 shapeCasts_S14x14x16x42_S14x14x16x42) bitsLt_bf16_f32)
          (shapeCast S256x512 w1a shapeCasts_S256x512_S256x512)
          (shapeCast S128x512 w1b shapeCasts_S128x512_S128x512))))) (Bs b1) := rfl
  rw [h, shapeCast_self, shapeCast_self, shapeCast_self]

end Conv1

/-- The pooled first convolution plus its bias, for image `b`, pooled depth `dp` and height `hp`: given that the two
    weight blocks are the regrouped, zero-padded weight `W1`. -/
theorem pay2_apply (x0 : Vec Ideal S14x14x16x42 .f32) (w1a : Vec Ideal S256x512 .bf16) (w1b : Vec Ideal S128x512 .bf16)
    (b1 : Vec Ideal S1x256 .f32) (W1 : Fin 378 → Fin 512 → EReal)
    (ha : ∀ (kd : Fin 2) (q : Fin 128) (n : Fin 512),
      w1a (ix2 ⟨kd.val * 128 + q.val, by have := kd.isLt; have := q.isLt; omega⟩ n)
        = if h : q.val < 126 then W1 ⟨kd.val * 126 + q.val, by have := kd.isLt; omega⟩ n else 0)
    (hb : ∀ (q : Fin 128) (n : Fin 512),
      w1b (ix2 q n) = if h : q.val < 126 then W1 ⟨252 + q.val, by omega⟩ n else 0)
    (dp hp : Fin 6) (b : Fin 16) (j : Fin 256) :
    k0_pay2 x0 w1a w1b b1 (ix4 dp hp b j)
      = Net.q1 (Net.m1 (Net.c1 (Net.imgK x0 b) W1)) ⟨dp.val * 6 + hp.val, by have := dp.isLt; have := hp.isLt; omega⟩ j
          + b1 (ix2 0 j) := by
  rw [Conv1.pay2_unfold]
  show Conv1.Hp _ (ix4 dp hp b j) + Conv1.Bs b1 (ix4 dp hp b j) = _
  rw [Conv1.Bs_apply, Conv1.Hp_apply, Conv1.Dp_apply, Conv1.Dp_apply,
    Conv1.Wd_apply, Conv1.Wd_apply, Conv1.Wd_apply, Conv1.Wd_apply]
  refine congrArg (· + b1 (ix2 0 j)) ?_
  unfold Net.q1 Net.m1
  have hdp := dp.isLt
  have hhp := hp.isLt
  -- each of the eight entries is an entry of image `b`'s convolution
  have key : ∀ (a e : ℕ) (ha2 : a < 2) (he2 : e < 2) (n : Fin 512) (r : Fin 144),
      r.val = (2 * dp.val + a) * 12 + (2 * hp.val + e) →
      Conv1.R20 (truncf .bf16 x0 bitsLt_bf16_f32) w1a w1b
          (ix2 (⟨((2 * dp.val + a) * 12 + (2 * hp.val + e)) * 16 + b.val, by have := b.isLt; omega⟩ : Fin 2304) n)
        = Net.c1 (Net.imgK x0 b) W1 r n := fun a e ha2 he2 n r hr =>
    Conv1.R20_apply (truncf .bf16 x0 bitsLt_bf16_f32) w1a w1b W1 ha hb
      ⟨2 * dp.val + a, by omega⟩ ⟨2 * hp.val + e, by omega⟩ b n r hr
  refine congrArg₂ max (congrArg₂ max (congrArg₂ max ?_ ?_) (congrArg₂ max ?_ ?_))
    (congrArg₂ max (congrArg₂ max ?_ ?_) (congrArg₂ max ?_ ?_))
  · exact key 0 0 (by omega) (by omega) _ _ (by
      show 2 * ((dp.val * 6 + hp.val) / 6) * 12 + 2 * ((dp.val * 6 + hp.val) % 6) = (2 * dp.val + 0) * 12 + (2 * hp.val + 0)
      omega)
  · exact key 0 0 (by omega) (by omega) _ _ (by
      show 2 * ((dp.val * 6 + hp.val) / 6) * 12 + 2 * ((dp.val * 6 + hp.val) % 6) = (2 * dp.val + 0) * 12 + (2 * hp.val + 0)
      omega)
  · exact key 1 0 (by omega) (by omega) _ _ (by
      show (2 * ((dp.val * 6 + hp.val) / 6) + 1) * 12 + 2 * ((dp.val * 6 + hp.val) % 6) = (2 * dp.val + 1) * 12 + (2 * hp.val + 0)
      omega)
  · exact key 1 0 (by omega) (by omega) _ _ (by
      show (2 * ((dp.val * 6 + hp.val) / 6) + 1) * 12 + 2 * ((dp.val * 6 + hp.val) % 6) = (2 * dp.val + 1) * 12 + (2 * hp.val + 0)
      omega)
  · exact key 0 1 (by omega) (by omega) _ _ (by
      show 2 * ((dp.val * 6 + hp.val) / 6) * 12 + 2 * ((dp.val * 6 + hp.val) % 6) + 1 = (2 * dp.val + 0) * 12 + (2 * hp.val + 1)
      omega)
  · exact key 0 1 (by omega) (by omega) _ _ (by
      show 2 * ((dp.val * 6 + hp.val) / 6) * 12 + 2 * ((dp.val * 6 + hp.val) % 6) + 1 = (2 * dp.val + 0) * 12 + (2 * hp.val + 1)
      omega)
  · exact key 1 1 (by omega) (by omega) _ _ (by
      show (2 * ((dp.val * 6 + hp.val) / 6) + 1) * 12 + 2 * ((dp.val * 6 + hp.val) % 6) + 1 = (2 * dp.val + 1) * 12 + (2 * hp.val + 1)
      omega)
  · exact key 1 1 (by omega) (by omega) _ _ (by
      show (2 * ((dp.val * 6 + hp.val) / 6) + 1) * 12 + 2 * ((dp.val * 6 + hp.val) % 6) + 1 = (2 * dp.val + 1) * 12 + (2 * hp.val + 1)
      omega)

/-- The rectifier's comparison is taken of that value. -/
theorem pay3_eq (x0 : Vec Ideal S14x14x16x42 .f32) (w1a : Vec Ideal S256x512 .bf16) (w1b : Vec Ideal S128x512 .bf16)
    (b1 : Vec Ideal S1x256 .f32) :
    k0_pay3 x0 w1a w1b b1
      = cmpf .oge (k0_pay2 x0 w1a w1b b1) (broadcast S6x6x16x256 (Scalar.ofBits (F := Ideal) .f32 0x00000000#32)) := by
  rfl

/-- The rectifier's scaled branch is taken of that value. -/
theorem pay4_eq (x0 : Vec Ideal S14x14x16x42 .f32) (w1a : Vec Ideal S256x512 .bf16) (w1b : Vec Ideal S128x512 .bf16)
    (b1 : Vec Ideal S1x256 .f32) :
    k0_pay4 x0 w1a w1b b1
      = mulf (broadcast S6x6x16x256 (Scalar.ofBits (F := Ideal) .f32 0x3C23D70A#32)) (k0_pay2 x0 w1a w1b b1) := by
  rfl

end Cert.KerSide

end
-- ==== Proof.KerF.lean ====
import proofs.«166258_g2000504528272344_pallasbulk_1029_2_alg».proof.Proof.Gen.KernelIdeal.Frame
import proofs.«166258_g2000504528272344_pallasbulk_1029_2_alg».proof.Proof.Spec
import proofs.«166258_g2000504528272344_pallasbulk_1029_2_alg».proof.Proof.LibPlainDot
import Idealize.ShloMosaic.Lib.Pipeline.Value
import Idealize.ShloMosaic.Lib.ValueLayout

/-!
# The sixteen-image program's second convolution and pooling, read at an entry

The nine taps are slices of the leading two axes of the rectified pooled rows, joined along the lanes; row
`(od·4 + oh)·16 + b` of the left operand is image `b`'s row `od·4 + oh`. After the product, the poolings, the bias
and the rectifier, the four pooled rows are laid side by side: lane `p·128 + j` of image `b`'s row.
-/

noncomputable section

open scoped BigOperators

namespace Cert.KerSide

open Idealize.ShloMosaic Idealize.ShloMosaic.ValueIdx Cert.KernelIdeal Cert.KernelIdeal.Gen

namespace Conv2

set_option hygiene false in
/-- One tap of the lane join: piece `k = kd·3 + kh` starts at lane `k·256` and is the slice at leading offsets `(kd, kh)`. -/
local macro "tap_case" k:num pre:num kd:num kh:num hs:ident : tactic => `(tactic| (
  refine (concatenate_apply_piece (t := S4x4x16x2304) 3 _ _ _ $k ?_ S4x4x16x256
    (extractStridedSlice S4x4x16x256 ![$kd, $kh, 0, 0] x $hs) ?_
    (show S4x4x16x256.rank = S4x4x16x2304.rank from rfl) $pre ?_ (ix4 od oh b l) ?_ ?_).trans ?_
  · show $k < 9; omega
  · rfl
  · rfl
  · intro a ha
    match a with
    | ⟨0, _⟩ => rfl
    | ⟨1, _⟩ => rfl
    | ⟨2, _⟩ => rfl
    | ⟨3, _⟩ => exact absurd rfl ha
  · show $pre + l.val = ($kd * 3 + $kh) * 256 + l.val
    omega
  · refine extractStridedSlice_apply _ x _ _ _ ?_
    intro a
    match a with
    | ⟨0, _⟩ => show od.val + $kd = $kd + od.val; omega
    | ⟨1, _⟩ => show oh.val + $kh = $kh + oh.val; omega
    | ⟨2, _⟩ => show b.val = 0 + b.val; omega
    | ⟨3, _⟩ => show l.val = 0 + l.val; omega))

/-- The nine taps joined along the lanes, at lane `(kd·3 + kh)·256 + l`: the rows' entry at depth `od + kd`, height
    `oh + kh`. -/
theorem taps_apply (x : FVec Ideal S6x6x16x256 .bf16) (od oh : Fin 4) (b : Fin 16) (kd kh : Fin 3) (l : Fin 256) :
    concatenate S4x4x16x2304 3 [⟨S4x4x16x256, extractStridedSlice S4x4x16x256 ![0, 0, 0, 0] x slices_S6x6x16x256_o0_0_0_0_S4x4x16x256⟩,
      ⟨S4x4x16x256, extractStridedSlice S4x4x16x256 ![0, 1, 0, 0] x slices_S6x6x16x256_o0_1_0_0_S4x4x16x256⟩,
      ⟨S4x4x16x256, extractStridedSlice S4x4x16x256 ![0, 2, 0, 0] x slices_S6x6x16x256_o0_2_0_0_S4x4x16x256⟩,
      ⟨S4x4x16x256, extractStridedSlice S4x4x16x256 ![1, 0, 0, 0] x slices_S6x6x16x256_o1_0_0_0_S4x4x16x256⟩,
      ⟨S4x4x16x256, extractStridedSlice S4x4x16x256 ![1, 1, 0, 0] x slices_S6x6x16x256_o1_1_0_0_S4x4x16x256⟩,
      ⟨S4x4x16x256, extractStridedSlice S4x4x16x256 ![1, 2, 0, 0] x slices_S6x6x16x256_o1_2_0_0_S4x4x16x256⟩,
      ⟨S4x4x16x256, extractStridedSlice S4x4x16x256 ![2, 0, 0, 0] x slices_S6x6x16x256_o2_0_0_0_S4x4x16x256⟩,
      ⟨S4x4x16x256, extractStridedSlice S4x4x16x256 ![2, 1, 0, 0] x slices_S6x6x16x256_o2_1_0_0_S4x4x16x256⟩,
      ⟨S4x4x16x256, extractStridedSlice S4x4x16x256 ![2, 2, 0, 0] x slices_S6x6x16x256_o2_2_0_0_S4x4x16x256⟩]
      concatenates_S4x4x16x256_S4x4x16x256_S4x4x16x256_S4x4x16x256_S4x4x16x256_S4x4x16x256_S4x4x16x256_S4x4x16x256_S4x4x16x256_S4x4x16x2304_d3
      (ix4 od oh b ⟨(kd.val * 3 + kh.val) * 256 + l.val, by have := kd.isLt; have := kh.isLt; have := l.isLt; omega⟩)
    = x (ix4 ⟨od.val + kd.val, by have := od.isLt; have := kd.isLt; omega⟩ ⟨oh.val + kh.val, by have := oh.isLt; have := kh.isLt; omega⟩ b l) := by
  match kd, kh with
  | ⟨0, _⟩, ⟨0, _⟩ => tap_case 0 0 0 0 slices_S6x6x16x256_o0_0_0_0_S4x4x16x256
  | ⟨0, _⟩, ⟨1, _⟩ => tap_case 1 256 0 1 slices_S6x6x16x256_o0_1_0_0_S4x4x16x256
  | ⟨0, _⟩, ⟨2, _⟩ => tap_case 2 512 0 2 slices_S6x6x16x256_o0_2_0_0_S4x4x16x256
  | ⟨1, _⟩, ⟨0, _⟩ => tap_case 3 768 1 0 slices_S6x6x16x256_o1_0_0_0_S4x4x16x256
  | ⟨1, _⟩, ⟨1, _⟩ => tap_case 4 1024 1 1 slices_S6x6x16x256_o1_1_0_0_S4x4x16x256
  | ⟨1, _⟩, ⟨2, _⟩ => tap_case 5 1280 1 2 slices_S6x6x16x256_o1_2_0_0_S4x4x16x256
  | ⟨2, _⟩, ⟨0, _⟩ => tap_case 6 1536 2 0 slices_S6x6x16x256_o2_0_0_0_S4x4x16x256
  | ⟨2, _⟩, ⟨1, _⟩ => tap_case 7 1792 2 1 slices_S6x6x16x256_o2_1_0_0_S4x4x16x256
  | ⟨2, _⟩, ⟨2, _⟩ => tap_case 8 2048 2 2 slices_S6x6x16x256_o2_2_0_0_S4x4x16x256

/-- The left operand of the second product: the joined taps, the leading two axes and the image folded into the
    row. -/
def lhsK (x : FVec Ideal S6x6x16x256 .bf16) : FVec Ideal S256x2304 .bf16 :=
  shapeCast S256x2304
    (concatenate S4x4x16x2304 3 [⟨S4x4x16x256, extractStridedSlice S4x4x16x256 ![0, 0, 0, 0] x slices_S6x6x16x256_o0_0_0_0_S4x4x16x256⟩,
      ⟨S4x4x16x256, extractStridedSlice S4x4x16x256 ![0, 1, 0, 0] x slices_S6x6x16x256_o0_1_0_0_S4x4x16x256⟩,
      ⟨S4x4x16x256, extractStridedSlice S4x4x16x256 ![0, 2, 0, 0] x slices_S6x6x16x256_o0_2_0_0_S4x4x16x256⟩,
      ⟨S4x4x16x256, extractStridedSlice S4x4x16x256 ![1, 0, 0, 0] x slices_S6x6x16x256_o1_0_0_0_S4x4x16x256⟩,
      ⟨S4x4x16x256, extractStridedSlice S4x4x16x256 ![1, 1, 0, 0] x slices_S6x6x16x256_o1_1_0_0_S4x4x16x256⟩,
      ⟨S4x4x16x256, extractStridedSlice S4x4x16x256 ![1, 2, 0, 0] x slices_S6x6x16x256_o1_2_0_0_S4x4x16x256⟩,
      ⟨S4x4x16x256, extractStridedSlice S4x4x16x256 ![2, 0, 0, 0] x slices_S6x6x16x256_o2_0_0_0_S4x4x16x256⟩,
      ⟨S4x4x16x256, extractStridedSlice S4x4x16x256 ![2, 1, 0, 0] x slices_S6x6x16x256_o2_1_0_0_S4x4x16x256⟩,
      ⟨S4x4x16x256, extractStridedSlice S4x4x16x256 ![2, 2, 0, 0] x slices_S6x6x16x256_o2_2_0_0_S4x4x16x256⟩]
      concatenates_S4x4x16x256_S4x4x16x256_S4x4x16x256_S4x4x16x256_S4x4x16x256_S4x4x16x256_S4x4x16x256_S4x4x16x256_S4x4x16x256_S4x4x16x2304_d3)
    shapeCasts_S4x4x16x2304_S256x2304

/-- Row `(od·4 + oh)·16 + b`, column `(kd·3 + kh)·256 + l` of the left operand. -/
theorem lhsK_apply (x : FVec Ideal S6x6x16x256 .bf16) (od oh : Fin 4) (b : Fin 16) (kd kh : Fin 3) (l : Fin 256) :
    lhsK x (ix2 ⟨(od.val * 4 + oh.val) * 16 + b.val, by have := od.isLt; have := oh.isLt; have := b.isLt; omega⟩
        ⟨(kd.val * 3 + kh.val) * 256 + l.val, by have := kd.isLt; have := kh.isLt; have := l.isLt; omega⟩)
      = x (ix4 ⟨od.val + kd.val, by have := od.isLt; have := kd.isLt; omega⟩
          ⟨oh.val + kh.val, by have := oh.isLt; have := kh.isLt; omega⟩ b l) := by
  unfold lhsK
  refine (shapeCast_apply _ _ _ (ix4 od oh b ⟨(kd.val * 3 + kh.val) * 256 + l.val, by have := kd.isLt; have := kh.isLt; have := l.isLt; omega⟩) ?_).trans
    (taps_apply x od oh b kd kh l)
  rw [Shape.rowMajor_val_four, Shape.rowMajor_val_two]
  show ((od.val * 4 + oh.val) * 16 + b.val) * 2304 + ((kd.val * 3 + kh.val) * 256 + l.val)
    = ((od.val * 4 + oh.val) * 16 + b.val) * 2304 + ((kd.val * 3 + kh.val) * 256 + l.val)
  rfl

/-- Image `b`'s row `r` of the left operand is the second convolution's left operand on that image's pooled rows. -/
theorem lhsK_eq_lhs2 (x : FVec Ideal S6x6x16x256 .bf16) (r : Fin 16) (b : Fin 16) (k : Fin 2304) :
    lhsK x (ix2 ⟨r.val * 16 + b.val, by have := r.isLt; have := b.isLt; omega⟩ k)
      = Net.lhs2 (fun q l => x (ix4 ⟨q.val / 6, by have := q.isLt; omega⟩ ⟨q.val % 6, by omega⟩ b l)) r k := by
  have hr := r.isLt
  have hk := k.isLt
  have hb := b.isLt
  have h := lhsK_apply x ⟨r.val / 4, by omega⟩ ⟨r.val % 4, by omega⟩ b ⟨k.val / 768, by omega⟩ ⟨k.val % 768 / 256, by omega⟩
    ⟨k.val % 256, by omega⟩
  have ha : (⟨r.val * 16 + b.val, by omega⟩ : Fin 256) = ⟨(r.val / 4 * 4 + r.val % 4) * 16 + b.val, by omega⟩ :=
    Fin.ext (by show r.val * 16 + b.val = (r.val / 4 * 4 + r.val % 4) * 16 + b.val; omega)
  have hc : k = ⟨(k.val / 768 * 3 + k.val % 768 / 256) * 256 + k.val % 256, by omega⟩ :=
    Fin.ext (by show k.val = (k.val / 768 * 3 + k.val % 768 / 256) * 256 + k.val % 256; omega)
  refine (congrArg₂ (fun a c => lhsK x (ix2 a c)) ha hc).trans (h.trans ?_)
  unfold Net.lhs2
  show x (ix4 _ _ b _) = x (ix4 _ _ b _)
  have e0 : (⟨r.val / 4 + k.val / 768, by omega⟩ : Fin 6)
      = ⟨((r.val / 4 + k.val / 768) * 6 + k.val % 768 / 256 + r.val % 4) / 6, by omega⟩ :=
    Fin.ext (by show r.val / 4 + k.val / 768 = ((r.val / 4 + k.val / 768) * 6 + k.val % 768 / 256 + r.val % 4) / 6; omega)
  have e1 : (⟨r.val % 4 + k.val % 768 / 256, by omega⟩ : Fin 6)
      = ⟨((r.val / 4 + k.val / 768) * 6 + k.val % 768 / 256 + r.val % 4) % 6, by omega⟩ :=
    Fin.ext (by show r.val % 4 + k.val % 768 / 256 = ((r.val / 4 + k.val / 768) * 6 + k.val % 768 / 256 + r.val % 4) % 6; omega)
  exact congrArg₂ (fun a c => x (ix4 a c b (⟨k.val % 256, by omega⟩ : Fin 256))) e0 e1

/-- Pooling over width on the product: its two column halves against each other. -/
def halvesK (r2 : FVec Ideal S256x256 .f32) : FVec Ideal S256x128 .f32 :=
  maximumf (extractStridedSlice S256x128 ![0, 0] r2 slices_S256x256_o0_0_S256x128)
    (extractStridedSlice S256x128 ![0, 128] r2 slices_S256x256_o0_128_S256x128)

theorem halvesK_apply (r2 : FVec Ideal S256x256 .f32) (row : Fin 256) (j : Fin 128) :
    halvesK r2 (ix2 row j) = max (r2 (ix2 row ⟨j.val, by omega⟩)) (r2 (ix2 row ⟨j.val + 128, by omega⟩)) := by
  unfold halvesK
  refine congrArg₂ max (extractStridedSlice_apply _ r2 _ _ _ ?_) (extractStridedSlice_apply _ r2 _ _ _ ?_)
  · intro a
    match a with
    | ⟨0, _⟩ => show row.val = 0 + row.val; omega
    | ⟨1, _⟩ => show j.val = 0 + j.val; omega
  · intro a
    match a with
    | ⟨0, _⟩ => show row.val = 0 + row.val; omega
    | ⟨1, _⟩ => show j.val + 128 = 128 + j.val; omega

/-- Pooling over depth: the rows split as (pooled depth, depth parity, height, image), the two parities against each
    other. -/
def depthK (y : FVec Ideal S256x128 .f32) : FVec Ideal S2x4x16x128 .f32 :=
  have v62 : FVec Ideal S2x2x4x16x128 .f32 := shapeCast S2x2x4x16x128 y shapeCasts_S256x128_S2x2x4x16x128
  have v63 : FVec Ideal S2x1x4x16x128 .f32 := extractStridedSlice S2x1x4x16x128 ![0, 0, 0, 0, 0] v62 slices_S2x2x4x16x128_o0_0_0_0_0_S2x1x4x16x128
  have v64 : FVec Ideal S2x4x16x128 .f32 := shapeCast S2x4x16x128 v63 shapeCasts_S2x1x4x16x128_S2x4x16x128
  have v65 : FVec Ideal S2x1x4x16x128 .f32 := extractStridedSlice S2x1x4x16x128 ![0, 1, 0, 0, 0] v62 slices_S2x2x4x16x128_o0_1_0_0_0_S2x1x4x16x128
  have v66 : FVec Ideal S2x4x16x128 .f32 := shapeCast S2x4x16x128 v65 shapeCasts_S2x1x4x16x128_S2x4x16x128
  maximumf v64 v66

/-- One depth parity `a` of the rows: the entry at row `((dp·2 + a)·4 + h)·16 + b`. -/
theorem depth_half (y : FVec Ideal S256x128 .f32) (a : Fin 2) (off : Fin 5 → Nat) (hoff : off = ![0, a.val, 0, 0, 0])
    (hs : S2x2x4x16x128.Slices off S2x1x4x16x128) (dp : Fin 2) (h : Fin 4) (b : Fin 16) (j : Fin 128) :
    shapeCast S2x4x16x128
        (extractStridedSlice S2x1x4x16x128 off (shapeCast S2x2x4x16x128 y shapeCasts_S256x128_S2x2x4x16x128) hs)
        shapeCasts_S2x1x4x16x128_S2x4x16x128 (ix4 dp h b j)
      = y (ix2 ⟨((dp.val * 2 + a.val) * 4 + h.val) * 16 + b.val, by have := dp.isLt; have := a.isLt; have := h.isLt; have := b.isLt; omega⟩ j) := by
  subst hoff
  refine (shapeCast_apply _ _ _ (ix5 dp 0 h b j) ?_).trans ?_
  · rw [Shape.rowMajor_val_five, Shape.rowMajor_val_four]
    show (((dp.val * 1 + 0) * 4 + h.val) * 16 + b.val) * 128 + j.val = ((dp.val * 4 + h.val) * 16 + b.val) * 128 + j.val
    omega
  refine (extractStridedSlice_apply _ _ _ _ (ix5 dp a h b j) ?_).trans ?_
  · intro c
    match c with
    | ⟨0, _⟩ => show dp.val = 0 + dp.val; omega
    | ⟨1, _⟩ => show a.val = a.val + 0; omega
    | ⟨2, _⟩ => show h.val = 0 + h.val; omega
    | ⟨3, _⟩ => show b.val = 0 + b.val; omega
    | ⟨4, _⟩ => show j.val = 0 + j.val; omega
  refine shapeCast_apply _ _ _ _ ?_
  rw [Shape.rowMajor_val_two, Shape.rowMajor_val_five]
  show (((dp.val * 2 + a.val) * 4 + h.val) * 16 + b.val) * 128 + j.val
    = ((((dp.val * 2 + a.val) * 4 + h.val) * 16 + b.val) * 128 + j.val)
  rfl

theorem depthK_apply (y : FVec Ideal S256x128 .f32) (dp : Fin 2) (h : Fin 4) (b : Fin 16) (j : Fin 128) :
    depthK y (ix4 dp h b j)
      = max (y (ix2 ⟨((dp.val * 2 + 0) * 4 + h.val) * 16 + b.val, by have := dp.isLt; have := h.isLt; have := b.isLt; omega⟩ j))
          (y (ix2 ⟨((dp.val * 2 + 1) * 4 + h.val) * 16 + b.val, by have := dp.isLt; have := h.isLt; have := b.isLt; omega⟩ j)) := by
  unfold depthK
  exact congrArg₂ max (depth_half y 0 _ rfl _ dp h b j) (depth_half y 1 _ rfl _ dp h b j)

/-- Pooling over height: the heights split as (pooled height, height parity), the two parities against each other. -/
def heightK (z : FVec Ideal S2x4x16x128 .f32) : FVec Ideal S2x2x16x128 .f32 :=
  have v68 : FVec Ideal S2x2x2x16x128 .f32 := shapeCast S2x2x2x16x128 z shapeCasts_S2x4x16x128_S2x2x2x16x128
  have v69 : FVec Ideal S2x2x1x16x128 .f32 := extractStridedSlice S2x2x1x16x128 ![0, 0, 0, 0, 0] v68 slices_S2x2x2x16x128_o0_0_0_0_0_S2x2x1x16x128
  have v70 : FVec Ideal S2x2x16x128 .f32 := shapeCast S2x2x16x128 v69 shapeCasts_S2x2x1x16x128_S2x2x16x128
  have v71 : FVec Ideal S2x2x1x16x128 .f32 := extractStridedSlice S2x2x1x16x128 ![0, 0, 1, 0, 0] v68 slices_S2x2x2x16x128_o0_0_1_0_0_S2x2x1x16x128
  have v72 : FVec Ideal S2x2x16x128 .f32 := shapeCast S2x2x16x128 v71 shapeCasts_S2x2x1x16x128_S2x2x16x128
  maximumf v70 v72

/-- One height parity `e`: the entry at height `hp·2 + e`. -/
theorem height_half (z : FVec Ideal S2x4x16x128 .f32) (e : Fin 2) (off : Fin 5 → Nat) (hoff : off = ![0, 0, e.val, 0, 0])
    (hs : S2x2x2x16x128.Slices off S2x2x1x16x128) (dp hp : Fin 2) (b : Fin 16) (j : Fin 128) :
    shapeCast S2x2x16x128
        (extractStridedSlice S2x2x1x16x128 off (shapeCast S2x2x2x16x128 z shapeCasts_S2x4x16x128_S2x2x2x16x128) hs)
        shapeCasts_S2x2x1x16x128_S2x2x16x128 (ix4 dp hp b j)
      = z (ix4 dp ⟨hp.val * 2 + e.val, by have := hp.isLt; have := e.isLt; omega⟩ b j) := by
  subst hoff
  refine (shapeCast_apply _ _ _ (ix5 dp hp 0 b j) ?_).trans ?_
  · rw [Shape.rowMajor_val_five, Shape.rowMajor_val_four]
    show ((((dp.val * 2 + hp.val) * 1 + 0) * 16 + b.val) * 128 + j.val) = ((dp.val * 2 + hp.val) * 16 + b.val) * 128 + j.val
    omega
  refine (extractStridedSlice_apply _ _ _ _ (ix5 dp hp e b j) ?_).trans ?_
  · intro c
    match c with
    | ⟨0, _⟩ => show dp.val = 0 + dp.val; omega
    | ⟨1, _⟩ => show hp.val = 0 + hp.val; omega
    | ⟨2, _⟩ => show e.val = e.val + 0; omega
    | ⟨3, _⟩ => show b.val = 0 + b.val; omega
    | ⟨4, _⟩ => show j.val = 0 + j.val; omega
  refine shapeCast_apply _ _ _ _ ?_
  rw [Shape.rowMajor_val_four, Shape.rowMajor_val_five]
  show ((dp.val * 4 + (hp.val * 2 + e.val)) * 16 + b.val) * 128 + j.val
    = ((((dp.val * 2 + hp.val) * 2 + e.val) * 16 + b.val) * 128 + j.val)
  omega

theorem heightK_apply (z : FVec Ideal S2x4x16x128 .f32) (dp hp : Fin 2) (b : Fin 16) (j : Fin 128) :
    heightK z (ix4 dp hp b j)
      = max (z (ix4 dp ⟨hp.val * 2 + 0, by have := hp.isLt; omega⟩ b j)) (z (ix4 dp ⟨hp.val * 2 + 1, by have := hp.isLt; omega⟩ b j)) := by
  unfold heightK
  exact congrArg₂ max (height_half z 0 _ rfl _ dp hp b j) (height_half z 1 _ rfl _ dp hp b j)

/-- The bias row laid under every pooled row of every image. -/
def biasK (bias : Vec Ideal S1x128 .f32) : FVec Ideal S2x2x16x128 .f32 :=
  broadcastTo S2x2x16x128 (shapeCast S1x1x1x128 bias shapeCasts_S1x128_S1x1x1x128) broadcasts_S1x1x1x128_S2x2x16x128

theorem biasK_apply (bias : Vec Ideal S1x128 .f32) (dp hp : Fin 2) (b : Fin 16) (j : Fin 128) :
    biasK bias (ix4 dp hp b j) = bias (ix2 0 j) := by
  unfold biasK
  refine (broadcastTo_apply _ _ _ (ix4 0 0 0 j) ?_).trans ?_
  · intro a
    match a with
    | ⟨0, _⟩ => rfl
    | ⟨1, _⟩ => rfl
    | ⟨2, _⟩ => rfl
    | ⟨3, _⟩ => rfl
  refine shapeCast_apply _ _ _ _ ?_
  rw [Shape.rowMajor_val_two, Shape.rowMajor_val_four]
  show 0 * 128 + j.val = ((0 * 1 + 0) * 1 + 0) * 128 + j.val
  omega

/-- The product's poolings, the bias and the rectifier. -/
def poolK (r2 : FVec Ideal S256x256 .f32) (bias : Vec Ideal S1x128 .f32) : FVec Ideal S2x2x16x128 .bf16 :=
  have v77 : FVec Ideal S2x2x16x128 .f32 := addf (heightK (depthK (halvesK r2))) (biasK bias)
  have cst_18 : Ideal .f32 := Scalar.ofBits .f32 0x00000000#32
  have v78 : FVec Ideal S2x2x16x128 .f32 := broadcast S2x2x16x128 cst_18
  have v79 : IVec S2x2x16x128 1 := cmpf .oge v77 v78
  have cst_19 : Ideal .f32 := Scalar.ofBits .f32 0x3C23D70A#32
  have v80 : FVec Ideal S2x2x16x128 .f32 := broadcast S2x2x16x128 cst_19
  have v81 : FVec Ideal S2x2x16x128 .f32 := mulf v80 v77
  have v82 : FVec Ideal S2x2x16x128 .f32 := select v79 v77 v81
  truncf .bf16 v82 bitsLt_bf16_f32

/-- Pooled row `p = dp·2 + hp` of image `b`: the second stage's pooling of that image's product rows, the bias, the
    rectifier. `C` is the image's sixteen product rows. -/
theorem poolK_apply (r2 : FVec Ideal S256x256 .f32) (bias : Vec Ideal S1x128 .f32) (b : Fin 16) (p : Fin 4) (j : Fin 128)
    (C : Fin 16 → Fin 256 → EReal)
    (hC : ∀ (r : Fin 16) (n : Fin 256), r2 (ix2 ⟨r.val * 16 + b.val, by have := r.isLt; have := b.isLt; omega⟩ n) = C r n) :
    poolK r2 bias (ix4 ⟨p.val / 2, by have := p.isLt; omega⟩ ⟨p.val % 2, by omega⟩ b j)
      = Net.lrelu (Net.q2 (Net.m2 C) p j + bias (ix2 0 j)) := by
  have hp := p.isLt
  have hb := b.isLt
  have hj := j.isLt
  have h1 : poolK r2 bias (ix4 ⟨p.val / 2, by omega⟩ ⟨p.val % 2, by omega⟩ b j)
      = Net.lrelu (heightK (depthK (halvesK r2)) (ix4 ⟨p.val / 2, by omega⟩ ⟨p.val % 2, by omega⟩ b j)
          + biasK bias (ix4 ⟨p.val / 2, by omega⟩ ⟨p.val % 2, by omega⟩ b j)) := rfl
  have hr : ∀ (a c : Fin 256) (r : Fin 16) (n : Fin 256), a.val = r.val * 16 + b.val → c.val = n.val →
      r2 (ix2 a c) = C r n := by
    intro a c r n ha hc
    have e1 : a = ⟨r.val * 16 + b.val, by have := r.isLt; omega⟩ := Fin.ext ha
    have e2 : c = n := Fin.ext hc
    rw [e1, e2]
    exact hC r n
  rw [h1, biasK_apply, heightK_apply]
  simp only [depthK_apply, halvesK_apply]
  unfold Net.q2 Net.m2
  refine congrArg Net.lrelu (congrArg (· + bias (ix2 0 j)) ?_)
  refine congrArg₂ max
    (congrArg₂ max (congrArg₂ max (hr _ _ _ _ ?_ ?_) (hr _ _ _ _ ?_ ?_)) (congrArg₂ max (hr _ _ _ _ ?_ ?_) (hr _ _ _ _ ?_ ?_)))
    (congrArg₂ max (congrArg₂ max (hr _ _ _ _ ?_ ?_) (hr _ _ _ _ ?_ ?_)) (congrArg₂ max (hr _ _ _ _ ?_ ?_) (hr _ _ _ _ ?_ ?_)))
  all_goals first | (dsimp only; omega) | rfl

/-- The four pooled rows laid side by side along the lanes. -/
def joinK (y : FVec Ideal S2x2x16x128 .bf16) : FVec Ideal S16x512 .bf16 :=
  have v84 : FVec Ideal S1x1x16x128 .bf16 := extractStridedSlice S1x1x16x128 ![0, 0, 0, 0] y slices_S2x2x16x128_o0_0_0_0_S1x1x16x128
  have v85 : FVec Ideal S16x128 .bf16 := shapeCast S16x128 v84 shapeCasts_S1x1x16x128_S16x128
  have v86 : FVec Ideal S1x1x16x128 .bf16 := extractStridedSlice S1x1x16x128 ![0, 1, 0, 0] y slices_S2x2x16x128_o0_1_0_0_S1x1x16x128
  have v87 : FVec Ideal S16x128 .bf16 := shapeCast S16x128 v86 shapeCasts_S1x1x16x128_S16x128
  have v88 : FVec Ideal S1x1x16x128 .bf16 := extractStridedSlice S1x1x16x128 ![1, 0, 0, 0] y slices_S2x2x16x128_o1_0_0_0_S1x1x16x128
  have v89 : FVec Ideal S16x128 .bf16 := shapeCast S16x128 v88 shapeCasts_S1x1x16x128_S16x128
  have v90 : FVec Ideal S1x1x16x128 .bf16 := extractStridedSlice S1x1x16x128 ![1, 1, 0, 0] y slices_S2x2x16x128_o1_1_0_0_S1x1x16x128
  have v91 : FVec Ideal S16x128 .bf16 := shapeCast S16x128 v90 shapeCasts_S1x1x16x128_S16x128
  concatenate S16x512 1 [⟨S16x128, v85⟩, ⟨S16x128, v87⟩, ⟨S16x128, v89⟩, ⟨S16x128, v91⟩] concatenates_S16x128_S16x128_S16x128_S16x128_S16x512_d1

/-- One pooled row `(dp, hp)` as a matrix of (image, lane). -/
theorem join_piece (y : FVec Ideal S2x2x16x128 .bf16) (dp hp : Nat) (hd : dp < 2) (hh : hp < 2)
    (hs : S2x2x16x128.Slices ![dp, hp, 0, 0] S1x1x16x128) (b : Fin 16) (j : Fin 128) :
    shapeCast S16x128 (extractStridedSlice S1x1x16x128 ![dp, hp, 0, 0] y hs) shapeCasts_S1x1x16x128_S16x128 (ix2 b j)
      = y (ix4 ⟨dp, hd⟩ ⟨hp, hh⟩ b j) := by
  refine (shapeCast_apply _ _ _ (ix4 0 0 b j) ?_).trans ?_
  · rw [Shape.rowMajor_val_four, Shape.rowMajor_val_two]
    show ((0 * 1 + 0) * 16 + b.val) * 128 + j.val = b.val * 128 + j.val
    omega
  refine extractStridedSlice_apply _ y _ _ _ ?_
  intro c
  match c with
  | ⟨0, _⟩ => show dp = dp + 0; omega
  | ⟨1, _⟩ => show hp = hp + 0; omega
  | ⟨2, _⟩ => show b.val = 0 + b.val; omega
  | ⟨3, _⟩ => show j.val = 0 + j.val; omega

set_option hygiene false in
/-- One piece of the lane join of the pooled rows: piece `k = dp·2 + hp` starts at lane `k·128`. -/
local macro "join_case" k:num pre:num dp:num hp:num hs:ident : tactic => `(tactic| (
  refine (concatenate_apply_piece (t := S16x512) 1 _ _ _ $k ?_ S16x128
    (shapeCast S16x128 (extractStridedSlice S1x1x16x128 ![$dp, $hp, 0, 0] y $hs) shapeCasts_S1x1x16x128_S16x128) ?_
    (show S16x128.rank = S16x512.rank from rfl) $pre ?_ (ix2 b j) ?_ ?_).trans ?_
  · show $k < 4; omega
  · rfl
  · rfl
  · intro a ha
    match a with
    | ⟨0, _⟩ => rfl
    | ⟨1, _⟩ => exact absurd rfl ha
  · show $pre + j.val = ($dp * 2 + $hp) * 128 + j.val
    omega
  · exact join_piece y $dp $hp (by omega) (by omega) $hs b j))

theorem joinK_apply (y : FVec Ideal S2x2x16x128 .bf16) (b : Fin 16) (dp hp : Fin 2) (j : Fin 128) :
    joinK y (ix2 b ⟨(dp.val * 2 + hp.val) * 128 + j.val, by have := dp.isLt; have := hp.isLt; have := j.isLt; omega⟩)
      = y (ix4 dp hp b j) := by
  unfold joinK
  match dp, hp with
  | ⟨0, _⟩, ⟨0, _⟩ => join_case 0 0 0 0 slices_S2x2x16x128_o0_0_0_0_S1x1x16x128
  | ⟨0, _⟩, ⟨1, _⟩ => join_case 1 128 0 1 slices_S2x2x16x128_o0_1_0_0_S1x1x16x128
  | ⟨1, _⟩, ⟨0, _⟩ => join_case 2 256 1 0 slices_S2x2x16x128_o1_0_0_0_S1x1x16x128
  | ⟨1, _⟩, ⟨1, _⟩ => join_case 3 384 1 1 slices_S2x2x16x128_o1_1_0_0_S1x1x16x128

end Conv2

/-- Image `b`'s four pooled rows of the second stage, laid side by side, from the rectifier's three operands. -/
theorem pay5_apply (v39 : FVec Ideal S6x6x16x256 .f32) (v41 : IVec S6x6x16x256 1) (v43 : FVec Ideal S6x6x16x256 .f32)
    (w2 : Vec Ideal S2304x256 .bf16) (b2 : Vec Ideal S1x128 .f32) (b : Fin 16) (p : Fin 4) (j : Fin 128) :
    k0_pay5 v39 v41 v43 w2 b2 (ix2 b ⟨p.val * 128 + j.val, by have := p.isLt; have := j.isLt; omega⟩)
      = Net.stage2
          (fun q l => Scalar.select
            (v41 (ix4 ⟨q.val / 6, by have := q.isLt; omega⟩ ⟨q.val % 6, by omega⟩ b l))
            (v39 (ix4 ⟨q.val / 6, by have := q.isLt; omega⟩ ⟨q.val % 6, by omega⟩ b l))
            (v43 (ix4 ⟨q.val / 6, by have := q.isLt; omega⟩ ⟨q.val % 6, by omega⟩ b l)))
          (Net.mat w2) (Net.row b2) p j := by
  have hp := p.isLt
  have hj := j.isLt
  have hpay : k0_pay5 v39 v41 v43 w2 b2
      = Conv2.joinK (Conv2.poolK (matmul dot_S256x2304_S2304x256_S256x256_1_0_0_1_n_n none
          (Conv2.lhsK (truncf .bf16 (select v41 v39 v43) bitsLt_bf16_f32)) w2 (constant S256x256 .f32 0x00000000#32)) b2) := rfl
  have hidx : (⟨p.val * 128 + j.val, by omega⟩ : Fin 512) = ⟨(p.val / 2 * 2 + p.val % 2) * 128 + j.val, by omega⟩ :=
    Fin.ext (by show p.val * 128 + j.val = (p.val / 2 * 2 + p.val % 2) * 128 + j.val; omega)
  rw [hpay, hidx]
  refine (Conv2.joinK_apply _ b ⟨p.val / 2, by omega⟩ ⟨p.val % 2, by omega⟩ j).trans ?_
  refine (Conv2.poolK_apply _ b2 b p j
    (Net.c2 (fun q l => Scalar.select
            (v41 (ix4 ⟨q.val / 6, by have := q.isLt; omega⟩ ⟨q.val % 6, by omega⟩ b l))
            (v39 (ix4 ⟨q.val / 6, by have := q.isLt; omega⟩ ⟨q.val % 6, by omega⟩ b l))
            (v43 (ix4 ⟨q.val / 6, by have := q.isLt; omega⟩ ⟨q.val % 6, by omega⟩ b l))) (Net.mat w2)) ?_).trans ?_
  · intro r n
    have hm := Cert.PlainDot.matmul_zero_apply (φ₂ := FTy.bf16) dot_S256x2304_S2304x256_S256x256_1_0_0_1_n_n rfl none
      (Conv2.lhsK (truncf .bf16 (select v41 v39 v43) bitsLt_bf16_f32)) w2
      (ix2 (⟨r.val * 16 + b.val, by have := r.isLt; have := b.isLt; omega⟩ : Fin 256) n)
    refine hm.trans ?_
    unfold Net.c2
    refine Finset.sum_congr rfl fun k _ => ?_
    exact congrArg (· * w2 (ix2 k n)) (Conv2.lhsK_eq_lhs2 _ r b k)
  · rfl

end Cert.KerSide

end
-- ==== Proof.KerG.lean ====
import proofs.«166258_g2000504528272344_pallasbulk_1029_2_alg».proof.Proof.Gen.KernelIdeal.Frame
import proofs.«166258_g2000504528272344_pallasbulk_1029_2_alg».proof.Proof.Spec
import proofs.«166258_g2000504528272344_pallasbulk_1029_2_alg».proof.Proof.LibPlainDot
import proofs.«166258_g2000504528272344_pallasbulk_1029_2_alg».proof.Proof.KerE
import proofs.«166258_g2000504528272344_pallasbulk_1029_2_alg».proof.Proof.KerF
import Idealize.ShloMosaic.Lib.Pipeline.Value
import Idealize.ShloMosaic.Lib.ValueLayout

/-!
# The sixteen-image program's dense head, and its whole output block

The first dense layer is one product over the 512 side-by-side lanes with the bias added last; the specification adds
the bias first and the four 128-lane products one after the other. The two agree because a sum over 512 lanes is the
sum of its four runs of 128, and addition on the extended reals is commutative and associative.
-/

noncomputable section

open scoped BigOperators

namespace Cert.KerSide

open Idealize.ShloMosaic Idealize.ShloMosaic.ValueIdx Cert.KernelIdeal Cert.KernelIdeal.Gen

namespace DenseHead

/-- A sum over 512 lanes is the sum, over the four runs of 128, of each run's sum: lane `r·128 + l` is lane `l` of
    run `r`, and every lane below 512 is such a pair exactly once. -/
theorem sum_four_runs (f : Fin 512 → EReal) :
    ∑ k : Fin 512, f k
      = ∑ r : Fin 4, ∑ l : Fin 128, f ⟨r.val * 128 + l.val, by have := r.isLt; have := l.isLt; omega⟩ := by
  rw [← Fintype.sum_prod_type']
  symm
  refine Fintype.sum_equiv (finProdFinEquiv (m := 4) (n := 128)) _ _ fun x => ?_
  obtain ⟨r, l⟩ := x
  refine congrArg f (Fin.ext ?_)
  show r.val * 128 + l.val = l.val + 128 * r.val
  omega

/-- Four terms and then a bias is the bias and then the four terms: addition on the extended reals is commutative
    and associative (no cancellation is used, so infinite terms do no harm). -/
theorem add_four_bias (c s0 s1 s2 s3 : EReal) : s0 + s1 + s2 + s3 + c = c + s0 + s1 + s2 + s3 := by
  ac_rfl

/-- The first dense layer: one product over the 512 side-by-side lanes with the bias last is the bias first and
    the four 128-lane products one after the other. -/
theorem dense1_eq (v92 : FVec Ideal S16x512 .bf16) (v94 : FVec Ideal S512x128 .bf16) (bf1 : Vec Ideal S1x128 .f32)
    (Wf1 : Fin 4 → Fin 128 → Fin 128 → EReal)
    (hf : ∀ (r : Fin 4) (l n : Fin 128),
      v94 (ix2 ⟨r.val * 128 + l.val, by have := r.isLt; have := l.isLt; omega⟩ n) = Wf1 r l n)
    (b : Fin 16) (k : Fin 128) :
    (∑ q : Fin 512, v92 (ix2 b q) * v94 (ix2 q k)) + bf1 (ix2 0 k)
      = Net.fc1 (fun p l => v92 (ix2 b ⟨p.val * 128 + l.val, by have := p.isLt; have := l.isLt; omega⟩))
          (Net.row bf1) Wf1 k := by
  rw [sum_four_runs]
  simp only [hf]
  rw [Fin.sum_univ_four]
  unfold Net.fc1
  exact add_four_bias _ _ _ _ _

/-- The first dense product into the zero accumulator, at image `b` and column `k`: the contraction over the 512
    side-by-side lanes. -/
theorem mm512_apply (a : FVec Ideal S16x512 .bf16) (w : FVec Ideal S512x128 .bf16) (b : Fin 16) (k : Fin 128) :
    matmul dot_S16x512_S512x128_S16x128_1_0_0_1_n_n none a w (constant S16x128 .f32 0x00000000#32) (ix2 b k)
      = ∑ q : Fin 512, a (ix2 b q) * w (ix2 q k) :=
  Cert.PlainDot.matmul_zero_apply (φ₁ := .bf16) (φ₂ := .bf16) _ rfl none a w (ix2 b k)

/-- The second dense product into the zero accumulator, at image `b` and column `n`. -/
theorem mm128_apply (a : FVec Ideal S16x128 .bf16) (w : FVec Ideal S128x128 .bf16) (b : Fin 16) (n : Fin 128) :
    matmul dot_S16x128_S128x128_S16x128_1_0_0_1_n_n none a w (constant S16x128 .f32 0x00000000#32) (ix2 b n)
      = ∑ k : Fin 128, a (ix2 b k) * w (ix2 k n) :=
  Cert.PlainDot.matmul_zero_apply (φ₁ := .bf16) (φ₂ := .bf16) _ rfl none a w (ix2 b n)

/-- The rectifier's three operands over the pooled first stage (the entry, its comparison with zero, and the slope
    times it), read at an index, are the rectifier of the entry there. -/
theorem lrelu_at (v : FVec Ideal S6x6x16x256 .f32) (i : S6x6x16x256.Idx) :
    Scalar.select
        ((cmpf .oge v (broadcast S6x6x16x256 (Scalar.ofBits (F := Ideal) .f32 0x00000000#32))) i) (v i)
        ((mulf (broadcast S6x6x16x256 (Scalar.ofBits (F := Ideal) .f32 0x3C23D70A#32)) v) i)
      = Net.lrelu (v i) := rfl

end DenseHead

/-- The dense weight's reshaped block is passed through unchanged. -/
theorem pay6_eq (w : Vec Ideal S512x128 .bf16) : k0_pay6 w = w := by
  unfold k0_pay6
  exact shapeCast_self w _

/-- The dense head on image `b`'s side-by-side pooled rows: given that the flat weight is `Wf1` block by block. -/
theorem pay1_apply (v92 : FVec Ideal S16x512 .bf16) (v94 : FVec Ideal S512x128 .bf16) (bf1 bns bnt : Vec Ideal S1x128 .f32)
    (wf2 : Vec Ideal S128x128 .bf16) (bf2 : Vec Ideal S1x128 .f32) (Wf1 : Fin 4 → Fin 128 → Fin 128 → EReal)
    (hf : ∀ (r : Fin 4) (l n : Fin 128),
      v94 (ix2 ⟨r.val * 128 + l.val, by have := r.isLt; have := l.isLt; omega⟩ n) = Wf1 r l n)
    (b : Fin 16) (n : Fin 128) :
    k0_pay1 v92 v94 bf1 bns bnt wf2 bf2 (ix2 b n)
      = Net.head (fun p l => v92 (ix2 b ⟨p.val * 128 + l.val, by have := p.isLt; have := l.isLt; omega⟩))
          (Net.row bf1) Wf1 (Net.row bns) (Net.row bnt) (Net.mat wf2) (Net.row bf2) n := by
  -- the last layer: a product over 128 lanes plus the bias row
  unfold k0_pay1 Net.head Net.fc2
  refine (addf_apply _ _ _).trans ?_
  refine congrArg₂ (· + ·) ((DenseHead.mm128_apply _ wf2 b n).trans ?_) (broadcastTo_1b_ab_apply bf2 _ b n)
  refine Finset.sum_congr rfl fun k _ => congrArg₂ (· * ·) ?_ rfl
  -- lane `k` of the hidden row: the rectifier, times the scale row, plus the shift row
  show _ = Net.bn _ _ _ k
  unfold Net.bn
  refine (truncf_apply (ψ := .bf16) (φ := .f32) _ bitsLt_bf16_f32 _).trans ?_
  refine (addf_apply _ _ _).trans ?_
  refine congrArg₂ (· + ·) ((mulf_apply _ _ _).trans (congrArg₂ (· * ·) ?_ (broadcastTo_1b_ab_apply bns _ b k)))
    (broadcastTo_1b_ab_apply bnt _ b k)
  refine (show _ = Net.lrelu _ from rfl).trans (congrArg Net.lrelu ?_)
  -- the first layer: the product over 512 lanes plus the bias row is the bias and the four 128-lane products
  refine (addf_apply _ _ _).trans ?_
  refine (congrArg₂ (· + ·) (DenseHead.mm512_apply v92 v94 b k) (broadcastTo_1b_ab_apply bf1 _ b k)).trans ?_
  exact DenseHead.dense1_eq v92 v94 bf1 Wf1 hf b k

/-- THE OUTPUT BLOCK of the sixteen-image program, at image `b` and logit `n`: the network on that image, given
    that the three host-made weight blocks are the regrouped `W1` and the flattened `Wf1`. -/
theorem ker_block (x0 : Vec Ideal S14x14x16x42 .f32) (w1a : Vec Ideal S256x512 .bf16) (w1b : Vec Ideal S128x512 .bf16)
    (x3 : Vec Ideal S1x256 .f32) (x4 : Vec Ideal S2304x256 .bf16) (x5 : Vec Ideal S1x128 .f32)
    (wf : Vec Ideal S512x128 .bf16) (x7 x8 x9 : Vec Ideal S1x128 .f32) (x10 : Vec Ideal S128x128 .bf16)
    (x11 : Vec Ideal S1x128 .f32) (W1 : Fin 378 → Fin 512 → EReal) (Wf1 : Fin 4 → Fin 128 → Fin 128 → EReal)
    (ha : ∀ (kd : Fin 2) (q : Fin 128) (n : Fin 512),
      w1a (ix2 ⟨kd.val * 128 + q.val, by have := kd.isLt; have := q.isLt; omega⟩ n)
        = if h : q.val < 126 then W1 ⟨kd.val * 126 + q.val, by have := kd.isLt; omega⟩ n else 0)
    (hb : ∀ (q : Fin 128) (n : Fin 512),
      w1b (ix2 q n) = if h : q.val < 126 then W1 ⟨252 + q.val, by omega⟩ n else 0)
    (hf : ∀ (r : Fin 4) (l n : Fin 128),
      wf (ix2 ⟨r.val * 128 + l.val, by have := r.isLt; have := l.isLt; omega⟩ n) = Wf1 r l n)
    (b : Fin 16) (n : Fin 128) :
    out0_12 x0 w1a w1b x3 x4 x5 wf x7 x8 x9 x10 x11 (ix2 b n)
      = Net.net (Net.imgK x0 b) W1 (Net.row x3) (Net.mat x4) (Net.row x5) Wf1 (Net.row x7) (Net.row x8) (Net.row x9)
          (Net.mat x10) (Net.row x11) n := by
  have hz : (![0, 0] : Fin 2 → Nat) = fun _ => 0 := funext fun a => by fin_cases a <;> rfl
  have hz4 : (![0, 0, 0, 0] : Fin 4 → Nat) = fun _ => 0 := funext fun a => by fin_cases a <;> rfl
  -- the one store covers the whole block, and every load reads a whole block
  unfold out0_12
  rw [View.canon_unit_zero (S := S16x128) hz]
  simp only [View.ld_unit_zero (S := S14x14x16x42) hz4, View.ld_unit_zero (S := S256x512) hz,
    View.ld_unit_zero (S := S128x512) hz, View.ld_unit_zero (S := S1x256) hz,
    View.ld_unit_zero (S := S2304x256) hz, View.ld_unit_zero (S := S1x128) hz,
    View.ld_unit_zero (S := S512x128) hz, View.ld_unit_zero (S := S128x128) hz]
  rw [pay6_eq, pay3_eq, pay4_eq]
  generalize hP2 : k0_pay2 x0 w1a w1b x3 = P2
  -- the dense head on image `b`'s four pooled rows
  rw [pay1_apply _ wf x7 x8 x9 x10 x11 Wf1 hf b n]
  unfold Net.net
  refine congrArg (fun P => Net.head P (Net.row x7) Wf1 (Net.row x8) (Net.row x9) (Net.mat x10) (Net.row x11) n) ?_
  funext p l
  -- the second stage on the rectified pooled rows of the first
  rw [pay5_apply]
  refine congrArg (fun P => Net.stage2 P (Net.mat x4) (Net.row x5) p l) ?_
  funext q j
  -- the first stage at pooled row `q = (q / 6)·6 + q % 6`
  refine (DenseHead.lrelu_at P2 _).trans ?_
  subst hP2
  rw [pay2_apply x0 w1a w1b x3 W1 ha hb]
  unfold Net.stage1 Net.act
  refine congrArg Net.lrelu (congrArg₂ (· + ·) ?_ rfl)
  refine congrArg (fun r => Net.q1 (Net.m1 (Net.c1 (Net.imgK x0 b) W1)) r j) (Fin.ext ?_)
  show q.val / 6 * 6 + q.val % 6 = q.val
  omega

end Cert.KerSide

end
-- ==== Proof.KerRun.lean ====
import proofs.«166258_g2000504528272344_pallasbulk_1029_2_alg».proof.Proof.Gen.KernelIdeal.Frame
import proofs.«166258_g2000504528272344_pallasbulk_1029_2_alg».proof.Proof.Spec
import proofs.«166258_g2000504528272344_pallasbulk_1029_2_alg».proof.Proof.KerHost
import proofs.«166258_g2000504528272344_pallasbulk_1029_2_alg».proof.Proof.KerG
import Idealize.ShloMosaic.Lib.Pipeline.Value
import Idealize.ShloMosaic.Lib.StableHlo.Run

/-!
# The sixteen-image program's run, read

Grid point `t` stages images `16·t … 16·t + 15` (the third axis of the transposed image array) and every weight
whole, and writes back rows `16·t … 16·t + 15` of a [1024, 128] array: row `16·t + b` is the network on image
`16·t + b`. The 64 blocks tile the array, so after the region it holds every image's padded logits; the one host
operation after the region keeps the first ten.
-/

set_option maxRecDepth 16384

noncomputable section

namespace Cert.KerSide

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem hz2 : (![0, 0] : Fin 2 → Nat) = fun _ => 0 := funext fun a => by fin_cases a <;> rfl

/-! ## The argument arrays -/

abbrev aB1 (c : Dev nD) : S1x256.Idx → EReal := m ((c : Thread nD τ).loc main_arg1)
abbrev aW2 (c : Dev nD) : S2304x256.Idx → EReal := m ((c : Thread nD τ).loc main_arg2)
abbrev aB2 (c : Dev nD) : S1x128.Idx → EReal := m ((c : Thread nD τ).loc main_arg3)
abbrev aBf1 (c : Dev nD) : S1x128.Idx → EReal := m ((c : Thread nD τ).loc main_arg5)
abbrev aBns (c : Dev nD) : S1x128.Idx → EReal := m ((c : Thread nD τ).loc main_arg6)
abbrev aBnt (c : Dev nD) : S1x128.Idx → EReal := m ((c : Thread nD τ).loc main_arg7)
abbrev aWf2 (c : Dev nD) : S128x128.Idx → EReal := m ((c : Thread nD τ).loc main_arg8)
abbrev aBf2 (c : Dev nD) : S1x128.Idx → EReal := m ((c : Thread nD τ).loc main_arg9)

/-- Every image's padded logits, as a [1024, 128] array. -/
def padded (c : Dev nD) : S1024x128.Idx → EReal := fun i =>
  Net.logits (aX m c) (aW1 m c) (aB1 m c) (aW2 m c) (aB2 m c) (aWf1 m c) (aBf1 m c) (aBns m c) (aBnt m c) (aWf2 m c)
    (aBf2 m c) ⟨(i 0).val, (i 0).isLt⟩ ⟨(i 1).val, (i 1).isLt⟩

/-! ## The windows' blocks -/

/-- The image window's block at point `t`: images `16·t … 16·t + 15`. -/
theorem iblk0_apply (c : Dev nD) (t : Fin cfg0.N) (d h : Fin 14) (b : Fin 16) (l : Fin 42) :
    (iblk m c 0 t : S14x14x16x42.Idx → EReal) (ix4 d h b l)
      = (V m c main_v1 : S14x14x1024x42.Idx → EReal)
          (ix4 d h ⟨16 * t.val + b.val, by have := lt_of_lt_of_eq t.isLt (show cfg0.N = 64 from N_0); omega⟩ l) := by
  have hi : win0_0.index t 0 = 0 ∧ win0_0.index t 1 = 0 ∧ win0_0.index t 2 = t.val ∧ win0_0.index t 3 = 0 :=
    (by decide +kernel : ∀ t : Fin grid0.N,
      win0_0.index t 0 = 0 ∧ win0_0.index t 1 = 0 ∧ win0_0.index t 2 = t.val ∧ win0_0.index t 3 = 0) t
  unfold iblk
  rw [View.read_apply]
  show V m c main_v1 _ = V m c main_v1 _
  congr 1
  funext a
  apply Fin.ext
  match a with
  | ⟨0, _⟩ => show win0_0.index t 0 * 14 + 1 * d.val = d.val; rw [hi.1]; omega
  | ⟨1, _⟩ => show win0_0.index t 1 * 14 + 1 * h.val = h.val; rw [hi.2.1]; omega
  | ⟨2, _⟩ => show win0_0.index t 2 * 16 + 1 * b.val = 16 * t.val + b.val; rw [hi.2.2.1]; omega
  | ⟨3, _⟩ => show win0_0.index t 3 * 42 + 1 * l.val = l.val; rw [hi.2.2.2]; omega

theorem iblk1_eq (c : Dev nD) (t : Fin cfg0.N) :
    (iblk m c 1 t : S256x512.Idx → EReal) = (V m c main_v5 : S256x512.Idx → EReal) := by
  have hi : win0_1.index t 0 = 0 ∧ win0_1.index t 1 = 0 :=
    (by decide +kernel : ∀ t : Fin grid0.N, win0_1.index t 0 = 0 ∧ win0_1.index t 1 = 0) t
  funext j
  unfold iblk
  rw [View.read_apply]
  show V m c main_v5 _ = V m c main_v5 _
  congr 1
  funext a
  apply Fin.ext
  match a with
  | ⟨0, _⟩ => show win0_1.index t 0 * 256 + 1 * (j 0).val = (j 0).val; rw [hi.1]; omega
  | ⟨1, _⟩ => show win0_1.index t 1 * 512 + 1 * (j 1).val = (j 1).val; rw [hi.2]; omega

theorem iblk2_eq (c : Dev nD) (t : Fin cfg0.N) :
    (iblk m c 2 t : S128x512.Idx → EReal) = (V m c main_v7 : S128x512.Idx → EReal) := by
  have hi : win0_2.index t 0 = 0 ∧ win0_2.index t 1 = 0 :=
    (by decide +kernel : ∀ t : Fin grid0.N, win0_2.index t 0 = 0 ∧ win0_2.index t 1 = 0) t
  funext j
  unfold iblk
  rw [View.read_apply]
  show V m c main_v7 _ = V m c main_v7 _
  congr 1
  funext a
  apply Fin.ext
  match a with
  | ⟨0, _⟩ => show win0_2.index t 0 * 128 + 1 * (j 0).val = (j 0).val; rw [hi.1]; omega
  | ⟨1, _⟩ => show win0_2.index t 1 * 512 + 1 * (j 1).val = (j 1).val; rw [hi.2]; omega

theorem iblk3_eq (c : Dev nD) (t : Fin cfg0.N) :
    (iblk m c 3 t : S1x256.Idx → EReal) = (V m c main_arg1 : S1x256.Idx → EReal) := by
  have hi : win0_3.index t 0 = 0 ∧ win0_3.index t 1 = 0 :=
    (by decide +kernel : ∀ t : Fin grid0.N, win0_3.index t 0 = 0 ∧ win0_3.index t 1 = 0) t
  funext j
  unfold iblk
  rw [View.read_apply]
  show V m c main_arg1 _ = V m c main_arg1 _
  congr 1
  funext a
  apply Fin.ext
  match a with
  | ⟨0, _⟩ => show win0_3.index t 0 * 1 + 1 * (j 0).val = (j 0).val; rw [hi.1]; omega
  | ⟨1, _⟩ => show win0_3.index t 1 * 256 + 1 * (j 1).val = (j 1).val; rw [hi.2]; omega

theorem iblk4_eq (c : Dev nD) (t : Fin cfg0.N) :
    (iblk m c 4 t : S2304x256.Idx → EReal) = (V m c main_arg2 : S2304x256.Idx → EReal) := by
  have hi : win0_4.index t 0 = 0 ∧ win0_4.index t 1 = 0 :=
    (by decide +kernel : ∀ t : Fin grid0.N, win0_4.index t 0 = 0 ∧ win0_4.index t 1 = 0) t
  funext j
  unfold iblk
  rw [View.read_apply]
  show V m c main_arg2 _ = V m c main_arg2 _
  congr 1
  funext a
  apply Fin.ext
  match a with
  | ⟨0, _⟩ => show win0_4.index t 0 * 2304 + 1 * (j 0).val = (j 0).val; rw [hi.1]; omega
  | ⟨1, _⟩ => show win0_4.index t 1 * 256 + 1 * (j 1).val = (j 1).val; rw [hi.2]; omega

theorem iblk5_eq (c : Dev nD) (t : Fin cfg0.N) :
    (iblk m c 5 t : S1x128.Idx → EReal) = (V m c main_arg3 : S1x128.Idx → EReal) := by
  have hi : win0_5.index t 0 = 0 ∧ win0_5.index t 1 = 0 :=
    (by decide +kernel : ∀ t : Fin grid0.N, win0_5.index t 0 = 0 ∧ win0_5.index t 1 = 0) t
  funext j
  unfold iblk
  rw [View.read_apply]
  show V m c main_arg3 _ = V m c main_arg3 _
  congr 1
  funext a
  apply Fin.ext
  match a with
  | ⟨0, _⟩ => show win0_5.index t 0 * 1 + 1 * (j 0).val = (j 0).val; rw [hi.1]; omega
  | ⟨1, _⟩ => show win0_5.index t 1 * 128 + 1 * (j 1).val = (j 1).val; rw [hi.2]; omega

theorem iblk6_eq (c : Dev nD) (t : Fin cfg0.N) :
    (iblk m c 6 t : S512x128.Idx → EReal) = (V m c main_v8 : S512x128.Idx → EReal) := by
  have hi : win0_6.index t 0 = 0 ∧ win0_6.index t 1 = 0 :=
    (by decide +kernel : ∀ t : Fin grid0.N, win0_6.index t 0 = 0 ∧ win0_6.index t 1 = 0) t
  funext j
  unfold iblk
  rw [View.read_apply]
  show V m c main_v8 _ = V m c main_v8 _
  congr 1
  funext a
  apply Fin.ext
  match a with
  | ⟨0, _⟩ => show win0_6.index t 0 * 512 + 1 * (j 0).val = (j 0).val; rw [hi.1]; omega
  | ⟨1, _⟩ => show win0_6.index t 1 * 128 + 1 * (j 1).val = (j 1).val; rw [hi.2]; omega

theorem iblk7_eq (c : Dev nD) (t : Fin cfg0.N) :
    (iblk m c 7 t : S1x128.Idx → EReal) = (V m c main_arg5 : S1x128.Idx → EReal) := by
  have hi : win0_7.index t 0 = 0 ∧ win0_7.index t 1 = 0 :=
    (by decide +kernel : ∀ t : Fin grid0.N, win0_7.index t 0 = 0 ∧ win0_7.index t 1 = 0) t
  funext j
  unfold iblk
  rw [View.read_apply]
  show V m c main_arg5 _ = V m c main_arg5 _
  congr 1
  funext a
  apply Fin.ext
  match a with
  | ⟨0, _⟩ => show win0_7.index t 0 * 1 + 1 * (j 0).val = (j 0).val; rw [hi.1]; omega
  | ⟨1, _⟩ => show win0_7.index t 1 * 128 + 1 * (j 1).val = (j 1).val; rw [hi.2]; omega

theorem iblk8_eq (c : Dev nD) (t : Fin cfg0.N) :
    (iblk m c 8 t : S1x128.Idx → EReal) = (V m c main_arg6 : S1x128.Idx → EReal) := by
  have hi : win0_8.index t 0 = 0 ∧ win0_8.index t 1 = 0 :=
    (by decide +kernel : ∀ t : Fin grid0.N, win0_8.index t 0 = 0 ∧ win0_8.index t 1 = 0) t
  funext j
  unfold iblk
  rw [View.read_apply]
  show V m c main_arg6 _ = V m c main_arg6 _
  congr 1
  funext a
  apply Fin.ext
  match a with
  | ⟨0, _⟩ => show win0_8.index t 0 * 1 + 1 * (j 0).val = (j 0).val; rw [hi.1]; omega
  | ⟨1, _⟩ => show win0_8.index t 1 * 128 + 1 * (j 1).val = (j 1).val; rw [hi.2]; omega

theorem iblk9_eq (c : Dev nD) (t : Fin cfg0.N) :
    (iblk m c 9 t : S1x128.Idx → EReal) = (V m c main_arg7 : S1x128.Idx → EReal) := by
  have hi : win0_9.index t 0 = 0 ∧ win0_9.index t 1 = 0 :=
    (by decide +kernel : ∀ t : Fin grid0.N, win0_9.index t 0 = 0 ∧ win0_9.index t 1 = 0) t
  funext j
  unfold iblk
  rw [View.read_apply]
  show V m c main_arg7 _ = V m c main_arg7 _
  congr 1
  funext a
  apply Fin.ext
  match a with
  | ⟨0, _⟩ => show win0_9.index t 0 * 1 + 1 * (j 0).val = (j 0).val; rw [hi.1]; omega
  | ⟨1, _⟩ => show win0_9.index t 1 * 128 + 1 * (j 1).val = (j 1).val; rw [hi.2]; omega

theorem iblk10_eq (c : Dev nD) (t : Fin cfg0.N) :
    (iblk m c 10 t : S128x128.Idx → EReal) = (V m c main_arg8 : S128x128.Idx → EReal) := by
  have hi : win0_10.index t 0 = 0 ∧ win0_10.index t 1 = 0 :=
    (by decide +kernel : ∀ t : Fin grid0.N, win0_10.index t 0 = 0 ∧ win0_10.index t 1 = 0) t
  funext j
  unfold iblk
  rw [View.read_apply]
  show V m c main_arg8 _ = V m c main_arg8 _
  congr 1
  funext a
  apply Fin.ext
  match a with
  | ⟨0, _⟩ => show win0_10.index t 0 * 128 + 1 * (j 0).val = (j 0).val; rw [hi.1]; omega
  | ⟨1, _⟩ => show win0_10.index t 1 * 128 + 1 * (j 1).val = (j 1).val; rw [hi.2]; omega

theorem iblk11_eq (c : Dev nD) (t : Fin cfg0.N) :
    (iblk m c 11 t : S1x128.Idx → EReal) = (V m c main_arg9 : S1x128.Idx → EReal) := by
  have hi : win0_11.index t 0 = 0 ∧ win0_11.index t 1 = 0 :=
    (by decide +kernel : ∀ t : Fin grid0.N, win0_11.index t 0 = 0 ∧ win0_11.index t 1 = 0) t
  funext j
  unfold iblk
  rw [View.read_apply]
  show V m c main_arg9 _ = V m c main_arg9 _
  congr 1
  funext a
  apply Fin.ext
  match a with
  | ⟨0, _⟩ => show win0_11.index t 0 * 1 + 1 * (j 0).val = (j 0).val; rw [hi.1]; omega
  | ⟨1, _⟩ => show win0_11.index t 1 * 128 + 1 * (j 1).val = (j 1).val; rw [hi.2]; omega

/-! ## What a point writes back -/

/-- Point `t` writes back rows `16·t … 16·t + 15` of the padded logits. -/
theorem flushed_eq (c : Dev nD) (t : Fin cfg0.N) :
    (dats m 0 c).flushed 12 t = ((cfg0.win 12).blk t).view.read (Elt Ideal) (padded m c) := by
  have hi : win0_12.index t 0 = t.val ∧ win0_12.index t 1 = 0 :=
    (by decide +kernel : ∀ t : Fin grid0.N, win0_12.index t 0 = t.val ∧ win0_12.index t 1 = 0) t
  have ht : t.val < 64 := lt_of_lt_of_eq t.isLt (show cfg0.N = 64 from N_0)
  show (cfg0.win 12).cut (grid0.coords t) ((dats m 0 c).after 12 t) = _
  rw [after0_12]
  funext j
  obtain ⟨b, n, rfl⟩ : ∃ (b : Fin 16) (n : Fin 128), j = ix2 b n := ⟨j 0, j 1, eq_ix2 j⟩
  show out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 b n)
    = padded m c (((cfg0.win 12).blk t).view.emb (ix2 b n))
  have e : ((cfg0.win 12).blk t).view.emb (ix2 b n)
      = (ix2 (⟨16 * t.val + b.val, by omega⟩ : Fin 1024) n : S1024x128.Idx) := by
    funext a
    apply Fin.ext
    match a with
    | ⟨0, _⟩ => show win0_12.index t 0 * 16 + 1 * b.val = 16 * t.val + b.val; rw [hi.1]; omega
    | ⟨1, _⟩ => show win0_12.index t 1 * 128 + 1 * n.val = n.val; rw [hi.2]; omega
  rw [e]
  refine (ker_block (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)
    (Net.mat (aW1 m c)) (Net.ten3 (aWf1 m c)) ?_ ?_ ?_ b n).trans ?_
  · intro kd q k
    rw [iblk1_eq]
    exact V_v5_apply m c kd q k
  · intro q k
    rw [iblk2_eq]
    exact V_v7_apply m c q k
  · intro r l k
    rw [iblk6_eq]
    exact V_v8_apply m c r l k
  · rw [iblk3_eq, iblk4_eq, iblk5_eq, iblk7_eq, iblk8_eq, iblk9_eq, iblk10_eq, iblk11_eq, V_main_arg1, V_main_arg2,
      V_main_arg3, V_main_arg5, V_main_arg6, V_main_arg7, V_main_arg8, V_main_arg9]
    show _ = Net.logits _ _ _ _ _ _ _ _ _ _ _ _ _
    unfold Net.logits
    congr 1
    funext d h l
    show (iblk m c 0 t : S14x14x16x42.Idx → EReal) (ix4 d h b l) = _
    rw [iblk0_apply, V_v1_apply]

/-! ## The array after the region, and the result -/

/-- Every row lies in the block of the point that holds its sixteen. -/
theorem cover (c : Dev nD) (i : ((cfg0.win 12).arr.view.loc (c.tc : Thread nD τ)).2.ty.Idx) :
    ∃ t : Fin cfg0.N, (cfg0.win 12).flush t = true ∧ i ∈ ((cfg0.win 12).blk t).view.set := by
  have h0 : (i 0).val < 1024 := (i 0).isLt
  have h1 : (i 1).val < 128 := (i 1).isLt
  have hN : cfg0.N = 64 := N_0
  have hi : ∀ t : Fin cfg0.N, win0_12.index t 0 = t.val ∧ win0_12.index t 1 = 0 :=
    (by decide +kernel : ∀ t : Fin grid0.N, win0_12.index t 0 = t.val ∧ win0_12.index t 1 = 0)
  let t : Fin cfg0.N := ⟨(i 0).val / 16, by rw [hN]; omega⟩
  refine ⟨t, flush0_12 t, ?_⟩
  show i ∈ ((View.whole main_v9).slice (win0_12.rect t)).set
  rw [View.set_slice_whole, Rect.mem_set_unit]
  intro a
  match a with
  | ⟨0, _⟩ =>
    show win0_12.index t 0 * 16 ≤ (i 0).val ∧ (i 0).val < win0_12.index t 0 * 16 + 16
    rw [(hi t).1]
    show (i 0).val / 16 * 16 ≤ (i 0).val ∧ (i 0).val < (i 0).val / 16 * 16 + 16
    omega
  | ⟨1, _⟩ =>
    show win0_12.index t 1 * 128 ≤ (i 1).val ∧ (i 1).val < win0_12.index t 1 * 128 + 128
    rw [(hi t).2]
    omega

/-- The 64 blocks tile the array: after the region it holds every image's padded logits. -/
theorem final (c : Dev nD) : (dats m 0 c).arrAt 12 cfg0.N = padded m c :=
  (dats m 0 c).arrAt_eq_of_cover 12 (padded m c) (fun t _ => flushed_eq m c t) (cover c)

/-- The program's result after the one host operation that follows the region: the first ten logits of every image. -/
theorem tail_eq (c : Dev nD) :
    (Pipeline.afterTail₀ cfgs (dats m) 0 (V0 m) [hostOps1] c main_v10 : S1024x10.Idx → EReal)
      = Net.result (aX m c) (aW1 m c) (aB1 m c) (aW2 m c) (aB2 m c) (aWf1 m c) (aBf1 m c) (aBns m c) (aBnt m c)
          (aWf2 m c) (aBf2 m c) := by
  unfold Pipeline.afterTail₀
  show StableHlo.after hostOps1 _ (Proc.devRef .tc main_v10) = _
  after_results
  have hw := (Pipeline.withArrays_arr spec0 launch0.win.arr_inj c (V0 m c)
    (fun w => (dats m 0 c).arrAt w cfg0.N) 12).trans (final m c)
  funext i
  obtain ⟨B, n, rfl⟩ : ∃ (B : Fin 1024) (n : Fin 10), i = ix2 B n := ⟨i 0, i 1, eq_ix2 i⟩
  refine (extractStridedSlice_apply _ _ _ (ix2 B n) (ix2 B (⟨n.val, by omega⟩ : Fin 128)) fun a => ?_).trans ?_
  · match a with
    | ⟨0, _⟩ => show B.val = 0 + B.val; omega
    | ⟨1, _⟩ => show n.val = 0 + n.val; omega
  · exact congrFun hw _

/-! ## The run -/

/-- Every weakly fair execution ends with the result array at the first ten logits of every image and the
    arguments as launched. -/
theorem run : θ_run defs (onTc (τ := τ) (main (F := Ideal))) ⟨m, fun _ => 0, ρ⟩ fun r => ∀ c : Dev nD,
      r.2.mem ((c.tc : Thread nD τ).loc main_v10)
        = Net.result (aX m c) (aW1 m c) (aB1 m c) (aW2 m c) (aB2 m c) (aWf1 m c) (aBf1 m c) (aBns m c) (aBnt m c)
            (aWf2 m c) (aBf2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).2 main_v10 (Pipeline.mem_restRefs_of main_v10 (by decide) (by decide))).trans (tail_eq m c),
     ((h c).2 main_arg0 (Pipeline.mem_restRefs_of main_arg0 (by decide) (by decide))).trans (W_main_arg0 m (dats m) c),
     ((h c).1 3).trans (((dats m 0 c).arrAt_in 3 rfl _).trans ((A_eq m c 3).trans (V_main_arg1 m c))),
     ((h c).1 4).trans (((dats m 0 c).arrAt_in 4 rfl _).trans ((A_eq m c 4).trans (V_main_arg2 m c))),
     ((h c).1 5).trans (((dats m 0 c).arrAt_in 5 rfl _).trans ((A_eq m c 5).trans (V_main_arg3 m c))),
     ((h c).2 main_arg4 (Pipeline.mem_restRefs_of main_arg4 (by decide) (by decide))).trans (W_main_arg4 m (dats m) c),
     ((h c).1 7).trans (((dats m 0 c).arrAt_in 7 rfl _).trans ((A_eq m c 7).trans (V_main_arg5 m c))),
     ((h c).1 8).trans (((dats m 0 c).arrAt_in 8 rfl _).trans ((A_eq m c 8).trans (V_main_arg6 m c))),
     ((h c).1 9).trans (((dats m 0 c).arrAt_in 9 rfl _).trans ((A_eq m c 9).trans (V_main_arg7 m c))),
     ((h c).1 10).trans (((dats m 0 c).arrAt_in 10 rfl _).trans ((A_eq m c 10).trans (V_main_arg8 m c))),
     ((h c).1 11).trans (((dats m 0 c).arrAt_in 11 rfl _).trans ((A_eq m c 11).trans (V_main_arg9 m c))),
     ((h c).2 main_arg10 (Pipeline.mem_restRefs_of main_arg10 (by decide) (by decide))).trans (W_main_arg10 m (dats m) c)⟩)
    (run_main m ρ)

end Cert.KerSide

end
-- ==== Proof.RefTerms.lean ====
import proofs.«166258_g2000504528272344_pallasbulk_1029_2_alg».proof.Proof.Gen.ReferenceIdeal.Frame
import Idealize.ShloMosaic.PureOps.Ideal

/-!
# Names for the stages of the one-image program's output block

The one-image program's output block is a tree over a few large shared values: the first convolution after its
width pooling (144 rows, one per output depth and height), the depth-pooled first twelve rows and the first rows
pooled from them, and the 36 pooled rows. Each is named here as a function of the image block and the first
weight, and the output block is restated over the names.
-/

noncomputable section

namespace Cert.RefSide

open Idealize.ShloMosaic Cert.ReferenceIdeal Cert.ReferenceIdeal.Gen

variable (x0 : Vec Ideal S1x14x14x42 .f32) (x1 : Vec Ideal S378x512 .bf16)

/-- The first convolution after pooling over width: row `od·12 + oh`, 256 lanes. -/
def V117 : FVec Ideal S144x256 .f32 := k0_pay16 (k0_pay2 (View.ld x0 r0_0) (View.ld x0 r0_1) (View.ld x0 r0_2)) (k0_pay3 (View.ld x0 r0_3) (View.ld x0 r0_4) (View.ld x0 r0_5)) (k0_pay4 (View.ld x0 r0_6) (View.ld x0 r0_7) (View.ld x0 r0_8)) (k0_pay5 (View.ld x0 r0_9) (View.ld x0 r0_10) (View.ld x0 r0_11)) (k0_pay6 (View.ld x0 r0_12) (View.ld x0 r0_13) (View.ld x0 r0_14)) (k0_pay7 (View.ld x0 r0_15) (View.ld x0 r0_16) (View.ld x0 r0_17)) (k0_pay8 (View.ld x0 r0_18) (View.ld x0 r0_19) (View.ld x0 r0_20)) (k0_pay9 (View.ld x0 r0_21) (View.ld x0 r0_22) (View.ld x0 r0_23)) (k0_pay10 (View.ld x0 r0_24) (View.ld x0 r0_25) (View.ld x0 r0_26)) (k0_pay12 (k0_pay11 (View.ld x0 r0_27)) (View.ld x0 r0_28) (View.ld x0 r0_29)) (k0_pay13 (View.ld x0 r0_30) (View.ld x0 r0_31) (View.ld x0 r0_32)) (k0_pay14 (View.ld x0 r0_33) (View.ld x0 r0_34) (View.ld x0 r0_35)) (k0_pay15 (View.ld x0 r0_36)) (View.ld x0 r0_37) (View.ld x0 r0_38) (View.ld x0 r0_39) (View.ld x0 r0_40) (View.ld x0 r0_41) (View.ld x1 r0_43)

/-- Rows 0–11 against rows 12–23 of it: the depth pooling of the first pair of depths. -/
def V120 : FVec Ideal S12x256 .f32 := k0_pay17 (k0_pay2 (View.ld x0 r0_0) (View.ld x0 r0_1) (View.ld x0 r0_2)) (k0_pay3 (View.ld x0 r0_3) (View.ld x0 r0_4) (View.ld x0 r0_5)) (k0_pay4 (View.ld x0 r0_6) (View.ld x0 r0_7) (View.ld x0 r0_8)) (k0_pay5 (View.ld x0 r0_9) (View.ld x0 r0_10) (View.ld x0 r0_11)) (k0_pay6 (View.ld x0 r0_12) (View.ld x0 r0_13) (View.ld x0 r0_14)) (k0_pay7 (View.ld x0 r0_15) (View.ld x0 r0_16) (View.ld x0 r0_17)) (k0_pay8 (View.ld x0 r0_18) (View.ld x0 r0_19) (View.ld x0 r0_20)) (k0_pay9 (View.ld x0 r0_21) (View.ld x0 r0_22) (View.ld x0 r0_23)) (k0_pay10 (View.ld x0 r0_24) (View.ld x0 r0_25) (View.ld x0 r0_26)) (k0_pay12 (k0_pay11 (View.ld x0 r0_27)) (View.ld x0 r0_28) (View.ld x0 r0_29)) (k0_pay13 (View.ld x0 r0_30) (View.ld x0 r0_31) (View.ld x0 r0_32)) (k0_pay14 (View.ld x0 r0_33) (View.ld x0 r0_34) (View.ld x0 r0_35)) (k0_pay15 (View.ld x0 r0_36)) (View.ld x0 r0_37) (View.ld x0 r0_38) (View.ld x0 r0_39) (View.ld x0 r0_40) (View.ld x0 r0_41) (View.ld x1 r0_43)

/-- Rows 0 and 1 of that, pooled: pooled row 0. -/
def V123 : FVec Ideal S1x256 .f32 := k0_pay18 (k0_pay2 (View.ld x0 r0_0) (View.ld x0 r0_1) (View.ld x0 r0_2)) (k0_pay3 (View.ld x0 r0_3) (View.ld x0 r0_4) (View.ld x0 r0_5)) (k0_pay4 (View.ld x0 r0_6) (View.ld x0 r0_7) (View.ld x0 r0_8)) (k0_pay5 (View.ld x0 r0_9) (View.ld x0 r0_10) (View.ld x0 r0_11)) (k0_pay6 (View.ld x0 r0_12) (View.ld x0 r0_13) (View.ld x0 r0_14)) (k0_pay7 (View.ld x0 r0_15) (View.ld x0 r0_16) (View.ld x0 r0_17)) (k0_pay8 (View.ld x0 r0_18) (View.ld x0 r0_19) (View.ld x0 r0_20)) (k0_pay9 (View.ld x0 r0_21) (View.ld x0 r0_22) (View.ld x0 r0_23)) (k0_pay10 (View.ld x0 r0_24) (View.ld x0 r0_25) (View.ld x0 r0_26)) (k0_pay12 (k0_pay11 (View.ld x0 r0_27)) (View.ld x0 r0_28) (View.ld x0 r0_29)) (k0_pay13 (View.ld x0 r0_30) (View.ld x0 r0_31) (View.ld x0 r0_32)) (k0_pay14 (View.ld x0 r0_33) (View.ld x0 r0_34) (View.ld x0 r0_35)) (k0_pay15 (View.ld x0 r0_36)) (View.ld x0 r0_37) (View.ld x0 r0_38) (View.ld x0 r0_39) (View.ld x0 r0_40) (View.ld x0 r0_41) (View.ld x1 r0_43)

/-- Row 2 of the depth-pooled first pair. -/
def V124 : FVec Ideal S1x256 .f32 := k0_pay19 (k0_pay2 (View.ld x0 r0_0) (View.ld x0 r0_1) (View.ld x0 r0_2)) (k0_pay3 (View.ld x0 r0_3) (View.ld x0 r0_4) (View.ld x0 r0_5)) (k0_pay4 (View.ld x0 r0_6) (View.ld x0 r0_7) (View.ld x0 r0_8)) (k0_pay5 (View.ld x0 r0_9) (View.ld x0 r0_10) (View.ld x0 r0_11)) (k0_pay6 (View.ld x0 r0_12) (View.ld x0 r0_13) (View.ld x0 r0_14)) (k0_pay7 (View.ld x0 r0_15) (View.ld x0 r0_16) (View.ld x0 r0_17)) (k0_pay8 (View.ld x0 r0_18) (View.ld x0 r0_19) (View.ld x0 r0_20)) (k0_pay9 (View.ld x0 r0_21) (View.ld x0 r0_22) (View.ld x0 r0_23)) (k0_pay10 (View.ld x0 r0_24) (View.ld x0 r0_25) (View.ld x0 r0_26)) (k0_pay12 (k0_pay11 (View.ld x0 r0_27)) (View.ld x0 r0_28) (View.ld x0 r0_29)) (k0_pay13 (View.ld x0 r0_30) (View.ld x0 r0_31) (View.ld x0 r0_32)) (k0_pay14 (View.ld x0 r0_33) (View.ld x0 r0_34) (View.ld x0 r0_35)) (k0_pay15 (View.ld x0 r0_36)) (View.ld x0 r0_37) (View.ld x0 r0_38) (View.ld x0 r0_39) (View.ld x0 r0_40) (View.ld x0 r0_41) (View.ld x1 r0_43)

/-- Row 3 of the depth-pooled first pair. -/
def V125 : FVec Ideal S1x256 .f32 := k0_pay20 (k0_pay2 (View.ld x0 r0_0) (View.ld x0 r0_1) (View.ld x0 r0_2)) (k0_pay3 (View.ld x0 r0_3) (View.ld x0 r0_4) (View.ld x0 r0_5)) (k0_pay4 (View.ld x0 r0_6) (View.ld x0 r0_7) (View.ld x0 r0_8)) (k0_pay5 (View.ld x0 r0_9) (View.ld x0 r0_10) (View.ld x0 r0_11)) (k0_pay6 (View.ld x0 r0_12) (View.ld x0 r0_13) (View.ld x0 r0_14)) (k0_pay7 (View.ld x0 r0_15) (View.ld x0 r0_16) (View.ld x0 r0_17)) (k0_pay8 (View.ld x0 r0_18) (View.ld x0 r0_19) (View.ld x0 r0_20)) (k0_pay9 (View.ld x0 r0_21) (View.ld x0 r0_22) (View.ld x0 r0_23)) (k0_pay10 (View.ld x0 r0_24) (View.ld x0 r0_25) (View.ld x0 r0_26)) (k0_pay12 (k0_pay11 (View.ld x0 r0_27)) (View.ld x0 r0_28) (View.ld x0 r0_29)) (k0_pay13 (View.ld x0 r0_30) (View.ld x0 r0_31) (View.ld x0 r0_32)) (k0_pay14 (View.ld x0 r0_33) (View.ld x0 r0_34) (View.ld x0 r0_35)) (k0_pay15 (View.ld x0 r0_36)) (View.ld x0 r0_37) (View.ld x0 r0_38) (View.ld x0 r0_39) (View.ld x0 r0_40) (View.ld x0 r0_41) (View.ld x1 r0_43)

/-- The 36 pooled rows, before the bias. -/
def V244 : FVec Ideal S36x256 .f32 := k0_pay43 (V117 x0 x1) (V123 x0 x1) (k0_pay21 (V124 x0 x1) (V125 x0 x1)) (k0_pay22 (V120 x0 x1)) (k0_pay23 (V120 x0 x1)) (k0_pay24 (V120 x0 x1)) (k0_pay25 (V120 x0 x1)) (k0_pay27 (V117 x0 x1)) (k0_pay28 (V117 x0 x1)) (k0_pay29 (V117 x0 x1)) (k0_pay30 (V117 x0 x1)) (k0_pay31 (V117 x0 x1)) (k0_pay32 (V117 x0 x1)) (k0_pay34 (V117 x0 x1)) (k0_pay35 (V117 x0 x1)) (k0_pay36 (V117 x0 x1)) (k0_pay37 (V117 x0 x1)) (k0_pay38 (V117 x0 x1)) (k0_pay39 (V117 x0 x1)) (k0_pay40 (V117 x0 x1)) (k0_pay41 (V117 x0 x1)) (k0_pay42 (V117 x0 x1))

/-- The output block over the named stages. -/
theorem out0_11_eq (x2 : Vec Ideal S1x256 .f32) (x3 : Vec Ideal S2304x256 .bf16) (x4 : Vec Ideal S1x128 .f32)
    (x5 : Vec Ideal S4x128x128 .bf16) (x6 x7 x8 : Vec Ideal S1x128 .f32) (x9 : Vec Ideal S128x128 .bf16)
    (x10 : Vec Ideal S1x128 .f32) :
    out0_11 x0 x1 x2 x3 x4 x5 x6 x7 x8 x9 x10 =
      View.canon [⟨r0_51, k0_pay1 (k0_pay48 (View.ld x4 r0_44) (k0_pay46 (V244 x0 x1) (k0_pay44 (View.ld x2 r0_42)) (View.ld x3 r0_45)) (k0_pay47 (V244 x0 x1) (k0_pay44 (View.ld x2 r0_42)) (View.ld x3 r0_45))) (k0_pay49 (View.ld x4 r0_44) (k0_pay46 (V244 x0 x1) (k0_pay44 (View.ld x2 r0_42)) (View.ld x3 r0_45)) (k0_pay47 (V244 x0 x1) (k0_pay44 (View.ld x2 r0_42)) (View.ld x3 r0_45)) (View.ld x6 r0_44) (View.ld x5 r0_46) (View.ld x5 r0_47)) (k0_pay50 (View.ld x4 r0_44) (k0_pay46 (V244 x0 x1) (k0_pay44 (View.ld x2 r0_42)) (View.ld x3 r0_45)) (k0_pay47 (V244 x0 x1) (k0_pay44 (View.ld x2 r0_42)) (View.ld x3 r0_45))) (k0_pay51 (View.ld x5 r0_48)) (constant S1x128 .f32 0x00000000#32) (View.ld x5 r0_49) (View.ld x7 r0_44) (View.ld x8 r0_44) (View.ld x9 r0_50) (View.ld x10 r0_44)⟩] := rfl

end Cert.RefSide

end
-- ==== Proof.RefA.lean ====
import proofs.«166258_g2000504528272344_pallasbulk_1029_2_alg».proof.Proof.RefTerms
import proofs.«166258_g2000504528272344_pallasbulk_1029_2_alg».proof.Proof.Spec
import proofs.«166258_g2000504528272344_pallasbulk_1029_2_alg».proof.Proof.LibPlainDot
import Idealize.ShloMosaic.Lib.Pipeline.Value
import Idealize.ShloMosaic.Lib.ValueLayout

/-!
# The one-image program's first convolution, read at an entry

The left operand is laid out from 42 loads of the image block: plane `d` joins, along the lanes, rows `kh ≤ oh < kh + 12`
of depth `d` for `kh = 0, 1, 2`; row block `od` joins planes `od, od + 1, od + 2`; the twelve row blocks are stacked.
So row `od·12 + oh`, column `kd·126 + kh·42 + l` holds the image at `(od + kd, oh + kh, l)`.
-/

noncomputable section

open scoped BigOperators

namespace Cert.RefSide

open Idealize.ShloMosaic Idealize.ShloMosaic.ValueIdx Cert.ReferenceIdeal Cert.ReferenceIdeal.Gen

variable (x0 : Vec Ideal S1x14x14x42 .f32) (x1 : Vec Ideal S378x512 .bf16)

/-- Dropping the two unit axes of a [1, 1, 12, 42] window. -/
private theorem cast_apply (a : Vec Ideal S1x1x12x42 .f32) (h : S1x1x12x42.ShapeCasts S12x42) (oh : Fin 12) (l : Fin 42) :
    shapeCast S12x42 a h (ix2 oh l) = a (ix4 0 0 oh l) := by
  refine shapeCast_apply a h (ix2 oh l) (ix4 0 0 oh l) ?_
  rw [Shape.rowMajor_val_four, Shape.rowMajor_val_two]
  show ((0 * 1 + 0) * 12 + oh.val) * 42 + l.val = oh.val * 42 + l.val
  omega

/-- A plane: the lane-join of three windows; lane `q` reads window `q / 42` at lane `q % 42`. -/
private theorem pay2_apply (a b c : Vec Ideal S1x1x12x42 .f32) (oh : Fin 12) (q : Fin 126) :
    k0_pay2 a b c (ix2 oh q)
      = (![a, b, c] : Fin 3 → Vec Ideal S1x1x12x42 .f32) ⟨q.val / 42, by omega⟩ (ix4 0 0 oh ⟨q.val % 42, by omega⟩) := by
  unfold k0_pay2
  show concatenate S12x126 1 (List.ofFn fun n : Fin 3 => (⟨S12x42, shapeCast S12x42 ((![a, b, c] : Fin 3 → Vec Ideal S1x1x12x42 .f32) n) shapeCasts_S1x1x12x42_S12x42⟩ : (s : Shape) × (s.Idx → EReal))) concatenates_S12x42_S12x42_S12x42_S12x126_d1 (ix2 oh q) = _
  refine (concatenate_ofFn_apply (t := S12x126) (s₁ := S12x42) 1 (fun n : Fin 3 => shapeCast S12x42 ((![a, b, c] : Fin 3 → Vec Ideal S1x1x12x42 .f32) n) shapeCasts_S1x1x12x42_S12x42) _ rfl 42 rfl (ix2 oh q) ⟨q.val / 42, by omega⟩ rfl (ix2 oh ⟨q.val % 42, by omega⟩) rfl ?_).trans ?_
  · intro b hb
    match b with
    | ⟨0, _⟩ => rfl
    | ⟨1, _⟩ => exact absurd rfl hb
  · exact cast_apply _ _ oh _

/-- Picking from a three-entry table listed entry by entry. -/
private theorem vec3_eq {α : Type} (f : Fin 3 → α) (n : Fin 3) : (![f 0, f 1, f 2] : Fin 3 → α) n = f n := by
  fin_cases n <;> rfl

/-- Three planes joined along the lanes: lane `k` reads plane `k / 126` at lane `k % 126`. -/
private theorem join3_apply (p0 p1 p2 : FVec Ideal S12x126 .f32) (oh : Fin 12) (k : Fin 378) :
    concatenate S12x378 1 [⟨S12x126, p0⟩, ⟨S12x126, p1⟩, ⟨S12x126, p2⟩] concatenates_S12x126_S12x126_S12x126_S12x378_d1 (ix2 oh k)
      = (![p0, p1, p2] : Fin 3 → FVec Ideal S12x126 .f32) ⟨k.val / 126, by omega⟩ (ix2 oh ⟨k.val % 126, by omega⟩) := by
  show concatenate S12x378 1 (List.ofFn fun n : Fin 3 => (⟨S12x126, (![p0, p1, p2] : Fin 3 → FVec Ideal S12x126 .f32) n⟩ : (s : Shape) × (s.Idx → EReal))) concatenates_S12x126_S12x126_S12x126_S12x378_d1 (ix2 oh k) = _
  refine concatenate_ofFn_apply (t := S12x378) (s₁ := S12x126) 1 (![p0, p1, p2] : Fin 3 → FVec Ideal S12x126 .f32) _ rfl 126 rfl (ix2 oh k) ⟨k.val / 126, by omega⟩ rfl (ix2 oh ⟨k.val % 126, by omega⟩) rfl ?_
  intro b hb
  match b with
  | ⟨0, _⟩ => rfl
  | ⟨1, _⟩ => exact absurd rfl hb

/-- Row block `od` of the left operand: planes `od`, `od + 1`, `od + 2` joined along the lanes. -/
private abbrev blk (p : Fin 14 → FVec Ideal S12x126 .f32) (od : Fin 12) : FVec Ideal S12x378 .f32 :=
  concatenate S12x378 1 [⟨S12x126, p ⟨od.val, by omega⟩⟩, ⟨S12x126, p ⟨od.val + 1, by omega⟩⟩, ⟨S12x126, p ⟨od.val + 2, by omega⟩⟩]
    concatenates_S12x126_S12x126_S12x126_S12x378_d1

private theorem blk_apply (p : Fin 14 → FVec Ideal S12x126 .f32) (od oh : Fin 12) (k : Fin 378) :
    blk p od (ix2 oh k) = p ⟨od.val + k.val / 126, by omega⟩ (ix2 oh ⟨k.val % 126, by omega⟩) := by
  refine (join3_apply _ _ _ oh k).trans ?_
  have h := vec3_eq (fun kd : Fin 3 => p ⟨od.val + kd.val, by omega⟩) ⟨k.val / 126, by omega⟩
  exact congrFun h _

/-- Twelve row blocks stacked: row `r` reads block `r / 12` at row `r % 12`. -/
private theorem stack_apply (b : Fin 12 → FVec Ideal S12x378 .f32) (r : Fin 144) (k : Fin 378) :
    concatenate S144x378 0 [⟨S12x378, b 0⟩, ⟨S12x378, b 1⟩, ⟨S12x378, b 2⟩, ⟨S12x378, b 3⟩, ⟨S12x378, b 4⟩, ⟨S12x378, b 5⟩,
        ⟨S12x378, b 6⟩, ⟨S12x378, b 7⟩, ⟨S12x378, b 8⟩, ⟨S12x378, b 9⟩, ⟨S12x378, b 10⟩, ⟨S12x378, b 11⟩]
        concatenates_S12x378_S12x378_S12x378_S12x378_S12x378_S12x378_S12x378_S12x378_S12x378_S12x378_S12x378_S12x378_S144x378_d0 (ix2 r k)
      = b ⟨r.val / 12, by omega⟩ (ix2 ⟨r.val % 12, by omega⟩ k) := by
  show concatenate S144x378 0 (List.ofFn fun n : Fin 12 => (⟨S12x378, b n⟩ : (s : Shape) × (s.Idx → EReal)))
    concatenates_S12x378_S12x378_S12x378_S12x378_S12x378_S12x378_S12x378_S12x378_S12x378_S12x378_S12x378_S12x378_S144x378_d0 (ix2 r k) = _
  refine concatenate_ofFn_apply (t := S144x378) (s₁ := S12x378) 0 b _ rfl 12 rfl (ix2 r k) ⟨r.val / 12, by omega⟩ rfl (ix2 ⟨r.val % 12, by omega⟩ k) rfl ?_
  intro a ha
  match a with
  | ⟨0, _⟩ => exact absurd rfl ha
  | ⟨1, _⟩ => rfl

/-- The left operand at an entry, from the planes at their entries. -/
private theorem lhs_apply (p : Fin 14 → FVec Ideal S12x126 .f32) (X : Fin 14 → Fin 14 → Fin 42 → EReal)
    (hp : ∀ (d : Fin 14) (oh : Fin 12) (q : Fin 126), p d (ix2 oh q) = X d ⟨oh.val + q.val / 42, by omega⟩ ⟨q.val % 42, by omega⟩)
    (r : Fin 144) (k : Fin 378) :
    concatenate S144x378 0 [⟨S12x378, blk p 0⟩, ⟨S12x378, blk p 1⟩, ⟨S12x378, blk p 2⟩, ⟨S12x378, blk p 3⟩, ⟨S12x378, blk p 4⟩, ⟨S12x378, blk p 5⟩,
        ⟨S12x378, blk p 6⟩, ⟨S12x378, blk p 7⟩, ⟨S12x378, blk p 8⟩, ⟨S12x378, blk p 9⟩, ⟨S12x378, blk p 10⟩, ⟨S12x378, blk p 11⟩]
        concatenates_S12x378_S12x378_S12x378_S12x378_S12x378_S12x378_S12x378_S12x378_S12x378_S12x378_S12x378_S12x378_S144x378_d0 (ix2 r k)
      = Net.lhs1 X r k := by
  refine (stack_apply (blk p) r k).trans ?_
  refine (blk_apply p _ _ k).trans ?_
  refine (hp _ _ _).trans ?_
  unfold Net.lhs1
  congr 2
  show k.val % 126 % 42 = k.val % 42
  omega

/-- The window of depth `d`, rows `kh ≤ h < kh + 12`, of the image block. -/
private abbrev win (d : Fin 14) (kh : Fin 3) : Vec Ideal S1x1x12x42 .f32 :=
  View.ld x0 (Rect.unit (s := S1x14x14x42) ![0, d.val, kh.val, 0] S1x1x12x42.size (by
    intro a
    match a with
    | ⟨0, _⟩ => show 0 + 1 ≤ 1; omega
    | ⟨1, _⟩ => show d.val + 1 ≤ 14; omega
    | ⟨2, _⟩ => show kh.val + 12 ≤ 14; omega
    | ⟨3, _⟩ => show 0 + 42 ≤ 42; omega))

private theorem win_apply (d : Fin 14) (kh : Fin 3) (oh : Fin 12) (l : Fin 42) :
    win x0 d kh (ix4 0 0 oh l) = x0 (ix4 0 d ⟨oh.val + kh.val, by omega⟩ l) := by
  show x0 _ = x0 _
  congr 1
  funext a
  match a with
  | ⟨0, _⟩ => rfl
  | ⟨1, _⟩ => apply Fin.ext; show d.val + 1 * 0 = d.val; omega
  | ⟨2, _⟩ => apply Fin.ext; show kh.val + 1 * oh.val = oh.val + kh.val; omega
  | ⟨3, _⟩ => apply Fin.ext; show 0 + 1 * l.val = l.val; omega

/-- Plane `d`: the lane-join of the three windows of depth `d`. -/
private abbrev plane (d : Fin 14) : FVec Ideal S12x126 .f32 := k0_pay2 (win x0 d 0) (win x0 d 1) (win x0 d 2)

private theorem plane_apply (d : Fin 14) (oh : Fin 12) (q : Fin 126) :
    plane x0 d (ix2 oh q) = Net.imgR x0 d ⟨oh.val + q.val / 42, by omega⟩ ⟨q.val % 42, by omega⟩ := by
  refine (pay2_apply _ _ _ oh q).trans ?_
  have h := vec3_eq (fun kh : Fin 3 => win x0 d kh) ⟨q.val / 42, by omega⟩
  refine (congrFun h _).trans ?_
  exact win_apply x0 d _ oh _

/-- The first convolution after the width pooling at an entry, over any fourteen planes that hold an image's windows. -/
private theorem pay16_apply (v6 v13 v20 v27 v34 v41 v48 v55 v62 v69 v76 v83 : FVec Ideal S12x126 .f32) (v85 : FVec Ideal S12x42 .f32)
    (v86 v88 v91 v93 v95 : Vec Ideal S1x1x12x42 .f32) (v113 : Vec Ideal S378x512 .bf16)
    (X : Fin 14 → Fin 14 → Fin 42 → EReal)
    (hp : ∀ (d : Fin 14) (oh : Fin 12) (q : Fin 126),
      (![v6, v13, v20, v27, v34, v41, v48, v55, v62, v69, v76, v83,
          concatenate S12x126 1 [⟨S12x42, v85⟩, ⟨S12x42, shapeCast S12x42 v86 shapeCasts_S1x1x12x42_S12x42⟩,
            ⟨S12x42, shapeCast S12x42 v88 shapeCasts_S1x1x12x42_S12x42⟩] concatenates_S12x42_S12x42_S12x42_S12x126_d1,
          concatenate S12x126 1 [⟨S12x42, shapeCast S12x42 v91 shapeCasts_S1x1x12x42_S12x42⟩,
            ⟨S12x42, shapeCast S12x42 v93 shapeCasts_S1x1x12x42_S12x42⟩,
            ⟨S12x42, shapeCast S12x42 v95 shapeCasts_S1x1x12x42_S12x42⟩] concatenates_S12x42_S12x42_S12x42_S12x126_d1]
        : Fin 14 → FVec Ideal S12x126 .f32) d (ix2 oh q)
        = X d ⟨oh.val + q.val / 42, by omega⟩ ⟨q.val % 42, by omega⟩)
    (r : Fin 144) (j : Fin 256) :
    k0_pay16 v6 v13 v20 v27 v34 v41 v48 v55 v62 v69 v76 v83 v85 v86 v88 v91 v93 v95 v113 (ix2 r j)
      = Net.m1 (Net.c1 X (Net.mat v113)) r j := by
  have key : ∀ k : Fin 378, _ = Net.lhs1 X r k := fun k => lhs_apply _ X hp r k
  unfold k0_pay16 Net.m1 Net.c1
  refine (maximumf_apply _ _ (ix2 r j)).trans ?_
  refine congrArg₂ max ?_ ?_
  · refine (extractStridedSlice_apply _ _ _ (ix2 r j) (ix2 r ⟨j.val, by omega⟩) ?_).trans ?_
    · intro a
      match a with
      | ⟨0, _⟩ => show r.val = 0 + r.val; omega
      | ⟨1, _⟩ => show j.val = 0 + j.val; omega
    · refine (Cert.PlainDot.matmul_zero_apply (φ₁ := .bf16) (φ₂ := .bf16) _ rfl none _ _ (ix2 r ⟨j.val, by omega⟩)).trans ?_
      refine Finset.sum_congr rfl fun k _ => ?_
      exact congrArg (· * v113 (ix2 k ⟨j.val, by omega⟩)) (key k)
  · refine (extractStridedSlice_apply _ _ _ (ix2 r j) (ix2 r ⟨j.val + 256, by omega⟩) ?_).trans ?_
    · intro a
      match a with
      | ⟨0, _⟩ => show r.val = 0 + r.val; omega
      | ⟨1, _⟩ => show j.val + 256 = 256 + j.val; omega
    · refine (Cert.PlainDot.matmul_zero_apply (φ₁ := .bf16) (φ₂ := .bf16) _ rfl none _ _ (ix2 r ⟨j.val + 256, by omega⟩)).trans ?_
      refine Finset.sum_congr rfl fun k _ => ?_
      exact congrArg (· * v113 (ix2 k ⟨j.val + 256, by omega⟩)) (key k)

/-- The fourteen planes as the program lists them are the planes of the image block. -/
private theorem planes_eq :
    (![k0_pay2 (View.ld x0 r0_0) (View.ld x0 r0_1) (View.ld x0 r0_2),
      k0_pay3 (View.ld x0 r0_3) (View.ld x0 r0_4) (View.ld x0 r0_5),
      k0_pay4 (View.ld x0 r0_6) (View.ld x0 r0_7) (View.ld x0 r0_8),
      k0_pay5 (View.ld x0 r0_9) (View.ld x0 r0_10) (View.ld x0 r0_11),
      k0_pay6 (View.ld x0 r0_12) (View.ld x0 r0_13) (View.ld x0 r0_14),
      k0_pay7 (View.ld x0 r0_15) (View.ld x0 r0_16) (View.ld x0 r0_17),
      k0_pay8 (View.ld x0 r0_18) (View.ld x0 r0_19) (View.ld x0 r0_20),
      k0_pay9 (View.ld x0 r0_21) (View.ld x0 r0_22) (View.ld x0 r0_23),
      k0_pay10 (View.ld x0 r0_24) (View.ld x0 r0_25) (View.ld x0 r0_26),
      k0_pay12 (k0_pay11 (View.ld x0 r0_27)) (View.ld x0 r0_28) (View.ld x0 r0_29),
      k0_pay13 (View.ld x0 r0_30) (View.ld x0 r0_31) (View.ld x0 r0_32),
      k0_pay14 (View.ld x0 r0_33) (View.ld x0 r0_34) (View.ld x0 r0_35),
      concatenate S12x126 1 [⟨S12x42, k0_pay15 (View.ld x0 r0_36)⟩, ⟨S12x42, shapeCast S12x42 (View.ld x0 r0_37) shapeCasts_S1x1x12x42_S12x42⟩,
        ⟨S12x42, shapeCast S12x42 (View.ld x0 r0_38) shapeCasts_S1x1x12x42_S12x42⟩] concatenates_S12x42_S12x42_S12x42_S12x126_d1,
      concatenate S12x126 1 [⟨S12x42, shapeCast S12x42 (View.ld x0 r0_39) shapeCasts_S1x1x12x42_S12x42⟩, ⟨S12x42, shapeCast S12x42 (View.ld x0 r0_40) shapeCasts_S1x1x12x42_S12x42⟩,
        ⟨S12x42, shapeCast S12x42 (View.ld x0 r0_41) shapeCasts_S1x1x12x42_S12x42⟩] concatenates_S12x42_S12x42_S12x42_S12x126_d1]
      : Fin 14 → FVec Ideal S12x126 .f32) = plane x0 := by
  funext d
  fin_cases d <;> rfl

/-- The first convolution after the width pooling, at row `r` and lane `j`. -/
theorem V117_apply (r : Fin 144) (j : Fin 256) :
    V117 x0 x1 (ix2 r j) = Net.m1 (Net.c1 (Net.imgR x0) (Net.mat x1)) r j := by
  have hz : (![0, 0] : Fin 2 → Nat) = fun _ => 0 := funext fun a => by fin_cases a <;> rfl
  have hw : View.ld x1 r0_43 = x1 := View.ld_unit_zero (S := S378x512) hz _ x1
  unfold V117
  rw [hw]
  refine pay16_apply _ _ _ _ _ _ _ _ _ _ _ _ _ _ _ _ _ _ x1 (Net.imgR x0) ?_ r j
  intro d oh q
  exact (congrFun (congrFun (planes_eq x0) d) (ix2 oh q)).trans (plane_apply x0 d oh q)

/-- The depth pooling of the first pair of depths: row `oh` against row `oh + 12`. -/
theorem V120_apply (oh : Fin 12) (j : Fin 256) :
    V120 x0 x1 (ix2 oh j) = max (V117 x0 x1 (ix2 ⟨oh.val, by omega⟩ j)) (V117 x0 x1 (ix2 ⟨oh.val + 12, by omega⟩ j)) := by
  unfold V120 V117 k0_pay17
  refine (maximumf_apply _ _ (ix2 oh j)).trans ?_
  refine congrArg₂ max ?_ ?_
  · refine extractStridedSlice_apply _ _ _ (ix2 oh j) (ix2 ⟨oh.val, by omega⟩ j) ?_
    intro a
    match a with
    | ⟨0, _⟩ => show oh.val = 0 + oh.val; omega
    | ⟨1, _⟩ => show j.val = 0 + j.val; omega
  · refine extractStridedSlice_apply _ _ _ (ix2 oh j) (ix2 ⟨oh.val + 12, by omega⟩ j) ?_
    intro a
    match a with
    | ⟨0, _⟩ => show oh.val + 12 = 12 + oh.val; omega
    | ⟨1, _⟩ => show j.val = 0 + j.val; omega

/-- Pooled row 0: rows 0 and 1 of the depth-pooled pair. -/
theorem V123_apply (j : Fin 256) :
    V123 x0 x1 (ix2 0 j) = max (V120 x0 x1 (ix2 0 j)) (V120 x0 x1 (ix2 1 j)) := by
  unfold V123 V120 k0_pay18
  refine (maximumf_apply _ _ (ix2 0 j)).trans ?_
  refine congrArg₂ max ?_ ?_
  · refine extractStridedSlice_apply _ _ _ (ix2 0 j) (ix2 0 j) ?_
    intro a
    match a with
    | ⟨0, _⟩ => rfl
    | ⟨1, _⟩ => show j.val = 0 + j.val; omega
  · refine extractStridedSlice_apply _ _ _ (ix2 0 j) (ix2 1 j) ?_
    intro a
    match a with
    | ⟨0, _⟩ => rfl
    | ⟨1, _⟩ => show j.val = 0 + j.val; omega

/-- Row 2 of the depth-pooled pair. -/
theorem V124_apply (j : Fin 256) : V124 x0 x1 (ix2 0 j) = V120 x0 x1 (ix2 2 j) := by
  unfold V124 V120 k0_pay19
  refine extractStridedSlice_apply _ _ _ (ix2 0 j) (ix2 2 j) ?_
  intro a
  match a with
  | ⟨0, _⟩ => rfl
  | ⟨1, _⟩ => show j.val = 0 + j.val; omega

/-- Row 3 of the depth-pooled pair. -/
theorem V125_apply (j : Fin 256) : V125 x0 x1 (ix2 0 j) = V120 x0 x1 (ix2 3 j) := by
  unfold V125 V120 k0_pay20
  refine extractStridedSlice_apply _ _ _ (ix2 0 j) (ix2 3 j) ?_
  intro a
  match a with
  | ⟨0, _⟩ => rfl
  | ⟨1, _⟩ => show j.val = 0 + j.val; omega

end Cert.RefSide

end
-- ==== Proof.RefB.lean ====
import proofs.«166258_g2000504528272344_pallasbulk_1029_2_alg».proof.Proof.RefTerms
import proofs.«166258_g2000504528272344_pallasbulk_1029_2_alg».proof.Proof.Spec
import proofs.«166258_g2000504528272344_pallasbulk_1029_2_alg».proof.Proof.RefA
import Idealize.ShloMosaic.Lib.Pipeline.Value
import Idealize.ShloMosaic.Lib.ValueLayout

/-!
# The one-image program's 36 pooled rows

Pooled row `p = dp·6 + hp` is the maximum over the four rows `(2·dp + a)·12 + 2·hp + e` of the width-pooled
convolution, the two depths first, then the two heights.
-/

noncomputable section

open scoped BigOperators

namespace Cert.RefSide

open Idealize.ShloMosaic Idealize.ShloMosaic.ValueIdx Cert.ReferenceIdeal Cert.ReferenceIdeal.Gen

variable (x0 : Vec Ideal S1x14x14x42 .f32) (x1 : Vec Ideal S378x512 .bf16)

/-- A one-row slice of a 12-row block, read at a lane: the block's row at the slice's offset. -/
theorem poolB_sliceRow (D : FVec Ideal S12x256 .f32) (off : Fin 2 → Nat) (h : S12x256.Slices off S1x256)
    (r : Fin 12) (h0 : off 0 = r.val) (h1 : off 1 = 0) (j : Fin 256) :
    extractStridedSlice S1x256 off D h (ix2 0 j) = D (ix2 r j) := by
  refine extractStridedSlice_apply off D h (ix2 0 j) (ix2 r j) ?_
  intro a
  match a with
  | ⟨0, _⟩ => show r.val = off 0 + 0; rw [h0, Nat.add_zero]
  | ⟨1, _⟩ => show j.val = off 1 + j.val; rw [h1, Nat.zero_add]

/-- A 12-row slice of the 144 rows, read at an entry: the row at the slice's offset on. -/
theorem poolB_sliceBlock (M : FVec Ideal S144x256 .f32) (off : Fin 2 → Nat) (h : S144x256.Slices off S12x256)
    (b : Nat) (h0 : off 0 = b) (h1 : off 1 = 0) (r : Fin 12) (j : Fin 256) (hb : b + r.val < 144) :
    extractStridedSlice S12x256 off M h (ix2 r j) = M (ix2 ⟨b + r.val, hb⟩ j) := by
  refine extractStridedSlice_apply off M h (ix2 r j) (ix2 ⟨b + r.val, hb⟩ j) ?_
  intro a
  match a with
  | ⟨0, _⟩ => show b + r.val = off 0 + r.val; rw [h0]
  | ⟨1, _⟩ => show j.val = off 1 + j.val; rw [h1, Nat.zero_add]

/-- A one-row array holds pooled row `p` of the 144 width-pooled rows `M`. -/
def poolB_Is (M : FVec Ideal S144x256 .f32) (p : Fin 36) (w : FVec Ideal S1x256 .f32) : Prop :=
  ∀ j : Fin 256, w (ix2 0 j) = Net.q1 (fun r l => M (ix2 r l)) p j

/-- The maximum of rows `2·hp` and `2·hp + 1` of the depth-pooled block `D` of depth pair `dp` is pooled row
    `p = dp·6 + hp`. The block's rows are named through `a` and `b` so that any spelling of the two row numbers fits. -/
theorem poolB_core (M : FVec Ideal S144x256 .f32) (p : Fin 36) (D : FVec Ideal S12x256 .f32)
    (a b : Fin 12 → Fin 144) (ha : ∀ r : Fin 12, (a r).val = 2 * (p.val / 6) * 12 + r.val)
    (hb : ∀ r : Fin 12, (b r).val = (2 * (p.val / 6) + 1) * 12 + r.val)
    (hD : ∀ (r : Fin 12) (j : Fin 256), D (ix2 r j) = max (M (ix2 (a r) j)) (M (ix2 (b r) j)))
    (r0 r1 : Fin 12) (hr0 : r0.val = 2 * (p.val % 6)) (hr1 : r1.val = 2 * (p.val % 6) + 1)
    (w : FVec Ideal S1x256 .f32) (hw : ∀ j : Fin 256, w (ix2 0 j) = max (D (ix2 r0 j)) (D (ix2 r1 j))) :
    poolB_Is M p w := by
  intro j
  rw [hw, hD, hD]
  have e0 : a r0 = ⟨2 * (p.val / 6) * 12 + 2 * (p.val % 6), by have := p.isLt; omega⟩ := Fin.ext (by rw [ha, hr0])
  have e1 : b r0 = ⟨(2 * (p.val / 6) + 1) * 12 + 2 * (p.val % 6), by have := p.isLt; omega⟩ := Fin.ext (by rw [hb, hr0])
  have e2 : a r1 = ⟨2 * (p.val / 6) * 12 + 2 * (p.val % 6) + 1, by have := p.isLt; omega⟩ := Fin.ext (by rw [ha, hr1]; rfl)
  have e3 : b r1 = ⟨(2 * (p.val / 6) + 1) * 12 + 2 * (p.val % 6) + 1, by have := p.isLt; omega⟩ := Fin.ext (by rw [hb, hr1]; rfl)
  rw [e0, e1, e2, e3]
  rfl

/-- The same with the two rows sliced out of the block. -/
theorem poolB_slices (M : FVec Ideal S144x256 .f32) (p : Fin 36) (D : FVec Ideal S12x256 .f32)
    (a b : Fin 12 → Fin 144) (ha : ∀ r : Fin 12, (a r).val = 2 * (p.val / 6) * 12 + r.val)
    (hb : ∀ r : Fin 12, (b r).val = (2 * (p.val / 6) + 1) * 12 + r.val)
    (hD : ∀ (r : Fin 12) (j : Fin 256), D (ix2 r j) = max (M (ix2 (a r) j)) (M (ix2 (b r) j)))
    (r0 r1 : Fin 12) (hr0 : r0.val = 2 * (p.val % 6)) (hr1 : r1.val = 2 * (p.val % 6) + 1)
    (o0 o1 : Fin 2 → Nat) (h0 : S12x256.Slices o0 S1x256) (h1 : S12x256.Slices o1 S1x256)
    (e0 : o0 0 = r0.val) (e0' : o0 1 = 0) (e1 : o1 0 = r1.val) (e1' : o1 1 = 0) :
    poolB_Is M p (maximumf (extractStridedSlice S1x256 o0 D h0) (extractStridedSlice S1x256 o1 D h1)) :=
  poolB_core M p D a b ha hb hD r0 r1 hr0 hr1 _ fun j => by
    show max (extractStridedSlice S1x256 o0 D h0 (ix2 0 j)) (extractStridedSlice S1x256 o1 D h1 (ix2 0 j)) = _
    rw [poolB_sliceRow D o0 h0 r0 e0 e0' j, poolB_sliceRow D o1 h1 r1 e1 e1' j]

/-- The depth pooling of one pair of depths: rows `b₀ ..` against rows `b₀ + 12 ..` of the 144. -/
theorem poolB_block (M : FVec Ideal S144x256 .f32) (o0 o1 : Fin 2 → Nat) (h0 : S144x256.Slices o0 S12x256)
    (h1 : S144x256.Slices o1 S12x256) (b0 b1 : Nat) (e0 : o0 0 = b0) (e0' : o0 1 = 0) (e1 : o1 0 = b1) (e1' : o1 1 = 0)
    (hb0 : b0 + 12 ≤ 144) (hb1 : b1 + 12 ≤ 144) (r : Fin 12) (j : Fin 256) :
    maximumf (extractStridedSlice S12x256 o0 M h0) (extractStridedSlice S12x256 o1 M h1) (ix2 r j) =
      max (M (ix2 ⟨b0 + r.val, by have := r.isLt; omega⟩ j)) (M (ix2 ⟨b1 + r.val, by have := r.isLt; omega⟩ j)) := by
  show max (extractStridedSlice S12x256 o0 M h0 (ix2 r j)) (extractStridedSlice S12x256 o1 M h1 (ix2 r j)) = _
  rw [poolB_sliceBlock M o0 h0 b0 e0 e0' r j (by have := r.isLt; omega),
    poolB_sliceBlock M o1 h1 b1 e1 e1' r j (by have := r.isLt; omega)]

/-- Both poolings spelled out on the 144 rows: rows `2·hp` and `2·hp + 1` of the depth pooling of depth pair `dp`. -/
theorem poolB_inner (M : FVec Ideal S144x256 .f32) (p : Fin 36) (o0 o1 : Fin 2 → Nat)
    (h0 : S144x256.Slices o0 S12x256) (h1 : S144x256.Slices o1 S12x256)
    (e0 : o0 0 = 2 * (p.val / 6) * 12) (e0' : o0 1 = 0) (e1 : o1 0 = (2 * (p.val / 6) + 1) * 12) (e1' : o1 1 = 0)
    (s0 s1 : Fin 2 → Nat) (g0 : S12x256.Slices s0 S1x256) (g1 : S12x256.Slices s1 S1x256)
    (f0 : s0 0 = 2 * (p.val % 6)) (f0' : s0 1 = 0) (f1 : s1 0 = 2 * (p.val % 6) + 1) (f1' : s1 1 = 0) :
    poolB_Is M p (maximumf
      (extractStridedSlice S1x256 s0 (maximumf (extractStridedSlice S12x256 o0 M h0) (extractStridedSlice S12x256 o1 M h1)) g0)
      (extractStridedSlice S1x256 s1 (maximumf (extractStridedSlice S12x256 o0 M h0) (extractStridedSlice S12x256 o1 M h1)) g1)) :=
  poolB_slices M p _ (fun r => ⟨2 * (p.val / 6) * 12 + r.val, by have := p.isLt; have := r.isLt; omega⟩)
    (fun r => ⟨(2 * (p.val / 6) + 1) * 12 + r.val, by have := p.isLt; have := r.isLt; omega⟩) (fun _ => rfl) (fun _ => rfl)
    (poolB_block M o0 o1 h0 h1 _ _ e0 e0' e1 e1' (by have := p.isLt; omega) (by have := p.isLt; omega))
    ⟨2 * (p.val % 6), by omega⟩ ⟨2 * (p.val % 6) + 1, by omega⟩ rfl rfl s0 s1 g0 g1 f0 f0' f1 f1'

/-- Off the stacking axis a piece's index is the stack's. -/
theorem poolB_offAxis (k : Fin 36) (j : Fin 256) (b : Fin 2) (hb : b ≠ 0) :
    (ix2 (0 : Fin 1) j b).val = (ix2 k j b).val := by
  match b, hb with
  | ⟨0, _⟩, hb => exact absurd rfl hb
  | ⟨1, _⟩, _ => rfl

/-- A stack of 36 one-row pieces read at row `k`: piece `k`, at its only row. -/
theorem poolB_stack {α : Type} (xs : List ((s : Shape) × (s.Idx → α)))
    (h : Shape.Concatenates (xs.map (·.1)) S36x256 0)
    (hs : xs.map (·.1) = List.replicate 36 S1x256) (k : Nat) (hk36 : k < 36) (hk : k < xs.length)
    (x₁ : S1x256.Idx → α) (hxk : xs[k] = ⟨S1x256, x₁⟩) (j : Fin 256) :
    concatenate S36x256 0 xs h (ix2 ⟨k, hk36⟩ j) = x₁ (ix2 0 j) := by
  refine concatenate_apply_piece (t := S36x256) (0 : Fin 2) xs h (ix2 ⟨k, hk36⟩ j) k hk S1x256 x₁ hxk rfl k ?_ (ix2 0 j)
    (fun b hb => poolB_offAxis ⟨k, hk36⟩ j b hb) rfl
  have e1 : (if h : S1x256.rank = S36x256.rank then S1x256.size ((0 : Fin 2).cast h.symm) else 0) = 1 := rfl
  rw [List.map_take, hs, List.take_replicate, List.map_replicate, e1, List.sum_replicate]
  simp only [smul_eq_mul, mul_one]
  omega

/-- Piece `k` of the stack of 36 one-row pieces, read at row `k`. -/
local macro "poolB_piece" k:num j:term : tactic => `(tactic|
  refine Eq.trans (poolB_stack _ _ rfl $k (by decide) (Nat.lt_of_lt_of_eq (by decide : $k < 36) rfl) _ rfl $j) ?_)

/-- The stack of the 36 pieces: the first 18 as they arrive, the rest pooled from the depth pair 6–7 given as `v183` and
    from the last two depth pairs, computed here. -/
theorem poolB_pay43 (M : FVec Ideal S144x256 .f32)
    (v123 v126 v129 v132 v135 v138 v144 v147 v150 v153 v156 v159 v165 v168 v171 v174 v177 v180 : FVec Ideal S1x256 .f32)
    (v183 : FVec Ideal S12x256 .f32) (v184 v185 : FVec Ideal S1x256 .f32)
    (h123 : poolB_Is M ⟨0, by decide⟩ v123)
    (h126 : poolB_Is M ⟨1, by decide⟩ v126)
    (h129 : poolB_Is M ⟨2, by decide⟩ v129)
    (h132 : poolB_Is M ⟨3, by decide⟩ v132)
    (h135 : poolB_Is M ⟨4, by decide⟩ v135)
    (h138 : poolB_Is M ⟨5, by decide⟩ v138)
    (h144 : poolB_Is M ⟨6, by decide⟩ v144)
    (h147 : poolB_Is M ⟨7, by decide⟩ v147)
    (h150 : poolB_Is M ⟨8, by decide⟩ v150)
    (h153 : poolB_Is M ⟨9, by decide⟩ v153)
    (h156 : poolB_Is M ⟨10, by decide⟩ v156)
    (h159 : poolB_Is M ⟨11, by decide⟩ v159)
    (h165 : poolB_Is M ⟨12, by decide⟩ v165)
    (h168 : poolB_Is M ⟨13, by decide⟩ v168)
    (h171 : poolB_Is M ⟨14, by decide⟩ v171)
    (h174 : poolB_Is M ⟨15, by decide⟩ v174)
    (h177 : poolB_Is M ⟨16, by decide⟩ v177)
    (h180 : poolB_Is M ⟨17, by decide⟩ v180)
    (h183 : ∀ (r : Fin 12) (j : Fin 256), v183 (ix2 r j) =
      max (M (ix2 ⟨72 + r.val, by have := r.isLt; omega⟩ j)) (M (ix2 ⟨84 + r.val, by have := r.isLt; omega⟩ j)))
    (h184 : ∀ j : Fin 256, v184 (ix2 0 j) = v183 (ix2 ⟨0, by decide⟩ j))
    (h185 : ∀ j : Fin 256, v185 (ix2 0 j) = v183 (ix2 ⟨1, by decide⟩ j))
    (p : Fin 36) (j : Fin 256) :
    k0_pay43 M v123 v126 v129 v132 v135 v138 v144 v147 v150 v153 v156 v159 v165 v168 v171 v174 v177 v180 v183 v184 v185 (ix2 p j) = Net.q1 (fun r l => M (ix2 r l)) p j := by
  unfold k0_pay43
  fin_cases p
  · poolB_piece 0 j
    exact h123 j
  · poolB_piece 1 j
    exact h126 j
  · poolB_piece 2 j
    exact h129 j
  · poolB_piece 3 j
    exact h132 j
  · poolB_piece 4 j
    exact h135 j
  · poolB_piece 5 j
    exact h138 j
  · poolB_piece 6 j
    exact h144 j
  · poolB_piece 7 j
    exact h147 j
  · poolB_piece 8 j
    exact h150 j
  · poolB_piece 9 j
    exact h153 j
  · poolB_piece 10 j
    exact h156 j
  · poolB_piece 11 j
    exact h159 j
  · poolB_piece 12 j
    exact h165 j
  · poolB_piece 13 j
    exact h168 j
  · poolB_piece 14 j
    exact h171 j
  · poolB_piece 15 j
    exact h174 j
  · poolB_piece 16 j
    exact h177 j
  · poolB_piece 17 j
    exact h180 j
  · poolB_piece 18 j
    exact poolB_core M ⟨18, by decide⟩ v183 _ _ (fun _ => rfl) (fun _ => rfl) h183 ⟨0, by decide⟩ ⟨1, by decide⟩ rfl rfl _
      (fun j => by show max (v184 (ix2 0 j)) (v185 (ix2 0 j)) = _; rw [h184, h185]) j
  · poolB_piece 19 j
    exact poolB_slices M ⟨19, by decide⟩ v183 _ _ (fun _ => rfl) (fun _ => rfl) h183 ⟨2, by decide⟩ ⟨3, by decide⟩ rfl rfl
      _ _ _ _ rfl rfl rfl rfl j
  · poolB_piece 20 j
    exact poolB_slices M ⟨20, by decide⟩ v183 _ _ (fun _ => rfl) (fun _ => rfl) h183 ⟨4, by decide⟩ ⟨5, by decide⟩ rfl rfl
      _ _ _ _ rfl rfl rfl rfl j
  · poolB_piece 21 j
    exact poolB_slices M ⟨21, by decide⟩ v183 _ _ (fun _ => rfl) (fun _ => rfl) h183 ⟨6, by decide⟩ ⟨7, by decide⟩ rfl rfl
      _ _ _ _ rfl rfl rfl rfl j
  · poolB_piece 22 j
    exact poolB_slices M ⟨22, by decide⟩ v183 _ _ (fun _ => rfl) (fun _ => rfl) h183 ⟨8, by decide⟩ ⟨9, by decide⟩ rfl rfl
      _ _ _ _ rfl rfl rfl rfl j
  · poolB_piece 23 j
    exact poolB_slices M ⟨23, by decide⟩ v183 _ _ (fun _ => rfl) (fun _ => rfl) h183 ⟨10, by decide⟩ ⟨11, by decide⟩ rfl rfl
      _ _ _ _ rfl rfl rfl rfl j
  · poolB_piece 24 j
    exact poolB_inner M ⟨24, by decide⟩ _ _ _ _ rfl rfl rfl rfl _ _ _ _ rfl rfl rfl rfl j
  · poolB_piece 25 j
    exact poolB_inner M ⟨25, by decide⟩ _ _ _ _ rfl rfl rfl rfl _ _ _ _ rfl rfl rfl rfl j
  · poolB_piece 26 j
    exact poolB_inner M ⟨26, by decide⟩ _ _ _ _ rfl rfl rfl rfl _ _ _ _ rfl rfl rfl rfl j
  · poolB_piece 27 j
    exact poolB_inner M ⟨27, by decide⟩ _ _ _ _ rfl rfl rfl rfl _ _ _ _ rfl rfl rfl rfl j
  · poolB_piece 28 j
    exact poolB_inner M ⟨28, by decide⟩ _ _ _ _ rfl rfl rfl rfl _ _ _ _ rfl rfl rfl rfl j
  · poolB_piece 29 j
    exact poolB_inner M ⟨29, by decide⟩ _ _ _ _ rfl rfl rfl rfl _ _ _ _ rfl rfl rfl rfl j
  · poolB_piece 30 j
    exact poolB_inner M ⟨30, by decide⟩ _ _ _ _ rfl rfl rfl rfl _ _ _ _ rfl rfl rfl rfl j
  · poolB_piece 31 j
    exact poolB_inner M ⟨31, by decide⟩ _ _ _ _ rfl rfl rfl rfl _ _ _ _ rfl rfl rfl rfl j
  · poolB_piece 32 j
    exact poolB_inner M ⟨32, by decide⟩ _ _ _ _ rfl rfl rfl rfl _ _ _ _ rfl rfl rfl rfl j
  · poolB_piece 33 j
    exact poolB_inner M ⟨33, by decide⟩ _ _ _ _ rfl rfl rfl rfl _ _ _ _ rfl rfl rfl rfl j
  · poolB_piece 34 j
    exact poolB_inner M ⟨34, by decide⟩ _ _ _ _ rfl rfl rfl rfl _ _ _ _ rfl rfl rfl rfl j
  · poolB_piece 35 j
    exact poolB_inner M ⟨35, by decide⟩ _ _ _ _ rfl rfl rfl rfl _ _ _ _ rfl rfl rfl rfl j

/-- Pooled rows 0–5 come from the depth-pooled first pair `D`: rows `r` and `r + 12` of the 144. -/
theorem poolB_first (M : FVec Ideal S144x256 .f32) (D : FVec Ideal S12x256 .f32)
    (hD : ∀ (r : Fin 12) (j : Fin 256), D (ix2 r j) =
      max (M (ix2 ⟨r.val, by have := r.isLt; omega⟩ j)) (M (ix2 ⟨r.val + 12, by have := r.isLt; omega⟩ j)))
    (p : Fin 36) (hp : p.val < 6) (r0 r1 : Fin 12) (hr0 : r0.val = 2 * p.val) (hr1 : r1.val = 2 * p.val + 1)
    (w : FVec Ideal S1x256 .f32) (hw : ∀ j : Fin 256, w (ix2 0 j) = max (D (ix2 r0 j)) (D (ix2 r1 j))) :
    poolB_Is M p w :=
  poolB_core M p D (fun r => ⟨r.val, by have := r.isLt; omega⟩) (fun r => ⟨r.val + 12, by have := r.isLt; omega⟩)
    (fun r => by show r.val = _; have : p.val / 6 = 0 := by omega
                 rw [this]; omega)
    (fun r => by show r.val + 12 = _; have : p.val / 6 = 0 := by omega
                 rw [this]; omega) hD r0 r1
    (by rw [hr0, Nat.mod_eq_of_lt hp]) (by rw [hr1, Nat.mod_eq_of_lt hp]) w hw

/-- The same with the two rows sliced out of `D`. -/
theorem poolB_first_slices (M : FVec Ideal S144x256 .f32) (D : FVec Ideal S12x256 .f32)
    (hD : ∀ (r : Fin 12) (j : Fin 256), D (ix2 r j) =
      max (M (ix2 ⟨r.val, by have := r.isLt; omega⟩ j)) (M (ix2 ⟨r.val + 12, by have := r.isLt; omega⟩ j)))
    (p : Fin 36) (hp : p.val < 6) (r0 r1 : Fin 12) (hr0 : r0.val = 2 * p.val) (hr1 : r1.val = 2 * p.val + 1)
    (o0 o1 : Fin 2 → Nat) (h0 : S12x256.Slices o0 S1x256) (h1 : S12x256.Slices o1 S1x256)
    (e0 : o0 0 = r0.val) (e0' : o0 1 = 0) (e1 : o1 0 = r1.val) (e1' : o1 1 = 0) :
    poolB_Is M p (maximumf (extractStridedSlice S1x256 o0 D h0) (extractStridedSlice S1x256 o1 D h1)) :=
  poolB_first M D hD p hp r0 r1 hr0 hr1 _ fun j => by
    show max (extractStridedSlice S1x256 o0 D h0 (ix2 0 j)) (extractStridedSlice S1x256 o1 D h1 (ix2 0 j)) = _
    rw [poolB_sliceRow D o0 h0 r0 e0 e0' j, poolB_sliceRow D o1 h1 r1 e1 e1' j]

/-- The 36 pooled rows are the depth-then-height pooling of the width-pooled convolution. -/
theorem V244_apply (p : Fin 36) (j : Fin 256) :
    V244 x0 x1 (ix2 p j) = Net.q1 (fun r l => V117 x0 x1 (ix2 r l)) p j := by
  have h120 := V120_apply x0 x1
  have h123 := V123_apply x0 x1
  have h124 := V124_apply x0 x1
  have h125 := V125_apply x0 x1
  unfold V244
  generalize V123 x0 x1 = w123 at h123 ⊢
  generalize V124 x0 x1 = w124 at h124 ⊢
  generalize V125 x0 x1 = w125 at h125 ⊢
  generalize V120 x0 x1 = D at h120 h123 h124 h125 ⊢
  generalize V117 x0 x1 = M at h120 ⊢
  exact poolB_pay43 M w123 (k0_pay21 w124 w125) (k0_pay22 D) (k0_pay23 D) (k0_pay24 D) (k0_pay25 D) (k0_pay27 M) (k0_pay28 M)
    (k0_pay29 M) (k0_pay30 M) (k0_pay31 M) (k0_pay32 M) (k0_pay34 M) (k0_pay35 M) (k0_pay36 M) (k0_pay37 M)
    (k0_pay38 M) (k0_pay39 M) (k0_pay40 M) (k0_pay41 M) (k0_pay42 M)
    (poolB_first M D h120 ⟨0, by decide⟩ (by decide) ⟨0, by decide⟩ ⟨1, by decide⟩ rfl rfl w123 h123)
    (poolB_first M D h120 ⟨1, by decide⟩ (by decide) ⟨2, by decide⟩ ⟨3, by decide⟩ rfl rfl _ fun j => by
      show max (w124 (ix2 0 j)) (w125 (ix2 0 j)) = _
      rw [h124, h125]; rfl)
    (poolB_first_slices M D h120 ⟨2, by decide⟩ (by decide) ⟨4, by decide⟩ ⟨5, by decide⟩ rfl rfl _ _ _ _ rfl rfl rfl rfl)
    (poolB_first_slices M D h120 ⟨3, by decide⟩ (by decide) ⟨6, by decide⟩ ⟨7, by decide⟩ rfl rfl _ _ _ _ rfl rfl rfl rfl)
    (poolB_first_slices M D h120 ⟨4, by decide⟩ (by decide) ⟨8, by decide⟩ ⟨9, by decide⟩ rfl rfl _ _ _ _ rfl rfl rfl rfl)
    (poolB_first_slices M D h120 ⟨5, by decide⟩ (by decide) ⟨10, by decide⟩ ⟨11, by decide⟩ rfl rfl _ _ _ _ rfl rfl rfl rfl)
    (poolB_inner M ⟨6, by decide⟩ _ _ _ _ rfl rfl rfl rfl _ _ _ _ rfl rfl rfl rfl)
    (poolB_inner M ⟨7, by decide⟩ _ _ _ _ rfl rfl rfl rfl _ _ _ _ rfl rfl rfl rfl)
    (poolB_inner M ⟨8, by decide⟩ _ _ _ _ rfl rfl rfl rfl _ _ _ _ rfl rfl rfl rfl)
    (poolB_inner M ⟨9, by decide⟩ _ _ _ _ rfl rfl rfl rfl _ _ _ _ rfl rfl rfl rfl)
    (poolB_inner M ⟨10, by decide⟩ _ _ _ _ rfl rfl rfl rfl _ _ _ _ rfl rfl rfl rfl)
    (poolB_inner M ⟨11, by decide⟩ _ _ _ _ rfl rfl rfl rfl _ _ _ _ rfl rfl rfl rfl)
    (poolB_inner M ⟨12, by decide⟩ _ _ _ _ rfl rfl rfl rfl _ _ _ _ rfl rfl rfl rfl)
    (poolB_inner M ⟨13, by decide⟩ _ _ _ _ rfl rfl rfl rfl _ _ _ _ rfl rfl rfl rfl)
    (poolB_inner M ⟨14, by decide⟩ _ _ _ _ rfl rfl rfl rfl _ _ _ _ rfl rfl rfl rfl)
    (poolB_inner M ⟨15, by decide⟩ _ _ _ _ rfl rfl rfl rfl _ _ _ _ rfl rfl rfl rfl)
    (poolB_inner M ⟨16, by decide⟩ _ _ _ _ rfl rfl rfl rfl _ _ _ _ rfl rfl rfl rfl)
    (poolB_inner M ⟨17, by decide⟩ _ _ _ _ rfl rfl rfl rfl _ _ _ _ rfl rfl rfl rfl)
    (poolB_block M _ _ _ _ 72 84 rfl rfl rfl rfl (by decide) (by decide))
    (fun j => poolB_sliceRow (k0_pay40 M) ![0, 0] Facts₀.slices_S12x256_o0_0_S1x256 ⟨0, by decide⟩ rfl rfl j)
    (fun j => poolB_sliceRow (k0_pay40 M) ![1, 0] Facts₀.slices_S12x256_o1_0_S1x256 ⟨1, by decide⟩ rfl rfl j)
    p j

end Cert.RefSide

end
-- ==== Proof.RefC.lean ====
import proofs.«166258_g2000504528272344_pallasbulk_1029_2_alg».proof.Proof.Gen.ReferenceIdeal.Frame
import proofs.«166258_g2000504528272344_pallasbulk_1029_2_alg».proof.Proof.Spec
import proofs.«166258_g2000504528272344_pallasbulk_1029_2_alg».proof.Proof.LibPlainDot
import Idealize.ShloMosaic.Lib.Pipeline.Value
import Idealize.ShloMosaic.Lib.ValueLayout

/-!
# The one-image program's second convolution and its pooling, read at an entry

The left operand's row `od·4 + oh` joins, along the lanes, nine slices of the rectified pooled rows: tap `(kd, kh)`
contributes pooled row `(od + kd)·6 + kh + oh`. The product's two column halves are pooled against each other, then
two depths, then two heights; the bias and the rectifier follow.
-/

noncomputable section

open scoped BigOperators

namespace Cert.RefSide

open Idealize.ShloMosaic Idealize.ShloMosaic.ValueIdx Cert.ReferenceIdeal Cert.ReferenceIdeal.Gen

/-- The bias row repeated over the 36 pooled rows. -/
theorem pay44_apply (b1 : Vec Ideal S1x256 .f32) (p : Fin 36) (j : Fin 256) :
    k0_pay44 b1 (ix2 p j) = b1 (ix2 0 j) := by
  unfold k0_pay44
  exact broadcastTo_1b_ab_apply b1 _ p j

/-- Nine four-row slices of one array joined along the lanes: lane `k` of row `oh` is slice `k / 256`, whose row
    `oh` is the array's row `o (k / 256) + oh`, at lane `k % 256`. -/
theorem join9_apply {α : Type} (x : S36x256.Idx → α) (o : Fin 9 → Nat) (hs : ∀ n, S36x256.Slices ![o n, 0] S4x256)
    (h : Shape.Concatenates ((List.ofFn fun n : Fin 9 =>
      (⟨S4x256, extractStridedSlice S4x256 ![o n, 0] x (hs n)⟩ : (s : Shape) × (s.Idx → α))).map (·.1)) S4x2304 1)
    (oh : Fin 4) (k : Fin 2304) (r : Fin 36)
    (hr : r.val = o (⟨k.val / 256, by have := k.isLt; omega⟩ : Fin 9) + oh.val) :
    concatenate S4x2304 1 (List.ofFn fun n : Fin 9 =>
      (⟨S4x256, extractStridedSlice S4x256 ![o n, 0] x (hs n)⟩ : (s : Shape) × (s.Idx → α))) h (ix2 oh k)
      = x (ix2 r (⟨k.val % 256, by omega⟩ : Fin 256)) := by
  refine (concatenate_ofFn_apply (t := S4x2304) (s₁ := S4x256) (1 : Fin 2) _ h rfl 256 rfl (ix2 oh k) (⟨k.val / 256, by have := k.isLt; omega⟩ : Fin 9) rfl
    (ix2 oh (⟨k.val % 256, by omega⟩ : Fin 256)) rfl ?_).trans ?_
  · intro b hb
    match b with
    | ⟨0, _⟩ => rfl
    | ⟨1, _⟩ => exact absurd rfl hb
  · exact slice2_axis0_apply (o _) x _ oh _ r hr

/-- Row block `od` of the left operand: tap `n = kd·3 + kh` is the slice starting at pooled row `(od + kd)·6 + kh`,
    so lane `k` of row `oh` is pooled row `(od + k / 768)·6 + k % 768 / 256 + oh` at lane `k % 256`. -/
theorem block_apply {α : Type} (x : S36x256.Idx → α) (od : Fin 4)
    (hs : ∀ n : Fin 9, S36x256.Slices ![(od.val + n.val / 3) * 6 + n.val % 3, 0] S4x256)
    (h : Shape.Concatenates ((List.ofFn fun n : Fin 9 =>
      (⟨S4x256, extractStridedSlice S4x256 ![(od.val + n.val / 3) * 6 + n.val % 3, 0] x (hs n)⟩ :
        (s : Shape) × (s.Idx → α))).map (·.1)) S4x2304 1)
    (oh : Fin 4) (k : Fin 2304) :
    concatenate S4x2304 1 (List.ofFn fun n : Fin 9 =>
      (⟨S4x256, extractStridedSlice S4x256 ![(od.val + n.val / 3) * 6 + n.val % 3, 0] x (hs n)⟩ :
        (s : Shape) × (s.Idx → α))) h (ix2 oh k)
      = x (ix2 (⟨(od.val + k.val / 768) * 6 + k.val % 768 / 256 + oh.val, by
            have := od.isLt; have := oh.isLt; have := k.isLt; omega⟩ : Fin 36)
          (⟨k.val % 256, by omega⟩ : Fin 256)) :=
  join9_apply x (fun n => (od.val + n.val / 3) * 6 + n.val % 3) hs h oh k _ (by
    show (od.val + k.val / 768) * 6 + k.val % 768 / 256 + oh.val
      = (od.val + k.val / 256 / 3) * 6 + k.val / 256 % 3 + oh.val
    omega)

/-- Every slice the row blocks take lies inside the 36 pooled rows. -/
theorem tap_slices (od : Fin 4) (n : Fin 9) :
    S36x256.Slices ![(od.val + n.val / 3) * 6 + n.val % 3, 0] S4x256 := by
  refine ⟨rfl, fun a => ?_⟩
  match a with
  | ⟨0, _⟩ =>
    show (od.val + n.val / 3) * 6 + n.val % 3 + 4 ≤ 36
    have := od.isLt; have := n.isLt; omega
  | ⟨1, _⟩ => show 0 + 256 ≤ 256; omega

/-- The left operand of the second convolution, as the program builds it from an array `x` of 36 pooled rows: row
    `r = od·4 + oh`, lane `k` holds pooled row `(r / 4 + k / 768)·6 + k % 768 / 256 + r % 4` at lane `k % 256`. -/
theorem lhs_apply {α : Type} (x : S36x256.Idx → α)
    {s0 : S36x256.Slices ![0, 0] S4x256}
    {s1 : S36x256.Slices ![1, 0] S4x256}
    {s2 : S36x256.Slices ![2, 0] S4x256}
    {s6 : S36x256.Slices ![6, 0] S4x256}
    {s7 : S36x256.Slices ![7, 0] S4x256}
    {s8 : S36x256.Slices ![8, 0] S4x256}
    {s12 : S36x256.Slices ![12, 0] S4x256}
    {s13 : S36x256.Slices ![13, 0] S4x256}
    {s14 : S36x256.Slices ![14, 0] S4x256}
    {s18 : S36x256.Slices ![18, 0] S4x256}
    {s19 : S36x256.Slices ![19, 0] S4x256}
    {s20 : S36x256.Slices ![20, 0] S4x256}
    {s24 : S36x256.Slices ![24, 0] S4x256}
    {s25 : S36x256.Slices ![25, 0] S4x256}
    {s26 : S36x256.Slices ![26, 0] S4x256}
    {s30 : S36x256.Slices ![30, 0] S4x256}
    {s31 : S36x256.Slices ![31, 0] S4x256}
    {s32 : S36x256.Slices ![32, 0] S4x256}
    {c9 : Shape.Concatenates [S4x256, S4x256, S4x256, S4x256, S4x256, S4x256, S4x256, S4x256, S4x256] S4x2304 1}
    {c4 : Shape.Concatenates [S4x2304, S4x2304, S4x2304, S4x2304] S16x2304 0}
    (r : Fin 16) (k : Fin 2304) :
    concatenate S16x2304 0 [⟨S4x2304, concatenate S4x2304 1 [⟨S4x256, extractStridedSlice S4x256 ![0, 0] x s0⟩, ⟨S4x256, extractStridedSlice S4x256 ![1, 0] x s1⟩, ⟨S4x256, extractStridedSlice S4x256 ![2, 0] x s2⟩, ⟨S4x256, extractStridedSlice S4x256 ![6, 0] x s6⟩, ⟨S4x256, extractStridedSlice S4x256 ![7, 0] x s7⟩, ⟨S4x256, extractStridedSlice S4x256 ![8, 0] x s8⟩, ⟨S4x256, extractStridedSlice S4x256 ![12, 0] x s12⟩, ⟨S4x256, extractStridedSlice S4x256 ![13, 0] x s13⟩, ⟨S4x256, extractStridedSlice S4x256 ![14, 0] x s14⟩] c9⟩,
      ⟨S4x2304, concatenate S4x2304 1 [⟨S4x256, extractStridedSlice S4x256 ![6, 0] x s6⟩, ⟨S4x256, extractStridedSlice S4x256 ![7, 0] x s7⟩, ⟨S4x256, extractStridedSlice S4x256 ![8, 0] x s8⟩, ⟨S4x256, extractStridedSlice S4x256 ![12, 0] x s12⟩, ⟨S4x256, extractStridedSlice S4x256 ![13, 0] x s13⟩, ⟨S4x256, extractStridedSlice S4x256 ![14, 0] x s14⟩, ⟨S4x256, extractStridedSlice S4x256 ![18, 0] x s18⟩, ⟨S4x256, extractStridedSlice S4x256 ![19, 0] x s19⟩, ⟨S4x256, extractStridedSlice S4x256 ![20, 0] x s20⟩] c9⟩,
      ⟨S4x2304, concatenate S4x2304 1 [⟨S4x256, extractStridedSlice S4x256 ![12, 0] x s12⟩, ⟨S4x256, extractStridedSlice S4x256 ![13, 0] x s13⟩, ⟨S4x256, extractStridedSlice S4x256 ![14, 0] x s14⟩, ⟨S4x256, extractStridedSlice S4x256 ![18, 0] x s18⟩, ⟨S4x256, extractStridedSlice S4x256 ![19, 0] x s19⟩, ⟨S4x256, extractStridedSlice S4x256 ![20, 0] x s20⟩, ⟨S4x256, extractStridedSlice S4x256 ![24, 0] x s24⟩, ⟨S4x256, extractStridedSlice S4x256 ![25, 0] x s25⟩, ⟨S4x256, extractStridedSlice S4x256 ![26, 0] x s26⟩] c9⟩,
      ⟨S4x2304, concatenate S4x2304 1 [⟨S4x256, extractStridedSlice S4x256 ![18, 0] x s18⟩, ⟨S4x256, extractStridedSlice S4x256 ![19, 0] x s19⟩, ⟨S4x256, extractStridedSlice S4x256 ![20, 0] x s20⟩, ⟨S4x256, extractStridedSlice S4x256 ![24, 0] x s24⟩, ⟨S4x256, extractStridedSlice S4x256 ![25, 0] x s25⟩, ⟨S4x256, extractStridedSlice S4x256 ![26, 0] x s26⟩, ⟨S4x256, extractStridedSlice S4x256 ![30, 0] x s30⟩, ⟨S4x256, extractStridedSlice S4x256 ![31, 0] x s31⟩, ⟨S4x256, extractStridedSlice S4x256 ![32, 0] x s32⟩] c9⟩] c4 (ix2 r k)
      = x (ix2 (⟨(r.val / 4 + k.val / 768) * 6 + k.val % 768 / 256 + r.val % 4, by
            have := r.isLt; have := k.isLt; omega⟩ : Fin 36)
          (⟨k.val % 256, by omega⟩ : Fin 256)) := by
  refine (concatenate_ofFn_apply (t := S16x2304) (s₁ := S4x2304) (0 : Fin 2)
    (fun od : Fin 4 => concatenate S4x2304 1 (List.ofFn fun n : Fin 9 =>
      (⟨S4x256, extractStridedSlice S4x256 ![(od.val + n.val / 3) * 6 + n.val % 3, 0] x (tap_slices od n)⟩ :
        (s : Shape) × (s.Idx → α))) c9)
    c4 rfl 4 rfl (ix2 r k) (⟨r.val / 4, by have := r.isLt; omega⟩ : Fin 4) rfl
    (ix2 (⟨r.val % 4, by omega⟩ : Fin 4) k) rfl ?_).trans ?_
  · intro b hb
    match b with
    | ⟨0, _⟩ => exact absurd rfl hb
    | ⟨1, _⟩ => rfl
  · exact block_apply x _ _ c9 _ k

/-- The whole product of the second convolution at an entry. -/
theorem pay45_apply (v244 v245 : FVec Ideal S36x256 .f32) (w2 : Vec Ideal S2304x256 .bf16) (r : Fin 16) (n : Fin 256) :
    k0_pay45 v244 v245 w2 (ix2 r n)
      = Net.c2 (fun p l => Net.lrelu (v244 (ix2 p l) + v245 (ix2 p l))) (Net.mat w2) r n := by
  unfold k0_pay45
  refine (Cert.PlainDot.matmul_zero_apply (φ₁ := .bf16) (φ₂ := .bf16) _ rfl none _ w2 (ix2 r n)).trans ?_
  unfold Net.c2
  refine Finset.sum_congr rfl fun k _ => congrArg (· * _) ?_
  refine (truncf_apply (s := S16x2304) (φ := .f32) (ψ := .bf16) _ _ _).trans ?_
  exact (lhs_apply _ r k).trans rfl

/-- The second convolution's first column half. -/
theorem pay46_apply (v244 v245 : FVec Ideal S36x256 .f32) (w2 : Vec Ideal S2304x256 .bf16) (r : Fin 16) (j : Fin 128) :
    k0_pay46 v244 v245 w2 (ix2 r j)
      = Net.c2 (fun p l => Net.lrelu (v244 (ix2 p l) + v245 (ix2 p l))) (Net.mat w2) r ⟨j.val, by omega⟩ := by
  unfold k0_pay46
  refine (slice2_axis1_apply 0 _ _ r j (⟨j.val, by omega⟩ : Fin 256) (Nat.zero_add _).symm).trans ?_
  exact pay45_apply v244 v245 w2 r _

/-- The second convolution's second column half. -/
theorem pay47_apply (v244 v245 : FVec Ideal S36x256 .f32) (w2 : Vec Ideal S2304x256 .bf16) (r : Fin 16) (j : Fin 128) :
    k0_pay47 v244 v245 w2 (ix2 r j)
      = Net.c2 (fun p l => Net.lrelu (v244 (ix2 p l) + v245 (ix2 p l))) (Net.mat w2) r ⟨j.val + 128, by omega⟩ := by
  unfold k0_pay47
  refine (slice2_axis1_apply 128 _ _ r j (⟨j.val + 128, by omega⟩ : Fin 256) (Nat.add_comm _ _)).trans ?_
  exact pay45_apply v244 v245 w2 r _

/-- The rectifier as the programs spell it on a whole array, read at an index. -/
theorem lrelu_vec_apply {S : Shape} (v : FVec Ideal S .f32) (i : S.Idx) :
    select (cmpf .oge v (broadcast S (Scalar.ofBits (F := Ideal) .f32 0x00000000#32))) v
      (mulf (broadcast S (Scalar.ofBits (F := Ideal) .f32 0x3C23D70A#32)) v) i = Net.lrelu (v i) := rfl

/-- One row of the maximum of two four-row slices four rows apart: rows `o + e` and `o + 4 + e` of the array. -/
theorem pair_apply (y : FVec Ideal S16x128 .f32) (o e : Nat) (hA : S16x128.Slices ![o, 0] S4x128)
    (hB : S16x128.Slices ![o + 4, 0] S4x128) (hC : S4x128.Slices ![e, 0] S1x128) (j : Fin 128) (k1 k2 : Fin 16)
    (h1 : k1.val = o + e) (h2 : k2.val = o + 4 + e) :
    extractStridedSlice S1x128 ![e, 0]
        (maximumf (extractStridedSlice S4x128 ![o, 0] y hA) (extractStridedSlice S4x128 ![o + 4, 0] y hB)) hC (ix2 0 j)
      = max (y (ix2 k1 j)) (y (ix2 k2 j)) := by
  have he : e + 1 ≤ 4 := hC.2 ⟨0, Nat.zero_lt_two⟩
  refine (slice2_axis0_apply e _ hC 0 j (⟨e, by omega⟩ : Fin 4) rfl).trans ?_
  refine (maximumf_apply _ _ _).trans ?_
  exact congrArg₂ max (slice2_axis0_apply o y hA _ j k1 h1) (slice2_axis0_apply (o + 4) y hB _ j k2 h2)

/-- The slices the pooling takes lie inside their arrays. -/
theorem pool_slicesA (p : Fin 4) : S16x128.Slices ![8 * (p.val / 2), 0] S4x128 := by
  refine ⟨rfl, fun a => ?_⟩
  match a with
  | ⟨0, _⟩ => show 8 * (p.val / 2) + 4 ≤ 16; have := p.isLt; omega
  | ⟨1, _⟩ => show 0 + 128 ≤ 128; omega

theorem pool_slicesB (p : Fin 4) : S16x128.Slices ![8 * (p.val / 2) + 4, 0] S4x128 := by
  refine ⟨rfl, fun a => ?_⟩
  match a with
  | ⟨0, _⟩ => show 8 * (p.val / 2) + 4 + 4 ≤ 16; have := p.isLt; omega
  | ⟨1, _⟩ => show 0 + 128 ≤ 128; omega

theorem pool_slicesC (p : Fin 4) : S4x128.Slices ![2 * (p.val % 2), 0] S1x128 := by
  refine ⟨rfl, fun a => ?_⟩
  match a with
  | ⟨0, _⟩ => show 2 * (p.val % 2) + 1 ≤ 4; omega
  | ⟨1, _⟩ => show 0 + 128 ≤ 128; omega

theorem pool_slicesD (p : Fin 4) : S4x128.Slices ![2 * (p.val % 2) + 1, 0] S1x128 := by
  refine ⟨rfl, fun a => ?_⟩
  match a with
  | ⟨0, _⟩ => show 2 * (p.val % 2) + 1 + 1 ≤ 4; omega
  | ⟨1, _⟩ => show 0 + 128 ≤ 128; omega

/-- The depth and height pooling as the program builds it from an array `y` of 16 rows: pooled row `p = dp·2 + hp` is
    the maximum over rows `(2·dp + a)·4 + 2·hp + e`, the two depths first, then the two heights. -/
theorem pool_apply (y : FVec Ideal S16x128 .f32)
    {a0 : S16x128.Slices ![0, 0] S4x128} {a4 : S16x128.Slices ![4, 0] S4x128}
    {a8 : S16x128.Slices ![8, 0] S4x128} {a12 : S16x128.Slices ![12, 0] S4x128}
    {t0 : S4x128.Slices ![0, 0] S1x128} {t1 : S4x128.Slices ![1, 0] S1x128}
    {t2 : S4x128.Slices ![2, 0] S1x128} {t3 : S4x128.Slices ![3, 0] S1x128}
    {c4 : Shape.Concatenates [S1x128, S1x128, S1x128, S1x128] S4x128 0}
    (p : Fin 4) (j : Fin 128) :
    concatenate S4x128 0 [⟨S1x128, maximumf (extractStridedSlice S1x128 ![0, 0] (maximumf (extractStridedSlice S4x128 ![0, 0] y a0) (extractStridedSlice S4x128 ![4, 0] y a4)) t0) (extractStridedSlice S1x128 ![1, 0] (maximumf (extractStridedSlice S4x128 ![0, 0] y a0) (extractStridedSlice S4x128 ![4, 0] y a4)) t1)⟩,
      ⟨S1x128, maximumf (extractStridedSlice S1x128 ![2, 0] (maximumf (extractStridedSlice S4x128 ![0, 0] y a0) (extractStridedSlice S4x128 ![4, 0] y a4)) t2) (extractStridedSlice S1x128 ![3, 0] (maximumf (extractStridedSlice S4x128 ![0, 0] y a0) (extractStridedSlice S4x128 ![4, 0] y a4)) t3)⟩,
      ⟨S1x128, maximumf (extractStridedSlice S1x128 ![0, 0] (maximumf (extractStridedSlice S4x128 ![8, 0] y a8) (extractStridedSlice S4x128 ![12, 0] y a12)) t0) (extractStridedSlice S1x128 ![1, 0] (maximumf (extractStridedSlice S4x128 ![8, 0] y a8) (extractStridedSlice S4x128 ![12, 0] y a12)) t1)⟩,
      ⟨S1x128, maximumf (extractStridedSlice S1x128 ![2, 0] (maximumf (extractStridedSlice S4x128 ![8, 0] y a8) (extractStridedSlice S4x128 ![12, 0] y a12)) t2) (extractStridedSlice S1x128 ![3, 0] (maximumf (extractStridedSlice S4x128 ![8, 0] y a8) (extractStridedSlice S4x128 ![12, 0] y a12)) t3)⟩] c4 (ix2 p j)
      = Net.q2 (fun r l => y (ix2 r l)) p j := by
  refine (concatenate_ofFn_unit_apply (t := S4x128) (s₁ := S1x128) (0 : Fin 2)
    (fun p : Fin 4 => maximumf
      (extractStridedSlice S1x128 ![2 * (p.val % 2), 0]
        (maximumf (extractStridedSlice S4x128 ![8 * (p.val / 2), 0] y (pool_slicesA p))
          (extractStridedSlice S4x128 ![8 * (p.val / 2) + 4, 0] y (pool_slicesB p))) (pool_slicesC p))
      (extractStridedSlice S1x128 ![2 * (p.val % 2) + 1, 0]
        (maximumf (extractStridedSlice S4x128 ![8 * (p.val / 2), 0] y (pool_slicesA p))
          (extractStridedSlice S4x128 ![8 * (p.val / 2) + 4, 0] y (pool_slicesB p))) (pool_slicesD p)))
    c4 rfl rfl (ix2 p j) p rfl (ix2 0 j) ?_).trans ?_
  · intro b hb
    match b with
    | ⟨0, _⟩ => exact absurd rfl hb
    | ⟨1, _⟩ => rfl
  · refine (maximumf_apply _ _ _).trans ?_
    unfold Net.q2
    refine congrArg₂ max ?_ ?_
    · exact pair_apply y _ _ _ _ _ j _ _ (by show 2 * (p.val / 2) * 4 + 2 * (p.val % 2) = 8 * (p.val / 2) + 2 * (p.val % 2); omega)
        (by show (2 * (p.val / 2) + 1) * 4 + 2 * (p.val % 2) = 8 * (p.val / 2) + 4 + 2 * (p.val % 2); omega)
    · exact pair_apply y _ _ _ _ _ j _ _ (by show 2 * (p.val / 2) * 4 + 2 * (p.val % 2) + 1 = 8 * (p.val / 2) + (2 * (p.val % 2) + 1); omega)
        (by show (2 * (p.val / 2) + 1) * 4 + 2 * (p.val % 2) + 1 = 8 * (p.val / 2) + 4 + (2 * (p.val % 2) + 1); omega)

/-- The four pooled rows of the second stage, rectified. -/
theorem pay48_apply (b2 : Vec Ideal S1x128 .f32) (v297 v298 : FVec Ideal S16x128 .f32) (p : Fin 4) (j : Fin 128) :
    k0_pay48 b2 v297 v298 (ix2 p j)
      = Net.lrelu (Net.q2 (fun r l => max (v297 (ix2 r l)) (v298 (ix2 r l))) p j + b2 (ix2 0 j)) := by
  unfold k0_pay48
  refine (lrelu_vec_apply _ _).trans (congrArg Net.lrelu ?_)
  refine (addf_apply _ _ _).trans ?_
  exact congrArg₂ (· + ·) ((pool_apply _ p j).trans rfl) (broadcastTo_1b_ab_apply b2 _ p j)

end Cert.RefSide

end
-- ==== Proof.RefD.lean ====
import proofs.«166258_g2000504528272344_pallasbulk_1029_2_alg».proof.Proof.RefTerms
import proofs.«166258_g2000504528272344_pallasbulk_1029_2_alg».proof.Proof.Spec
import proofs.«166258_g2000504528272344_pallasbulk_1029_2_alg».proof.Proof.LibPlainDot
import proofs.«166258_g2000504528272344_pallasbulk_1029_2_alg».proof.Proof.RefA
import proofs.«166258_g2000504528272344_pallasbulk_1029_2_alg».proof.Proof.RefB
import proofs.«166258_g2000504528272344_pallasbulk_1029_2_alg».proof.Proof.RefC
import Idealize.ShloMosaic.Lib.Pipeline.Value
import Idealize.ShloMosaic.Lib.ValueLayout

/-!
# The one-image program's dense head, and its whole output block

The first dense layer adds, to the bias, the four pooled rows' products with the four blocks of the weight, one after
the other; the rectifier, the scale and shift, and the second dense layer follow. Composed with the two convolution
stages this is the network of the specification on the block's one image.
-/

noncomputable section

open scoped BigOperators

namespace Cert.RefSide

open Idealize.ShloMosaic Idealize.ShloMosaic.ValueIdx Cert.ReferenceIdeal Cert.ReferenceIdeal.Gen

/-- The zero offsets of a whole two-axis buffer. -/
private theorem zero2 : (![0, 0] : Fin 2 → Nat) = fun _ => 0 := funext fun a => by fin_cases a <;> rfl

/-- The zero offsets of a whole three-axis buffer. -/
private theorem zero3 : (![0, 0, 0] : Fin 3 → Nat) = fun _ => 0 := funext fun a => by fin_cases a <;> rfl

/-- A row times a 128 × 128 matrix into the zero accumulator, at lane `n`. -/
private theorem dense_dot_apply (a : FVec Ideal S1x128 .bf16) (b : FVec Ideal S128x128 .bf16) (n : Fin 128) :
    matmul (F := Ideal) dot_S1x128_S128x128_S1x128_1_0_0_1_n_n none a b (constant S1x128 .f32 0x00000000#32) (ix2 0 n)
      = ∑ l : Fin 128, a (ix2 0 l) * b (ix2 l n) :=
  Cert.PlainDot.matmul_zero_apply _ rfl none a b (ix2 0 n)

/-- Row `p` of a four-row array times a [1, 128, 128] block read as a matrix, at lane `n`. -/
private theorem dense_row_dot (V : FVec Ideal S4x128 .f32) (o : Nat) (p : Fin 4) (hp : p.val = o + (0 : Fin 1).val)
    (h : S4x128.Slices ![o, 0] S1x128) (w : Vec Ideal S1x128x128 .bf16) (n : Fin 128) :
    matmul (F := Ideal) (φ₂ := .bf16) dot_S1x128_S128x128_S1x128_1_0_0_1_n_n none
        (truncf .bf16 (extractStridedSlice S1x128 ![o, 0] V h) bitsLt_bf16_f32)
        (shapeCast S128x128 w shapeCasts_S1x128x128_S128x128) (constant S1x128 .f32 0x00000000#32) (ix2 0 n)
      = ∑ l : Fin 128, V (ix2 p l) * w (ix3 0 l n) := by
  refine (dense_dot_apply _ _ n).trans ?_
  refine Finset.sum_congr rfl fun l _ => ?_
  refine congrArg₂ (· * ·) ?_ ?_
  · exact slice2_axis0_apply o V h 0 l p hp
  · exact shapeCast_1ab_ab_apply w _ l n

/-- Block `r` of the [4, 128, 128] dense weight, loaded as a [1, 128, 128] array. -/
private theorem dense_ld_block (x5 : Vec Ideal S4x128x128 .bf16) (o : Nat) (r : Fin 4) (hr : r.val = o)
    (inb : ∀ a, (![o, 0, 0] : Fin 3 → Nat) a + S1x128x128.size a ≤ S4x128x128.size a) (l n : Fin 128) :
    (View.ld x5 (Rect.unit (s := S4x128x128) ![o, 0, 0] S1x128x128.size inb) : Vec Ideal S1x128x128 .bf16) (ix3 0 l n)
      = x5 (ix3 r l n) := by
  show x5 ((Rect.unit (s := S4x128x128) ![o, 0, 0] S1x128x128.size inb).emb (ix3 0 l n)) = x5 (ix3 r l n)
  refine congrArg x5 ?_
  funext a
  match a with
  | ⟨0, _⟩ => apply Fin.ext; show o + 1 * 0 = r.val; omega
  | ⟨1, _⟩ => apply Fin.ext; show 0 + 1 * l.val = l.val; omega
  | ⟨2, _⟩ => apply Fin.ext; show 0 + 1 * n.val = n.val; omega

/-- The bias and the first two pooled rows' products. -/
theorem pay49_apply (b2 : Vec Ideal S1x128 .f32) (v297 v298 : FVec Ideal S16x128 .f32) (bf1 : Vec Ideal S1x128 .f32)
    (w0 w1 : Vec Ideal S1x128x128 .bf16) (n : Fin 128) :
    k0_pay49 b2 v297 v298 bf1 w0 w1 (ix2 0 n)
      = (bf1 (ix2 0 n) + ∑ l : Fin 128, k0_pay48 b2 v297 v298 (ix2 0 l) * w0 (ix3 0 l n))
          + ∑ l : Fin 128, k0_pay48 b2 v297 v298 (ix2 1 l) * w1 (ix3 0 l n) := by
  unfold k0_pay49
  generalize k0_pay48 b2 v297 v298 = V
  show (bf1 (ix2 0 n) + _) + _ = _
  rw [dense_row_dot V 0 0 rfl slices_S4x128_o0_0_S1x128 w0 n, dense_row_dot V 1 1 rfl slices_S4x128_o1_0_S1x128 w1 n]

/-- The third pooled row, as the third product's left operand. -/
theorem pay50_apply (b2 : Vec Ideal S1x128 .f32) (v297 v298 : FVec Ideal S16x128 .f32) (l : Fin 128) :
    k0_pay50 b2 v297 v298 (ix2 0 l) = k0_pay48 b2 v297 v298 (ix2 2 l) := by
  unfold k0_pay50
  generalize k0_pay48 b2 v297 v298 = V
  show extractStridedSlice S1x128 ![2, 0] V slices_S4x128_o2_0_S1x128 (ix2 0 l) = _
  exact slice2_axis0_apply 2 V slices_S4x128_o2_0_S1x128 0 l 2 rfl

/-- A [1, 128, 128] block of the dense weight as a matrix. -/
theorem pay51_apply (w : Vec Ideal S1x128x128 .bf16) (l n : Fin 128) : k0_pay51 w (ix2 l n) = w (ix3 0 l n) := by
  unfold k0_pay51
  exact shapeCast_1ab_ab_apply w _ l n

/-- The last stretch of the one-image program at logit `n`: the third and fourth products join the first two, then the
    rectifier, the scale and shift, and the second dense layer. -/
private theorem pay1_apply (v325 : FVec Ideal S4x128 .f32) (v338 : FVec Ideal S1x128 .f32) (v340 : FVec Ideal S1x128 .bf16)
    (v342 : FVec Ideal S128x128 .bf16) (v347 : Vec Ideal S1x128x128 .bf16) (bns bnt : Vec Ideal S1x128 .f32)
    (wf2 : Vec Ideal S128x128 .bf16) (bf2 : Vec Ideal S1x128 .f32) (n : Fin 128) :
    k0_pay1 v325 v338 v340 v342 (constant S1x128 .f32 0x00000000#32) v347 bns bnt wf2 bf2 (ix3 0 0 n)
      = ∑ k : Fin 128, (Net.lrelu ((v338 (ix2 0 k) + ∑ l : Fin 128, v340 (ix2 0 l) * v342 (ix2 l k))
            + ∑ l : Fin 128, v325 (ix2 3 l) * v347 (ix3 0 l k)) * bns (ix2 0 k) + bnt (ix2 0 k)) * wf2 (ix2 k n)
          + bf2 (ix2 0 n) := by
  unfold k0_pay1
  refine (shapeCast_ab_1ab_apply _ _ 0 0 n).trans ?_
  refine (addf_apply _ _ _).trans ?_
  refine congrArg₂ (· + ·) ?_ rfl
  refine (dense_dot_apply _ _ n).trans ?_
  refine Finset.sum_congr rfl fun k _ => ?_
  refine congrArg₂ (· * ·) ?_ rfl
  show Net.lrelu ((v338 (ix2 0 k) + _) + _) * bns (ix2 0 k) + bnt (ix2 0 k) = _
  rw [dense_row_dot v325 3 3 rfl slices_S4x128_o3_0_S1x128 v347 k, dense_dot_apply v340 v342 k]

/-- The first stage's pooled rows with the bias and the rectifier are the specification's first stage. -/
private theorem stage1_eq (x0 : Vec Ideal S1x14x14x42 .f32) (x1 : Vec Ideal S378x512 .bf16) (x2 : Vec Ideal S1x256 .f32) :
    (fun (p : Fin 36) (l : Fin 256) => Net.lrelu (V244 x0 x1 (ix2 p l) + k0_pay44 x2 (ix2 p l)))
      = Net.stage1 (Net.imgR x0) (Net.mat x1) (Net.row x2) := by
  funext p l
  rw [V244_apply, pay44_apply]
  have h117 : (fun (r : Fin 144) (j : Fin 256) => V117 x0 x1 (ix2 r j)) = Net.m1 (Net.c1 (Net.imgR x0) (Net.mat x1)) :=
    funext fun r => funext fun j => V117_apply x0 x1 r j
  rw [h117]
  rfl

/-- The second stage's four pooled rows are the specification's second stage on the first. -/
private theorem stage2_eq (x0 : Vec Ideal S1x14x14x42 .f32) (x1 : Vec Ideal S378x512 .bf16) (x2 : Vec Ideal S1x256 .f32)
    (x3 : Vec Ideal S2304x256 .bf16) (x4 : Vec Ideal S1x128 .f32) (p : Fin 4) (j : Fin 128) :
    k0_pay48 x4 (k0_pay46 (V244 x0 x1) (k0_pay44 x2) x3) (k0_pay47 (V244 x0 x1) (k0_pay44 x2) x3) (ix2 p j)
      = Net.stage2 (Net.stage1 (Net.imgR x0) (Net.mat x1) (Net.row x2)) (Net.mat x3) (Net.row x4) p j := by
  rw [pay48_apply]
  have hm : (fun (r : Fin 16) (l : Fin 128) =>
        max (k0_pay46 (V244 x0 x1) (k0_pay44 x2) x3 (ix2 r l)) (k0_pay47 (V244 x0 x1) (k0_pay44 x2) x3 (ix2 r l)))
      = Net.m2 (Net.c2 (Net.stage1 (Net.imgR x0) (Net.mat x1) (Net.row x2)) (Net.mat x3)) := by
    funext r l
    rw [pay46_apply, pay47_apply, stage1_eq]
    rfl
  rw [hm]
  rfl

/-- The dense head over any second-stage rows `S2` that the program's pooled rows equal. -/
private theorem head_eq (b2 : Vec Ideal S1x128 .f32) (A B : FVec Ideal S16x128 .f32) (S2 : Fin 4 → Fin 128 → EReal)
    (hP : ∀ p j, k0_pay48 b2 A B (ix2 p j) = S2 p j)
    (x5 : Vec Ideal S4x128x128 .bf16) (x6 x7 x8 : Vec Ideal S1x128 .f32) (x9 : Vec Ideal S128x128 .bf16)
    (x10 : Vec Ideal S1x128 .f32) (n : Fin 128) :
    k0_pay1 (k0_pay48 b2 A B) (k0_pay49 b2 A B x6 (View.ld x5 r0_46) (View.ld x5 r0_47)) (k0_pay50 b2 A B)
        (k0_pay51 (View.ld x5 r0_48)) (constant S1x128 .f32 0x00000000#32) (View.ld x5 r0_49) x7 x8 x9 x10 (ix3 0 0 n)
      = Net.head S2 (Net.row x6) (Net.ten3 x5) (Net.row x7) (Net.row x8) (Net.mat x9) (Net.row x10) n := by
  rw [pay1_apply]
  unfold Net.head Net.fc2 Net.bn
  refine congrArg₂ (· + ·) ?_ rfl
  refine Finset.sum_congr rfl fun k _ => ?_
  refine congrArg₂ (· * ·) ?_ rfl
  refine congrArg₂ (· + ·) ?_ rfl
  refine congrArg₂ (· * ·) ?_ rfl
  refine congrArg Net.lrelu ?_
  rw [pay49_apply]
  unfold Net.fc1
  refine congrArg₂ (· + ·) (congrArg₂ (· + ·) (congrArg₂ (· + ·) (congrArg₂ (· + ·) rfl ?_) ?_) ?_) ?_
  · refine Finset.sum_congr rfl fun l _ => ?_
    rw [hP]
    exact congrArg₂ (· * ·) rfl (dense_ld_block x5 0 0 rfl _ l k)
  · refine Finset.sum_congr rfl fun l _ => ?_
    rw [hP]
    exact congrArg₂ (· * ·) rfl (dense_ld_block x5 1 1 rfl _ l k)
  · refine Finset.sum_congr rfl fun l _ => ?_
    rw [pay50_apply, pay51_apply, hP]
    exact congrArg₂ (· * ·) rfl (dense_ld_block x5 2 2 rfl _ l k)
  · refine Finset.sum_congr rfl fun l _ => ?_
    rw [hP]
    exact congrArg₂ (· * ·) rfl (dense_ld_block x5 3 3 rfl _ l k)

/-- THE OUTPUT BLOCK of the one-image program, at logit `n`: the network on the block's image. -/
theorem ref_block (x0 : Vec Ideal S1x14x14x42 .f32) (x1 : Vec Ideal S378x512 .bf16) (x2 : Vec Ideal S1x256 .f32)
    (x3 : Vec Ideal S2304x256 .bf16) (x4 : Vec Ideal S1x128 .f32) (x5 : Vec Ideal S4x128x128 .bf16)
    (x6 x7 x8 : Vec Ideal S1x128 .f32) (x9 : Vec Ideal S128x128 .bf16) (x10 : Vec Ideal S1x128 .f32) (n : Fin 128) :
    out0_11 x0 x1 x2 x3 x4 x5 x6 x7 x8 x9 x10 (ix3 0 0 n)
      = Net.net (Net.imgR x0) (Net.mat x1) (Net.row x2) (Net.mat x3) (Net.row x4) (Net.ten3 x5) (Net.row x6)
          (Net.row x7) (Net.row x8) (Net.mat x9) (Net.row x10) n := by
  rw [out0_11_eq, View.canon_unit_zero zero3]
  rw [View.ld_unit_zero (S := S1x128) zero2 _ x4, View.ld_unit_zero (S := S1x128) zero2 _ x6,
    View.ld_unit_zero (S := S1x128) zero2 _ x7, View.ld_unit_zero (S := S1x128) zero2 _ x8,
    View.ld_unit_zero (S := S1x128) zero2 _ x10, View.ld_unit_zero (S := S1x256) zero2 _ x2,
    View.ld_unit_zero (S := S2304x256) zero2 _ x3, View.ld_unit_zero (S := S128x128) zero2 _ x9]
  unfold Net.net
  exact head_eq x4 _ _ _ (stage2_eq x0 x1 x2 x3 x4) x5 x6 x7 x8 x9 x10 n

end Cert.RefSide

end
-- ==== Proof.RefRun.lean ====
import proofs.«166258_g2000504528272344_pallasbulk_1029_2_alg».proof.Proof.Gen.ReferenceIdeal.Frame
import proofs.«166258_g2000504528272344_pallasbulk_1029_2_alg».proof.Proof.Spec
import proofs.«166258_g2000504528272344_pallasbulk_1029_2_alg».proof.Proof.RefD
import Idealize.ShloMosaic.Lib.Pipeline.Value
import Idealize.ShloMosaic.Lib.StableHlo.Run

/-!
# The one-image program's run, read

The image array is transposed so that the channel trails and folded with the width into 42 lanes: entry
`(B, d, h, l)` is the input at image `B`, channel `l % 3`, depth `d`, height `h`, width `l / 3`. Grid point `t`
stages image `t` and every weight whole, and writes back row `t` of a [1024, 1, 128] array: the network on image
`t`. The 1024 blocks tile the array; after the region the unit axis is dropped and the first ten logits kept.
-/

set_option maxRecDepth 16384

noncomputable section

namespace Cert.RefSide

open Idealize.ShloMosaic Idealize.ShloMosaic.ValueIdx Idealize.ShloMosaic.TcCoe Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-! ## The argument arrays -/

abbrev aX (c : Dev nD) : S1024x3x14x14x14.Idx → EReal := m ((c : Thread nD τ).loc main_arg10)
abbrev aW1 (c : Dev nD) : S378x512.Idx → EReal := m ((c : Thread nD τ).loc main_arg0)
abbrev aB1 (c : Dev nD) : S1x256.Idx → EReal := m ((c : Thread nD τ).loc main_arg1)
abbrev aW2 (c : Dev nD) : S2304x256.Idx → EReal := m ((c : Thread nD τ).loc main_arg2)
abbrev aB2 (c : Dev nD) : S1x128.Idx → EReal := m ((c : Thread nD τ).loc main_arg3)
abbrev aWf1 (c : Dev nD) : S4x128x128.Idx → EReal := m ((c : Thread nD τ).loc main_arg4)
abbrev aBf1 (c : Dev nD) : S1x128.Idx → EReal := m ((c : Thread nD τ).loc main_arg5)
abbrev aBns (c : Dev nD) : S1x128.Idx → EReal := m ((c : Thread nD τ).loc main_arg6)
abbrev aBnt (c : Dev nD) : S1x128.Idx → EReal := m ((c : Thread nD τ).loc main_arg7)
abbrev aWf2 (c : Dev nD) : S128x128.Idx → EReal := m ((c : Thread nD τ).loc main_arg8)
abbrev aBf2 (c : Dev nD) : S1x128.Idx → EReal := m ((c : Thread nD τ).loc main_arg9)

/-- Every image's padded logits, as a [1024, 1, 128] array. -/
def padded (c : Dev nD) : S1024x1x128.Idx → EReal := fun i =>
  Net.logits (aX m c) (aW1 m c) (aB1 m c) (aW2 m c) (aB2 m c) (aWf1 m c) (aBf1 m c) (aBns m c) (aBnt m c) (aWf2 m c)
    (aBf2 m c) ⟨(i 0).val, (i 0).isLt⟩ ⟨(i 2).val, (i 2).isLt⟩

/-! ## The image array as the region finds it -/

theorem V_v1_eq (c : Dev nD) :
    (V m c main_v1 : S1024x14x14x42.Idx → EReal)
      = shapeCast S1024x14x14x42
          (transpose S1024x14x14x14x3 [0, 2, 3, 4, 1] (aX m c) transposes_S1024x3x14x14x14_S1024x14x14x14x3_0_2_3_4_1)
          shapeCasts_S1024x14x14x14x3_S1024x14x14x42 := by
  dsimp only [V, V0]
  simp only [hostOps0, List.flatten_cons, List.flatten_nil, List.append_nil, List.cons_append, List.nil_append]
  after_results
  rfl

/-- Its entry `(B, d, h, l)` is the input at image `B`, channel `l % 3`, depth `d`, height `h`, width `l / 3`. -/
theorem V_v1_apply (c : Dev nD) (B : Fin 1024) (d h : Fin 14) (l : Fin 42) :
    (V m c main_v1 : S1024x14x14x42.Idx → EReal) (ix4 B d h l)
      = aX m c (ix5 B ⟨l.val % 3, by omega⟩ d h ⟨l.val / 3, by omega⟩) := by
  rw [V_v1_eq]
  refine (shapeCast_apply _ _ (ix4 B d h l)
    (ix5 B d h (⟨l.val / 3, by omega⟩ : Fin 14) (⟨l.val % 3, by omega⟩ : Fin 3)) ?_).trans ?_
  · rw [Shape.rowMajor_val_five, Shape.rowMajor_val_four]
    show (((B.val * 14 + d.val) * 14 + h.val) * 14 + l.val / 3) * 3 + l.val % 3
      = ((B.val * 14 + d.val) * 14 + h.val) * 42 + l.val
    omega
  · refine transpose_apply _ _ _ _ (ix5 B ⟨l.val % 3, by omega⟩ d h ⟨l.val / 3, by omega⟩) fun b => ?_
    match b with
    | ⟨0, _⟩ => rfl
    | ⟨1, _⟩ => rfl
    | ⟨2, _⟩ => rfl
    | ⟨3, _⟩ => rfl
    | ⟨4, _⟩ => rfl

/-! ## The windows' blocks -/

/-- The image window's block at point `t` is image `t`. -/
theorem iblk0_apply (c : Dev nD) (t : Fin cfg0.N) (d h : Fin 14) (l : Fin 42) :
    (iblk m c 0 t : S1x14x14x42.Idx → EReal) (ix4 0 d h l)
      = (V m c main_v1 : S1024x14x14x42.Idx → EReal)
          (ix4 ⟨t.val, lt_of_lt_of_eq t.isLt (show cfg0.N = 1024 from N_0)⟩ d h l) := by
  have hi : win0_0.index t 0 = t.val ∧ win0_0.index t 1 = 0 ∧ win0_0.index t 2 = 0 ∧ win0_0.index t 3 = 0 :=
    (by decide +kernel : ∀ t : Fin grid0.N,
      win0_0.index t 0 = t.val ∧ win0_0.index t 1 = 0 ∧ win0_0.index t 2 = 0 ∧ win0_0.index t 3 = 0) t
  unfold iblk
  rw [View.read_apply]
  show V m c main_v1 _ = V m c main_v1 _
  congr 1
  funext a
  apply Fin.ext
  match a with
  | ⟨0, _⟩ => show win0_0.index t 0 * 1 + 1 * (0 : Fin 1).val = t.val; rw [hi.1]; simp
  | ⟨1, _⟩ => show win0_0.index t 1 * 14 + 1 * d.val = d.val; rw [hi.2.1]; omega
  | ⟨2, _⟩ => show win0_0.index t 2 * 14 + 1 * h.val = h.val; rw [hi.2.2.1]; omega
  | ⟨3, _⟩ => show win0_0.index t 3 * 42 + 1 * l.val = l.val; rw [hi.2.2.2]; omega

theorem iblk1_eq (c : Dev nD) (t : Fin cfg0.N) :
    (iblk m c 1 t : S378x512.Idx → EReal) = (V m c main_arg0 : S378x512.Idx → EReal) := by
  have hi : win0_1.index t 0 = 0 ∧ win0_1.index t 1 = 0 :=
    (by decide +kernel : ∀ t : Fin grid0.N, win0_1.index t 0 = 0 ∧ win0_1.index t 1 = 0) t
  funext j
  unfold iblk
  rw [View.read_apply]
  show V m c main_arg0 _ = V m c main_arg0 _
  congr 1
  funext a
  apply Fin.ext
  match a with
  | ⟨0, _⟩ => show win0_1.index t 0 * 378 + 1 * (j 0).val = (j 0).val; rw [hi.1]; omega
  | ⟨1, _⟩ => show win0_1.index t 1 * 512 + 1 * (j 1).val = (j 1).val; rw [hi.2]; omega

theorem iblk2_eq (c : Dev nD) (t : Fin cfg0.N) :
    (iblk m c 2 t : S1x256.Idx → EReal) = (V m c main_arg1 : S1x256.Idx → EReal) := by
  have hi : win0_2.index t 0 = 0 ∧ win0_2.index t 1 = 0 :=
    (by decide +kernel : ∀ t : Fin grid0.N, win0_2.index t 0 = 0 ∧ win0_2.index t 1 = 0) t
  funext j
  unfold iblk
  rw [View.read_apply]
  show V m c main_arg1 _ = V m c main_arg1 _
  congr 1
  funext a
  apply Fin.ext
  match a with
  | ⟨0, _⟩ => show win0_2.index t 0 * 1 + 1 * (j 0).val = (j 0).val; rw [hi.1]; omega
  | ⟨1, _⟩ => show win0_2.index t 1 * 256 + 1 * (j 1).val = (j 1).val; rw [hi.2]; omega

theorem iblk3_eq (c : Dev nD) (t : Fin cfg0.N) :
    (iblk m c 3 t : S2304x256.Idx → EReal) = (V m c main_arg2 : S2304x256.Idx → EReal) := by
  have hi : win0_3.index t 0 = 0 ∧ win0_3.index t 1 = 0 :=
    (by decide +kernel : ∀ t : Fin grid0.N, win0_3.index t 0 = 0 ∧ win0_3.index t 1 = 0) t
  funext j
  unfold iblk
  rw [View.read_apply]
  show V m c main_arg2 _ = V m c main_arg2 _
  congr 1
  funext a
  apply Fin.ext
  match a with
  | ⟨0, _⟩ => show win0_3.index t 0 * 2304 + 1 * (j 0).val = (j 0).val; rw [hi.1]; omega
  | ⟨1, _⟩ => show win0_3.index t 1 * 256 + 1 * (j 1).val = (j 1).val; rw [hi.2]; omega

theorem iblk4_eq (c : Dev nD) (t : Fin cfg0.N) :
    (iblk m c 4 t : S1x128.Idx → EReal) = (V m c main_arg3 : S1x128.Idx → EReal) := by
  have hi : win0_4.index t 0 = 0 ∧ win0_4.index t 1 = 0 :=
    (by decide +kernel : ∀ t : Fin grid0.N, win0_4.index t 0 = 0 ∧ win0_4.index t 1 = 0) t
  funext j
  unfold iblk
  rw [View.read_apply]
  show V m c main_arg3 _ = V m c main_arg3 _
  congr 1
  funext a
  apply Fin.ext
  match a with
  | ⟨0, _⟩ => show win0_4.index t 0 * 1 + 1 * (j 0).val = (j 0).val; rw [hi.1]; omega
  | ⟨1, _⟩ => show win0_4.index t 1 * 128 + 1 * (j 1).val = (j 1).val; rw [hi.2]; omega

theorem iblk5_eq (c : Dev nD) (t : Fin cfg0.N) :
    (iblk m c 5 t : S4x128x128.Idx → EReal) = (V m c main_arg4 : S4x128x128.Idx → EReal) := by
  have hi : win0_5.index t 0 = 0 ∧ win0_5.index t 1 = 0 ∧ win0_5.index t 2 = 0 :=
    (by decide +kernel : ∀ t : Fin grid0.N, win0_5.index t 0 = 0 ∧ win0_5.index t 1 = 0 ∧ win0_5.index t 2 = 0) t
  funext j
  unfold iblk
  rw [View.read_apply]
  show V m c main_arg4 _ = V m c main_arg4 _
  congr 1
  funext a
  apply Fin.ext
  match a with
  | ⟨0, _⟩ => show win0_5.index t 0 * 4 + 1 * (j 0).val = (j 0).val; rw [hi.1]; omega
  | ⟨1, _⟩ => show win0_5.index t 1 * 128 + 1 * (j 1).val = (j 1).val; rw [hi.2.1]; omega
  | ⟨2, _⟩ => show win0_5.index t 2 * 128 + 1 * (j 2).val = (j 2).val; rw [hi.2.2]; omega

theorem iblk6_eq (c : Dev nD) (t : Fin cfg0.N) :
    (iblk m c 6 t : S1x128.Idx → EReal) = (V m c main_arg5 : S1x128.Idx → EReal) := by
  have hi : win0_6.index t 0 = 0 ∧ win0_6.index t 1 = 0 :=
    (by decide +kernel : ∀ t : Fin grid0.N, win0_6.index t 0 = 0 ∧ win0_6.index t 1 = 0) t
  funext j
  unfold iblk
  rw [View.read_apply]
  show V m c main_arg5 _ = V m c main_arg5 _
  congr 1
  funext a
  apply Fin.ext
  match a with
  | ⟨0, _⟩ => show win0_6.index t 0 * 1 + 1 * (j 0).val = (j 0).val; rw [hi.1]; omega
  | ⟨1, _⟩ => show win0_6.index t 1 * 128 + 1 * (j 1).val = (j 1).val; rw [hi.2]; omega

theorem iblk7_eq (c : Dev nD) (t : Fin cfg0.N) :
    (iblk m c 7 t : S1x128.Idx → EReal) = (V m c main_arg6 : S1x128.Idx → EReal) := by
  have hi : win0_7.index t 0 = 0 ∧ win0_7.index t 1 = 0 :=
    (by decide +kernel : ∀ t : Fin grid0.N, win0_7.index t 0 = 0 ∧ win0_7.index t 1 = 0) t
  funext j
  unfold iblk
  rw [View.read_apply]
  show V m c main_arg6 _ = V m c main_arg6 _
  congr 1
  funext a
  apply Fin.ext
  match a with
  | ⟨0, _⟩ => show win0_7.index t 0 * 1 + 1 * (j 0).val = (j 0).val; rw [hi.1]; omega
  | ⟨1, _⟩ => show win0_7.index t 1 * 128 + 1 * (j 1).val = (j 1).val; rw [hi.2]; omega

theorem iblk8_eq (c : Dev nD) (t : Fin cfg0.N) :
    (iblk m c 8 t : S1x128.Idx → EReal) = (V m c main_arg7 : S1x128.Idx → EReal) := by
  have hi : win0_8.index t 0 = 0 ∧ win0_8.index t 1 = 0 :=
    (by decide +kernel : ∀ t : Fin grid0.N, win0_8.index t 0 = 0 ∧ win0_8.index t 1 = 0) t
  funext j
  unfold iblk
  rw [View.read_apply]
  show V m c main_arg7 _ = V m c main_arg7 _
  congr 1
  funext a
  apply Fin.ext
  match a with
  | ⟨0, _⟩ => show win0_8.index t 0 * 1 + 1 * (j 0).val = (j 0).val; rw [hi.1]; omega
  | ⟨1, _⟩ => show win0_8.index t 1 * 128 + 1 * (j 1).val = (j 1).val; rw [hi.2]; omega

theorem iblk9_eq (c : Dev nD) (t : Fin cfg0.N) :
    (iblk m c 9 t : S128x128.Idx → EReal) = (V m c main_arg8 : S128x128.Idx → EReal) := by
  have hi : win0_9.index t 0 = 0 ∧ win0_9.index t 1 = 0 :=
    (by decide +kernel : ∀ t : Fin grid0.N, win0_9.index t 0 = 0 ∧ win0_9.index t 1 = 0) t
  funext j
  unfold iblk
  rw [View.read_apply]
  show V m c main_arg8 _ = V m c main_arg8 _
  congr 1
  funext a
  apply Fin.ext
  match a with
  | ⟨0, _⟩ => show win0_9.index t 0 * 128 + 1 * (j 0).val = (j 0).val; rw [hi.1]; omega
  | ⟨1, _⟩ => show win0_9.index t 1 * 128 + 1 * (j 1).val = (j 1).val; rw [hi.2]; omega

theorem iblk10_eq (c : Dev nD) (t : Fin cfg0.N) :
    (iblk m c 10 t : S1x128.Idx → EReal) = (V m c main_arg9 : S1x128.Idx → EReal) := by
  have hi : win0_10.index t 0 = 0 ∧ win0_10.index t 1 = 0 :=
    (by decide +kernel : ∀ t : Fin grid0.N, win0_10.index t 0 = 0 ∧ win0_10.index t 1 = 0) t
  funext j
  unfold iblk
  rw [View.read_apply]
  show V m c main_arg9 _ = V m c main_arg9 _
  congr 1
  funext a
  apply Fin.ext
  match a with
  | ⟨0, _⟩ => show win0_10.index t 0 * 1 + 1 * (j 0).val = (j 0).val; rw [hi.1]; omega
  | ⟨1, _⟩ => show win0_10.index t 1 * 128 + 1 * (j 1).val = (j 1).val; rw [hi.2]; omega

/-! ## What a point writes back -/

/-- Point `t` writes back row `t` of the padded logits. -/
theorem flushed_eq (c : Dev nD) (t : Fin cfg0.N) :
    (dats m 0 c).flushed 11 t = ((cfg0.win 11).blk t).view.read (Elt Ideal) (padded m c) := by
  have hi : win0_11.index t 0 = t.val ∧ win0_11.index t 1 = 0 ∧ win0_11.index t 2 = 0 :=
    (by decide +kernel : ∀ t : Fin grid0.N, win0_11.index t 0 = t.val ∧ win0_11.index t 1 = 0 ∧ win0_11.index t 2 = 0) t
  have ht : t.val < 1024 := lt_of_lt_of_eq t.isLt (show cfg0.N = 1024 from N_0)
  show (cfg0.win 11).cut (grid0.coords t) ((dats m 0 c).after 11 t) = _
  rw [after0_11]
  funext j
  obtain ⟨u, u', n, rfl⟩ : ∃ (u u' : Fin 1) (n : Fin 128), j = ix3 u u' n := ⟨j 0, j 1, j 2, eq_ix3 j⟩
  obtain rfl : u = 0 := Subsingleton.elim _ _
  obtain rfl : u' = 0 := Subsingleton.elim _ _
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix3 0 0 n)
    = padded m c (((cfg0.win 11).blk t).view.emb (ix3 0 0 n))
  have e : ((cfg0.win 11).blk t).view.emb (ix3 0 0 n)
      = (ix3 (⟨t.val, ht⟩ : Fin 1024) (0 : Fin 1) n : S1024x1x128.Idx) := by
    funext a
    apply Fin.ext
    match a with
    | ⟨0, _⟩ => show win0_11.index t 0 * 1 + 1 * (0 : Fin 1).val = t.val; rw [hi.1]; simp
    | ⟨1, _⟩ => show win0_11.index t 1 * 1 + 1 * (0 : Fin 1).val = (0 : Fin 1).val; rw [hi.2.1]; simp
    | ⟨2, _⟩ => show win0_11.index t 2 * 128 + 1 * n.val = n.val; rw [hi.2.2]; omega
  rw [e]
  refine (ref_block (iblk m c 0 t) (iblk m c 1 t) (iblk m c 2 t) (iblk m c 3 t) (iblk m c 4 t) (iblk m c 5 t)
    (iblk m c 6 t) (iblk m c 7 t) (iblk m c 8 t) (iblk m c 9 t) (iblk m c 10 t) n).trans ?_
  rw [iblk1_eq, iblk2_eq, iblk3_eq, iblk4_eq, iblk5_eq, iblk6_eq, iblk7_eq, iblk8_eq, iblk9_eq, iblk10_eq,
    V_main_arg0, V_main_arg1, V_main_arg2, V_main_arg3, V_main_arg4, V_main_arg5, V_main_arg6, V_main_arg7, V_main_arg8,
    V_main_arg9]
  show _ = Net.logits _ _ _ _ _ _ _ _ _ _ _ _ _
  unfold Net.logits
  congr 1
  funext d h l
  show (iblk m c 0 t : S1x14x14x42.Idx → EReal) (ix4 0 d h l) = _
  rw [iblk0_apply, V_v1_apply]

/-! ## The array after the region, and the result -/

/-- Every row lies in the block of the point of its image. -/
theorem cover (c : Dev nD) (i : ((cfg0.win 11).arr.view.loc (c.tc : Thread nD τ)).2.ty.Idx) :
    ∃ t : Fin cfg0.N, (cfg0.win 11).flush t = true ∧ i ∈ ((cfg0.win 11).blk t).view.set := by
  have h0 : (i 0).val < 1024 := (i 0).isLt
  have h1 : (i 1).val < 1 := (i 1).isLt
  have h2 : (i 2).val < 128 := (i 2).isLt
  have hN : cfg0.N = 1024 := N_0
  have hi : ∀ t : Fin cfg0.N, win0_11.index t 0 = t.val ∧ win0_11.index t 1 = 0 ∧ win0_11.index t 2 = 0 :=
    (by decide +kernel : ∀ t : Fin grid0.N, win0_11.index t 0 = t.val ∧ win0_11.index t 1 = 0 ∧ win0_11.index t 2 = 0)
  let t : Fin cfg0.N := ⟨(i 0).val, by rw [hN]; exact h0⟩
  refine ⟨t, flush0_11 t, ?_⟩
  show i ∈ ((View.whole main_v2).slice (win0_11.rect t)).set
  rw [View.set_slice_whole, Rect.mem_set_unit]
  intro a
  match a with
  | ⟨0, _⟩ =>
    show win0_11.index t 0 * 1 ≤ (i 0).val ∧ (i 0).val < win0_11.index t 0 * 1 + 1
    rw [(hi t).1]
    show (i 0).val * 1 ≤ (i 0).val ∧ (i 0).val < (i 0).val * 1 + 1
    omega
  | ⟨1, _⟩ =>
    show win0_11.index t 1 * 1 ≤ (i 1).val ∧ (i 1).val < win0_11.index t 1 * 1 + 1
    rw [(hi t).2.1]
    omega
  | ⟨2, _⟩ =>
    show win0_11.index t 2 * 128 ≤ (i 2).val ∧ (i 2).val < win0_11.index t 2 * 128 + 128
    rw [(hi t).2.2]
    omega

/-- The 1024 blocks tile the array: after the region it holds every image's padded logits. -/
theorem final (c : Dev nD) : (dats m 0 c).arrAt 11 cfg0.N = padded m c :=
  (dats m 0 c).arrAt_eq_of_cover 11 (padded m c) (fun t _ => flushed_eq m c t) (cover c)

/-- The program's result after the two host operations that follow the region: the unit axis dropped, the first ten
    logits of every image kept. -/
theorem tail_eq (c : Dev nD) :
    (Pipeline.afterTail₀ cfgs (dats m) 0 (V0 m) [hostOps1] c main_v4 : S1024x10.Idx → EReal)
      = Net.result (aX m c) (aW1 m c) (aB1 m c) (aW2 m c) (aB2 m c) (aWf1 m c) (aBf1 m c) (aBns m c) (aBnt m c)
          (aWf2 m c) (aBf2 m c) := by
  unfold Pipeline.afterTail₀
  show StableHlo.after hostOps1 _ (Proc.devRef .tc main_v4) = _
  after_results
  have hw := (Pipeline.withArrays_arr spec0 launch0.win.arr_inj c (V0 m c)
    (fun w => (dats m 0 c).arrAt w cfg0.N) 11).trans (final m c)
  funext i
  obtain ⟨B, n, rfl⟩ : ∃ (B : Fin 1024) (n : Fin 10), i = ix2 B n := ⟨i 0, i 1, eq_ix2 i⟩
  refine (extractStridedSlice_apply _ _ _ (ix2 B n) (ix2 B (⟨n.val, by omega⟩ : Fin 128)) fun a => ?_).trans ?_
  · match a with
    | ⟨0, _⟩ => show B.val = 0 + B.val; omega
    | ⟨1, _⟩ => show n.val = 0 + n.val; omega
  · refine (shapeCast_apply _ _ (ix2 B (⟨n.val, by omega⟩ : Fin 128)) (ix3 B (0 : Fin 1) (⟨n.val, by omega⟩ : Fin 128)) ?_).trans ?_
    · rw [Shape.rowMajor_val_three, Shape.rowMajor_val_two]
      show (B.val * 1 + (0 : Fin 1).val) * 128 + n.val = B.val * 128 + n.val
      simp
    · exact congrFun hw _

/-! ## The run -/

/-- Every weakly fair execution ends with the result array at the first ten logits of every image and the
    arguments as launched. -/
theorem run : θ_run defs (onTc (τ := τ) (main (F := Ideal))) ⟨m, fun _ => 0, ρ⟩ fun r => ∀ c : Dev nD,
      r.2.mem ((c.tc : Thread nD τ).loc main_v4)
        = Net.result (aX m c) (aW1 m c) (aB1 m c) (aW2 m c) (aB2 m c) (aWf1 m c) (aBf1 m c) (aBns m c) (aBnt m c)
            (aWf2 m c) (aBf2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).2 main_v4 (Pipeline.mem_restRefs_of main_v4 (by decide) (by decide))).trans (tail_eq m c),
     ((h c).1 1).trans (((dats m 0 c).arrAt_in 1 rfl _).trans ((A_eq m c 1).trans (V_main_arg0 m c))),
     ((h c).1 2).trans (((dats m 0 c).arrAt_in 2 rfl _).trans ((A_eq m c 2).trans (V_main_arg1 m c))),
     ((h c).1 3).trans (((dats m 0 c).arrAt_in 3 rfl _).trans ((A_eq m c 3).trans (V_main_arg2 m c))),
     ((h c).1 4).trans (((dats m 0 c).arrAt_in 4 rfl _).trans ((A_eq m c 4).trans (V_main_arg3 m c))),
     ((h c).1 5).trans (((dats m 0 c).arrAt_in 5 rfl _).trans ((A_eq m c 5).trans (V_main_arg4 m c))),
     ((h c).1 6).trans (((dats m 0 c).arrAt_in 6 rfl _).trans ((A_eq m c 6).trans (V_main_arg5 m c))),
     ((h c).1 7).trans (((dats m 0 c).arrAt_in 7 rfl _).trans ((A_eq m c 7).trans (V_main_arg6 m c))),
     ((h c).1 8).trans (((dats m 0 c).arrAt_in 8 rfl _).trans ((A_eq m c 8).trans (V_main_arg7 m c))),
     ((h c).1 9).trans (((dats m 0 c).arrAt_in 9 rfl _).trans ((A_eq m c 9).trans (V_main_arg8 m c))),
     ((h c).1 10).trans (((dats m 0 c).arrAt_in 10 rfl _).trans ((A_eq m c 10).trans (V_main_arg9 m c))),
     ((h c).2 main_arg10 (Pipeline.mem_restRefs_of main_arg10 (by decide) (by decide))).trans (W_main_arg10 m (dats m) c)⟩)
    (run_main m ρ)

end Cert.RefSide

end
-- ==== Proof.lean ====
/- Two programs for one small 3-d convolutional network over a batch of 1024 images — two 3×3×3 convolutions, each
   followed by a leaky rectifier and a 2×2×2 maximum pooling, then a dense layer, a rectifier, an affine map and a
   second dense layer — are shown to end with equal results on the extended reals. One stages sixteen images per grid
   point with the image as the third axis of its vectors and cuts the first contraction into a 256-row and a 128-row
   product over a zero-padded regrouping of the weight; the other stages one image per grid point and spells every
   slice and join out. Both are equal, image by image, to one network stated stage by stage (Proof/Spec.lean): the
   sixteen-image side in Proof/KerE.lean, KerF.lean, KerG.lean (the payloads), KerHost.lean (the arrays made before
   the region) and KerRun.lean (the blocks, the array after the region, the run); the one-image side in
   Proof/RefTerms.lean, RefA.lean … RefD.lean and RefRun.lean. The laws used are re-groupings of finite sums on the
   extended reals, where addition is commutative and associative, and 0 · 0 = 0 on the padded lanes; nothing needs
   the inputs to be finite. The three frames are the generated ones; the idealization changed no operation. -/
import proofs.«166258_g2000504528272344_pallasbulk_1029_2_alg».proof.Defs
import proofs.«166258_g2000504528272344_pallasbulk_1029_2_alg».proof.Proof.Gen.Kernel
import proofs.«166258_g2000504528272344_pallasbulk_1029_2_alg».proof.Proof.Gen.Kernel.Frame
import proofs.«166258_g2000504528272344_pallasbulk_1029_2_alg».proof.Proof.Gen.KernelIdeal
import proofs.«166258_g2000504528272344_pallasbulk_1029_2_alg».proof.Proof.Gen.KernelIdeal.Frame
import proofs.«166258_g2000504528272344_pallasbulk_1029_2_alg».proof.Proof.Gen.ReferenceIdeal
import proofs.«166258_g2000504528272344_pallasbulk_1029_2_alg».proof.Proof.Gen.ReferenceIdeal.Frame
import proofs.«166258_g2000504528272344_pallasbulk_1029_2_alg».proof.Proof.Gen.Pre_finite_inputs
import proofs.«166258_g2000504528272344_pallasbulk_1029_2_alg».proof.Proof.KerRun
import proofs.«166258_g2000504528272344_pallasbulk_1029_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Gen.frame m ρ

/-- The idealization rewrote no operation. -/
theorem preserves : Cert.preserves_Kernel_KernelIdeal := trivial

/-- Both programs end with the first ten logits of the network on every image: one function of the arguments, which
    agree. -/
theorem algebraic : Cert.algebraic_KernelIdeal_ReferenceIdeal := by
  intro m ρ m' ρ' _ hagree
  refine ⟨fun c => Cert.Net.result (Cert.KerSide.aX m c) (Cert.KerSide.aW1 m c) (Cert.KerSide.aB1 m c)
      (Cert.KerSide.aW2 m c) (Cert.KerSide.aB2 m c) (Cert.KerSide.aWf1 m c) (Cert.KerSide.aBf1 m c)
      (Cert.KerSide.aBns m c) (Cert.KerSide.aBnt m c) (Cert.KerSide.aWf2 m c) (Cert.KerSide.aBf2 m c),
    Cert.KerSide.run m ρ, ?_⟩
  refine (θ_run Cert.ReferenceIdeal.defs _ _).mono (fun _ h c => ⟨(h c).1.trans ?_, (h c).2⟩)
    (Cert.RefSide.run m' ρ')
  obtain ⟨e0, e1, e2, e3, e4, e5, e6, e7, e8, e9, e10⟩ := hagree c
  dsimp only [Cert.RefSide.aX, Cert.RefSide.aW1, Cert.RefSide.aB1, Cert.RefSide.aW2, Cert.RefSide.aB2, Cert.RefSide.aWf1,
    Cert.RefSide.aBf1, Cert.RefSide.aBns, Cert.RefSide.aBnt, Cert.RefSide.aWf2, Cert.RefSide.aBf2, Cert.KerSide.aX,
    Cert.KerSide.aW1, Cert.KerSide.aB1, Cert.KerSide.aW2, Cert.KerSide.aB2, Cert.KerSide.aWf1, Cert.KerSide.aBf1,
    Cert.KerSide.aBns, Cert.KerSide.aBnt, Cert.KerSide.aWf2, Cert.KerSide.aBf2]
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
